-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S8x256 : Shape := ⟨2, ![8, 256]⟩
abbrev S497x64 : Shape := ⟨2, ![497, 64]⟩
abbrev S64 : Shape := ⟨1, ![64]⟩
abbrev S256x64 : Shape := ⟨2, ![256, 64]⟩
abbrev S917504 : Shape := ⟨1, ![917504]⟩
abbrev S131072 : Shape := ⟨1, ![131072]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  bcast_S_S497x64 : S_.BroadcastsInDim S497x64 (![] : Fin 0 → Fin S497x64.rank)
  reducesTo_S497x64_S_d0_1 : S497x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S131072 : S_.BroadcastsInDim S131072 (![] : Fin 0 → Fin S131072.rank)
  reducesTo_S131072_S_d0 : S131072.ReducesTo [0] S_

variable [Facts]

def fn_part3 {F : FTy → Type} [FloatOps F] (main_arg14 : IVec S131072 32) (main_v48 : IVec S_ 1) (main_v50 : IVec S131072 1) : IVec S_ 1 :=
  let main_c_19 : IVec S_ 32 := constantI S_ 32 8#32
  let main_v51 : IVec S131072 32 := broadcastInDim S131072 ![] bcast_S_S131072 main_c_19
  let main_v52 : IVec S131072 1 := cmpi .slt main_arg14 main_v51
  let main_v53 : IVec S131072 1 := andi main_v50 main_v52
  let main_c_20 : IVec S_ 1 := constantI S_ 1 1#1
  let main_v54 : IVec S_ 1 := (fun x v => Host.reduce IntOp.andi x v reducesTo_S131072_S_d0 h_S_) main_v53 main_c_20
  let main_v55 : IVec S_ 1 := andi main_v48 main_v54
  main_v55

def fn_part2 {F : FTy → Type} [FloatOps F] (main_arg7 : FVec F S64 .f32) (main_arg8 : FVec F S256x64 .f32) (main_arg9 : FVec F S64 .f32) (main_arg14 : IVec S131072 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S131072 32 := broadcastInDim S131072 ![] bcast_S_S131072 main_c_18
  let main_v50 : IVec S131072 1 := cmpi .sge main_arg14 main_v49
  fn_part3 (F := F) main_arg14 main_v48 main_v50

def fn_part1 {F : FTy → Type} [FloatOps F] (main_arg4 : FVec F S64 .f32) (main_arg5 : FVec F S64 .f32) (main_arg6 : FVec F S64 .f32) (main_arg7 : FVec F S64 .f32) (main_arg8 : FVec F S256x64 .f32) (main_arg9 : FVec F S64 .f32) (main_arg14 : IVec S131072 32) (main_v13 : IVec S_ 1) (main_v16 : IVec S497x64 1) : IVec S_ 1 :=
  let main_c_5 : IVec S_ 1 := constantI S_ 1 1#1
  let main_v17 : IVec S_ 1 := (fun x v => Host.reduce IntOp.andi x v reducesTo_S497x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg14 main_v33

def fn {F : FTy → Type} [FloatOps F] (main_arg0 : FVec F S131072x64 .f32) (main_arg1 : FVec F S8x256 .f32) (main_arg2 : FVec F S497x64 .f32) (main_arg3 : FVec F S497x64 .f32) (main_arg4 : FVec F S64 .f32) (main_arg5 : FVec F S64 .f32) (main_arg6 : FVec F S64 .f32) (main_arg7 : FVec F S64 .f32) (main_arg8 : FVec F S256x64 .f32) (main_arg9 : FVec F S64 .f32) (main_arg10 : IVec S917504 32) (main_arg11 : IVec S917504 32) (main_arg12 : IVec S917504 32) (main_arg13 : IVec S131072 32) (main_arg14 : IVec S131072 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S497x64 .f32 := Host.absf main_arg2
  let main_cst_2 : FVec F S_ .f32 := constant S_ .f32 0x7F800000#32
  let main_v10 : FVec F S497x64 .f32 := broadcastInDim S497x64 ![] bcast_S_S497x64 main_cst_2
  let main_v11 : IVec S497x64 1 := cmpf .olt main_v9 main_v10
  let main_c_3 : IVec S_ 1 := constantI S_ 1 1#1
  let main_v12 : IVec S_ 1 := (fun x v => Host.reduce IntOp.andi x v reducesTo_S497x64_S_d0_1 h_S_) main_v11 main_c_3
  let main_v13 : IVec S_ 1 := andi main_v8 main_v12
  let main_v14 : FVec F S497x64 .f32 := Host.absf main_arg3
  let main_cst_4 : FVec F S_ .f32 := constant S_ .f32 0x7F800000#32
  let main_v15 : FVec F S497x64 .f32 := broadcastInDim S497x64 ![] bcast_S_S497x64 main_cst_4
  let main_v16 : IVec S497x64 1 := cmpf .olt main_v14 main_v15
  fn_part1 (F := F) main_arg4 main_arg5 main_arg6 main_arg7 main_arg8 main_arg9 main_arg14 main_v13 main_v16
-- ==== Kernel.lean ====
abbrev S131072x64 : Shape := ⟨2, ![131072, 64]⟩
abbrev S8x256 : Shape := ⟨2, ![8, 256]⟩
abbrev S497x64 : Shape := ⟨2, ![497, 64]⟩
abbrev S64 : Shape := ⟨1, ![64]⟩
abbrev S256x64 : Shape := ⟨2, ![256, 64]⟩
abbrev S917504 : Shape := ⟨1, ![917504]⟩
abbrev S131072 : Shape := ⟨1, ![131072]⟩
abbrev S131072x1 : Shape := ⟨2, ![131072, 1]⟩
abbrev S_ : Shape := ⟨0, ![]⟩
abbrev S8 : Shape := ⟨1, ![8]⟩
abbrev S8x64 : Shape := ⟨2, ![8, 64]⟩
abbrev S8x1 : Shape := ⟨2, ![8, 1]⟩
abbrev S8x32x2 : Shape := ⟨3, ![8, 32, 2]⟩
abbrev S8x32 : Shape := ⟨2, ![8, 32]⟩
abbrev S1x64 : Shape := ⟨2, ![1, 64]⟩
abbrev S4096x64 : Shape := ⟨2, ![4096, 64]⟩
abbrev S4096x1 : Shape := ⟨2, ![4096, 1]⟩
abbrev S1x8 : Shape := ⟨2, ![1, 8]⟩
abbrev S4096x8 : Shape := ⟨2, ![4096, 8]⟩
abbrev S1x7 : Shape := ⟨2, ![1, 7]⟩
abbrev S131072x7 : Shape := ⟨2, ![131072, 7]⟩
abbrev S131072x71 : Shape := ⟨2, ![131072, 71]⟩
abbrev S917504x1 : Shape := ⟨2, ![917504, 1]⟩
abbrev S917504x71 : Shape := ⟨2, ![917504, 71]⟩
abbrev S131072x497 : Shape := ⟨2, ![131072, 497]⟩
abbrev S4096x497 : Shape := ⟨2, ![4096, 497]⟩

abbrev nBuf : Space → Nat
  | .hbm => 193
  | .vmem => 33
  | .smem => 0
  | _ => 0

abbrev hbmTy0_0 (i : Nat) : BufTy := match i % 128 with
  | 0 => ⟨S131072x64, .f32⟩
  | 1 => ⟨S8x256, .f32⟩
  | 2 => ⟨S497x64, .f32⟩
  | 3 => ⟨S497x64, .f32⟩
  | 4 => ⟨S64, .f32⟩
  | 5 => ⟨S64, .f32⟩
  | 6 => ⟨S64, .f32⟩
  | 7 => ⟨S64, .f32⟩
  | 8 => ⟨S256x64, .f32⟩
  | 9 => ⟨S64, .f32⟩
  | 10 => ⟨S917504, .i32⟩
  | 11 => ⟨S917504, .i32⟩
  | 12 => ⟨S917504, .i32⟩
  | 13 => ⟨S131072, .i32⟩
  | 14 => ⟨S131072, .i32⟩
  | 15 => ⟨S131072x1, .i32⟩
  | 16 => ⟨S_, .f32⟩
  | 17 => ⟨S131072, .f32⟩
  | 18 => ⟨S_, .f32⟩
  | 19 => ⟨S8, .f32⟩
  | 20 => ⟨S131072x1, .i32⟩
  | 21 => ⟨S8, .f32⟩
  | 22 => ⟨S_, .f32⟩
  | 23 => ⟨S8x64, .f32⟩
  | 24 => ⟨S131072x1, .i32⟩
  | 25 => ⟨S8x64, .f32⟩
  | 26 => ⟨S8x1, .f32⟩
  | 27 => ⟨S_, .f32⟩
  | 28 => ⟨S8x1, .f32⟩
  | 29 => ⟨S8x1, .f32⟩
  | 30 => ⟨S_, .f32⟩
  | 31 => ⟨S8x1, .f32⟩
  | 32 => ⟨S8x1, .f32⟩
  | 33 => ⟨S8x32x2, .f32⟩
  | 34 => ⟨S_, .f32⟩
  | 35 => ⟨S8x32, .f32⟩
  | 36 => ⟨S8x32, .f32⟩
  | 37 => ⟨S8x32, .f32⟩
  | 38 => ⟨S8x32x2, .f32⟩
  | 39 => ⟨S8x64, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x64, .f32⟩
  | 49 => ⟨S131072x64, .f32⟩
  | 50 => ⟨S131072x64, .f32⟩
  | 51 => ⟨S_, .f32⟩
  | 52 => ⟨S8x64, .f32⟩
  | 53 => ⟨S131072x1, .i32⟩
  | 54 => ⟨S8x64, .f32⟩
  | 55 => ⟨S8x32x2, .f32⟩
  | 56 => ⟨S_, .f32⟩
  | 57 => ⟨S8x32, .f32⟩
  | 58 => ⟨S8x32, .f32⟩
  | 59 => ⟨S8x32, .f32⟩
  | 60 => ⟨S_, .f32⟩
  | 61 => ⟨S8x32, .f32⟩
  | 62 => ⟨S8x32, .f32⟩
  | 63 => ⟨S8x32, .f32⟩
  | 64 => ⟨S_, .f32⟩
  | 65 => ⟨S8x32, .f32⟩
  | 66 => ⟨S8x32, .f32⟩
  | 67 => ⟨S8x32x2, .f32⟩
  | 68 => ⟨S8x64, .f32⟩
  | 69 => ⟨S1x64, .f32⟩
  | 70 => ⟨S1x64, .f32⟩
  | 71 => ⟨S131072x64, .f32⟩
  | 72 => ⟨S131072x1, .i32⟩
  | 73 => ⟨S1x7, .i32⟩
  | 74 => ⟨S131072x7, .i32⟩
  | 75 => ⟨S131072x7, .i32⟩
  | 76 => ⟨S131072x7, .i1⟩
  | 77 => ⟨S131072x7, .f32⟩
  | 78 => ⟨S131072x71, .f32⟩
  | 79 => ⟨S_, .i32⟩
  | 80 => ⟨S917504, .i32⟩
  | 81 => ⟨S917504, .i32⟩
  | 82 => ⟨S917504, .i32⟩
  | 83 => ⟨S_, .i32⟩
  | 84 => ⟨S917504, .i32⟩
  | 85 => ⟨S917504, .i1⟩
  | 86 => ⟨S_, .i32⟩
  | 87 => ⟨S917504, .i32⟩
  | 88 => ⟨S917504, .i32⟩
  | 89 => ⟨S917504, .i32⟩
  | 90 => ⟨S917504x1, .i32⟩
  | 91 => ⟨S917504x71, .f32⟩
  | 92 => ⟨S_, .f32⟩
  | 93 => ⟨S917504x71, .f32⟩
  | 94 => ⟨S917504x1, .i32⟩
  | 95 => ⟨S917504x71, .f32⟩
  | 96 => ⟨S131072x497, .f32⟩
  | 97 => ⟨S8x256, .f32⟩
  | 98 => ⟨S8x256, .f32⟩
  | 99 => ⟨S_, .f32⟩
  | 100 => ⟨S8x256, .f32⟩
  | 101 => ⟨S8x256, .f32⟩
  | 102 => ⟨S_, .f32⟩
  | 103 => ⟨S8x256, .f32⟩
  | 104 => ⟨S8x256, .f32⟩
  | 105 => ⟨S8x256, .f32⟩
  | 106 => ⟨S8x64, .f32⟩
  | 107 => ⟨S1x64, .f32⟩
  | 108 => ⟨S8x64, .f32⟩
  | 109 => ⟨S8x64, .f32⟩
  | 110 => ⟨S131072x64, .f32⟩
  | 111 => ⟨S_, .f32⟩
  | 112 => ⟨S131072, .f32⟩
  | 113 => ⟨S_, .f32⟩
  | 114 => ⟨S8, .f32⟩
  | 115 => ⟨S131072x1, .i32⟩
  | 116 => ⟨S8, .f32⟩
  | 117 => ⟨S_, .f32⟩
  | 118 => ⟨S8x64, .f32⟩
  | 119 => ⟨S131072x1, .i32⟩
  | 120 => ⟨S8x64, .f32⟩
  | 121 => ⟨S8x1, .f32⟩
  | 122 => ⟨S_, .f32⟩
  | 123 => ⟨S8x1, .f32⟩
  | 124 => ⟨S8x1, .f32⟩
  | 125 => ⟨S_, .f32⟩
  | 126 => ⟨S8x1, .f32⟩
  | 127 => ⟨S8x1, .f32⟩
  | _ => ⟨S131072x64, .f32⟩

abbrev hbmTy0_1 (i : Nat) : BufTy := match i % 128 with
  | 0 => ⟨S8x32x2, .f32⟩
  | 1 => ⟨S_, .f32⟩
  | 2 => ⟨S8x32, .f32⟩
  | 3 => ⟨S8x32, .f32⟩
  | 4 => ⟨S8x32, .f32⟩
  | 5 => ⟨S8x32x2, .f32⟩
  | 6 => ⟨S8x64, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072x64, .f32⟩
  | 16 => ⟨S131072x64, .f32⟩
  | 17 => ⟨S131072x64, .f32⟩
  | 18 => ⟨S_, .f32⟩
  | 19 => ⟨S8x64, .f32⟩
  | 20 => ⟨S131072x1, .i32⟩
  | 21 => ⟨S8x64, .f32⟩
  | 22 => ⟨S8x32x2, .f32⟩
  | 23 => ⟨S_, .f32⟩
  | 24 => ⟨S8x32, .f32⟩
  | 25 => ⟨S8x32, .f32⟩
  | 26 => ⟨S8x32, .f32⟩
  | 27 => ⟨S_, .f32⟩
  | 28 => ⟨S8x32, .f32⟩
  | 29 => ⟨S8x32, .f32⟩
  | 30 => ⟨S8x32, .f32⟩
  | 31 => ⟨S_, .f32⟩
  | 32 => ⟨S8x32, .f32⟩
  | 33 => ⟨S8x32, .f32⟩
  | 34 => ⟨S8x32x2, .f32⟩
  | 35 => ⟨S8x64, .f32⟩
  | 36 => ⟨S1x64, .f32⟩
  | 37 => ⟨S1x64, .f32⟩
  | 38 => ⟨S131072x64, .f32⟩
  | 39 => ⟨S131072x1, .i32⟩
  | 40 => ⟨S1x7, .i32⟩
  | 41 => ⟨S131072x7, .i32⟩
  | 42 => ⟨S131072x7, .i32⟩
  | 43 => ⟨S131072x7, .i1⟩
  | 44 => ⟨S131072x7, .f32⟩
  | 45 => ⟨S131072x71, .f32⟩
  | 46 => ⟨S_, .i32⟩
  | 47 => ⟨S917504, .i32⟩
  | 48 => ⟨S917504, .i32⟩
  | 49 => ⟨S917504, .i32⟩
  | 50 => ⟨S_, .i32⟩
  | 51 => ⟨S917504, .i32⟩
  | 52 => ⟨S917504, .i1⟩
  | 53 => ⟨S_, .i32⟩
  | 54 => ⟨S917504, .i32⟩
  | 55 => ⟨S917504, .i32⟩
  | 56 => ⟨S917504, .i32⟩
  | 57 => ⟨S917504x1, .i32⟩
  | 58 => ⟨S917504x71, .f32⟩
  | 59 => ⟨S_, .f32⟩
  | 60 => ⟨S917504x71, .f32⟩
  | 61 => ⟨S917504x1, .i32⟩
  | 62 => ⟨S917504x71, .f32⟩
  | 63 => ⟨S131072x497, .f32⟩
  | 64 => ⟨S131072x64, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S8x64, .f32⟩
  | .local _ .vmem, ⟨3, _⟩ => ⟨S1x64, .f32⟩
  | .local _ .vmem, ⟨4, _⟩ => ⟨S1x64, .f32⟩
  | .local _ .vmem, ⟨5, _⟩ => ⟨S4096x1, .i32⟩
  | .local _ .vmem, ⟨6, _⟩ => ⟨S4096x1, .i32⟩
  | .local _ .vmem, ⟨7, _⟩ => ⟨S4096x64, .f32⟩
  | .local _ .vmem, ⟨8, _⟩ => ⟨S4096x64, .f32⟩
  | .local _ .vmem, ⟨9, _⟩ => ⟨S4096x497, .f32⟩
  | .local _ .vmem, ⟨10, _⟩ => ⟨S4096x497, .f32⟩
  | .local _ .vmem, ⟨11, _⟩ => ⟨S497x64, .f32⟩
  | .local _ .vmem, ⟨12, _⟩ => ⟨S4096x1, .i32⟩
  | .local _ .vmem, ⟨13, _⟩ => ⟨S4096x1, .i32⟩
  | .local _ .vmem, ⟨14, _⟩ => ⟨S8x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S8x64, .f32⟩
  | .local _ .vmem, ⟨20, _⟩ => ⟨S1x64, .f32⟩
  | .local _ .vmem, ⟨21, _⟩ => ⟨S1x64, .f32⟩
  | .local _ .vmem, ⟨22, _⟩ => ⟨S4096x1, .i32⟩
  | .local _ .vmem, ⟨23, _⟩ => ⟨S4096x1, .i32⟩
  | .local _ .vmem, ⟨24, _⟩ => ⟨S4096x64, .f32⟩
  | .local _ .vmem, ⟨25, _⟩ => ⟨S4096x64, .f32⟩
  | .local _ .vmem, ⟨26, _⟩ => ⟨S4096x497, .f32⟩
  | .local _ .vmem, ⟨27, _⟩ => ⟨S4096x497, .f32⟩
  | .local _ .vmem, ⟨28, _⟩ => ⟨S497x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v45 : Ref sig .tc := ⟨.hbm, 77, rfl⟩
abbrev main_v46 : Ref sig .tc := ⟨.hbm, 78, rfl⟩
abbrev main_c_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_c_12 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_14 : Ref sig .tc := ⟨.hbm, 111, rfl⟩
abbrev main_v67 : Ref sig .tc := ⟨.hbm, 112, rfl⟩
abbrev main_cst_15 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_16 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_17 : Ref sig .tc := ⟨.hbm, 122, rfl⟩
abbrev main_v75 : Ref sig .tc := ⟨.hbm, 123, rfl⟩
abbrev main_v76 : Ref sig .tc := ⟨.hbm, 124, rfl⟩
abbrev main_cst_18 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_19 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_c_20 : Ref sig .tc := ⟨.hbm, 135, rfl⟩
abbrev main_v85 : Ref sig .tc := ⟨.hbm, 136, rfl⟩
abbrev main_v86 : Ref sig .tc := ⟨.hbm, 137, rfl⟩
abbrev main_c_21 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_22 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_23 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_24 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_25 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_call2_v3 : Ref sig .tc := ⟨.hbm, 170, rfl⟩
abbrev main_call2_v4 : Ref sig .tc := ⟨.hbm, 171, rfl⟩
abbrev main_v111 : Ref sig .tc := ⟨.hbm, 172, rfl⟩
abbrev main_v112 : Ref sig .tc := ⟨.hbm, 173, rfl⟩
abbrev main_c_26 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_c_27 : Ref sig .tc := ⟨.hbm, 178, rfl⟩
abbrev main_v116 : Ref sig .tc := ⟨.hbm, 179, rfl⟩
abbrev main_v117 : Ref sig .tc := ⟨.hbm, 180, rfl⟩
abbrev main_c_28 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_29 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x497 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S497x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4096x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x497 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S497x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S131072_S131072x1 : S131072.ShapeCasts S131072x1
  bcast_S_S131072 : S_.BroadcastsInDim S131072 (![] : Fin 0 → Fin S131072.rank)
  bcast_S_S8 : S_.BroadcastsInDim S8 (![] : Fin 0 → Fin S8.rank)
  bcast_S131072_S131072x1_0 : S131072.BroadcastsInDim S131072x1 (![0] : Fin 1 → Fin S131072x1.rank)
  bcast_S_S8x64 : S_.BroadcastsInDim S8x64 (![] : Fin 0 → Fin S8x64.rank)
  bcast_S8_S8x1_0 : S8.BroadcastsInDim S8x1 (![0] : Fin 1 → Fin S8x1.rank)
  bcast_S_S8x1 : S_.BroadcastsInDim S8x1 (![] : Fin 0 → Fin S8x1.rank)
  shapeCasts_S8x64_S8x32x2 : S8x64.ShapeCasts S8x32x2
  reducesTo_S8x32x2_S8x32_d2 : S8x32x2.ReducesTo [2] S8x32
  h_S_ : 0 < S_.numel
  bcast_S8x1_S8x32_0_1 : S8x1.BroadcastsInDim S8x32 (![0, 1] : Fin 2 → Fin S8x32.rank)
  bcast_S8x32_S8x32x2_0_1 : S8x32.BroadcastsInDim S8x32x2 (![0, 1] : Fin 2 → Fin S8x32x2.rank)
  shapeCasts_S8x32x2_S8x64 : S8x32x2.ShapeCasts S8x64
  bcast_S_S8x32 : S_.BroadcastsInDim S8x32 (![] : Fin 0 → Fin S8x32.rank)
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x8_d1_w32 : S1x8.Iotas .tc 32 [1]
  broadcasts_S4096x1_S4096x8 : S4096x1.Broadcasts S4096x8
  broadcasts_S1x8_S4096x8 : S1x8.Broadcasts S4096x8
  natLt_1_32 : 1 < 32
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  bcast_S131072x1_S131072x7_0_1 : S131072x1.BroadcastsInDim S131072x7 (![0, 1] : Fin 2 → Fin S131072x7.rank)
  bcast_S1x7_S131072x7_0_1 : S1x7.BroadcastsInDim S131072x7 (![0, 1] : Fin 2 → Fin S131072x7.rank)
  concatenates_S131072x64_S131072x7_S131072x71_d1 : Shape.Concatenates [S131072x64, S131072x7] S131072x71 1
  bcast_S_S917504 : S_.BroadcastsInDim S917504 (![] : Fin 0 → Fin S917504.rank)
  bcast_S917504_S917504x1_0 : S917504.BroadcastsInDim S917504x1 (![0] : Fin 1 → Fin S917504x1.rank)
  bcast_S_S917504x71 : S_.BroadcastsInDim S917504x71 (![] : Fin 0 → Fin S917504x71.rank)
  shapeCasts_S917504x71_S131072x497 : S917504x71.ShapeCasts S131072x497
  bcast_S_S8x256 : S_.BroadcastsInDim S8x256 (![] : Fin 0 → Fin S8x256.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  inb_S4096x497_S4096x497_0_0 : ∀ a, (![0, 0] : Fin 2 → Nat) a + S4096x497.size a ≤ S4096x497.size a
  h_S4096x497 : 0 < S4096x497.numel
  shapeCasts_S4096x497_S4096x497 : S4096x497.ShapeCasts S4096x497
  bitsLt_bf16_f32 : FTy.bits .bf16 < FTy.bits .f32
  inb_S497x64_S497x64_0_0 : ∀ a, (![0, 0] : Fin 2 → Nat) a + S497x64.size a ≤ S497x64.size a
  h_S497x64 : 0 < S497x64.numel
  scatter_S8_S131072x1_S131072_n_0_0_1_wf : ScatterDims.WF S8 S131072x1 S131072 [] [0] [0] 1
  scatter_S8x64_S131072x1_S131072x64_1_0_0_1_wf : ScatterDims.WF S8x64 S131072x1 S131072x64 [1] [0] [0] 1
  gather_S8x64_S131072x1_S131072x64_1_0_n_n_0_1_164_wf : GatherDims.WF S8x64 S131072x1 S131072x64 [1] [0] [] [0] [] 1 ![1, 64]
  dot_S4096x8_S8x64_S4096x64_1_0_0_1_n_n_wf : DotDims.WF S4096x8 S8x64 S4096x64 [1] [0] [0] [1] [] []
  gather_S131072x71_S917504x1_S917504x71_1_0_n_n_0_1_171_wf : GatherDims.WF S131072x71 S917504x1 S917504x71 [1] [0] [] [0] [] 1 ![1, 71]
  scatter_S917504x71_S917504x1_S917504x71_1_0_0_1_wf : ScatterDims.WF S917504x71 S917504x1 S917504x71 [1] [0] [0] 1
  dot_S8x256_S256x64_S8x64_1_0_0_1_n_n_wf : DotDims.WF S8x256 S256x64 S8x64 [1] [0] [0] [1] [] []
  dot_S4096x497_S497x64_S4096x64_1_0_0_1_n_n_wf : DotDims.WF S4096x497 S497x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S131072x1.size a
  hwx0_4 : ∀ i : grid0.Coords, EltTy.bits .i32 = 32 ∨ (Rect.block (s := S131072x1) S4096x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S131072x64.size a
  hwx0_5 : ∀ i : grid0.Coords, EltTy.bits .f32 = 32 ∨ (Rect.block (s := S131072x64) S4096x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x497.size a ≤ S131072x497.size a
  hwx1_0 : ∀ i : grid1.Coords, EltTy.bits .f32 = 32 ∨ (Rect.block (s := S131072x497) S4096x497.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S497x64.size a ≤ S497x64.size a
  hwx1_1 : ∀ i : grid1.Coords, EltTy.bits .f32 = 32 ∨ (Rect.block (s := S497x64) S497x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S131072x1.size a
  hwx1_2 : ∀ i : grid1.Coords, EltTy.bits .i32 = 32 ∨ (Rect.block (s := S131072x1) S4096x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S131072x64.size a
  hwx1_4 : ∀ i : grid1.Coords, EltTy.bits .f32 = 32 ∨ (Rect.block (s := S131072x64) S4096x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x64.size a ≤ S8x64.size a
  hwx2_1 : ∀ i : grid2.Coords, EltTy.bits .f32 = 32 ∨ (Rect.block (s := S8x64) S8x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x1.size a ≤ S131072x1.size a
  hwx2_4 : ∀ i : grid2.Coords, EltTy.bits .i32 = 32 ∨ (Rect.block (s := S131072x1) S4096x1.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x64.size a ≤ S131072x64.size a
  hwx2_5 : ∀ i : grid2.Coords, EltTy.bits .f32 = 32 ∨ (Rect.block (s := S131072x64) S4096x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x497.size a ≤ S131072x497.size a
  hwx3_0 : ∀ i : grid3.Coords, EltTy.bits .f32 = 32 ∨ (Rect.block (s := S131072x497) S4096x497.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S497x64.size a ≤ S497x64.size a
  hwx3_1 : ∀ i : grid3.Coords, EltTy.bits .f32 = 32 ∨ (Rect.block (s := S497x64) S497x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S131072x64.size a
  hwx3_2 : ∀ i : grid3.Coords, EltTy.bits .f32 = 32 ∨ (Rect.block (s := S131072x64) S4096x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S131072x64.size a
  hwx3_3 : ∀ i : grid3.Coords, EltTy.bits .f32 = 32 ∨ (Rect.block (s := S131072x64) S4096x64.size (cc3_transform_3 i) (hinb3_3 i)).WholeWords (EltTy.packing .f32)

variable [Facts₀]

def scatter_S8_S131072x1_S131072_n_0_0_1 : ScatterDims S8 S131072x1 S131072 where
  updateWindowDims := []
  insertedWindowDims := [0]
  scatterDimsToOperandDims := [0]
  indexVectorDim := 1
  wf := scatter_S8_S131072x1_S131072_n_0_0_1_wf
def scatter_S8x64_S131072x1_S131072x64_1_0_0_1 : ScatterDims S8x64 S131072x1 S131072x64 where
  updateWindowDims := [1]
  insertedWindowDims := [0]
  scatterDimsToOperandDims := [0]
  indexVectorDim := 1
  wf := scatter_S8x64_S131072x1_S131072x64_1_0_0_1_wf
def gather_S8x64_S131072x1_S131072x64_1_0_n_n_0_1_164 : GatherDims S8x64 S131072x1 S131072x64 where
  offsetDims := [1]
  collapsedSliceDims := [0]
  operandBatchingDims := []
  startIndicesBatchingDims := []
  startIndexMap := [0]
  indexVectorDim := 1
  sliceSizes := ![1, 64]
  wf := gather_S8x64_S131072x1_S131072x64_1_0_n_n_0_1_164_wf
def dot_S4096x8_S8x64_S4096x64_1_0_0_1_n_n : DotDims S4096x8 S8x64 S4096x64 where
  lhsContracting := [1]
  rhsContracting := [0]
  lhsNonContracting := [0]
  rhsNonContracting := [1]
  lhsBatch := []
  rhsBatch := []
  wf := dot_S4096x8_S8x64_S4096x64_1_0_0_1_n_n_wf
def gather_S131072x71_S917504x1_S917504x71_1_0_n_n_0_1_171 : GatherDims S131072x71 S917504x1 S917504x71 where
  offsetDims := [1]
  collapsedSliceDims := [0]
  operandBatchingDims := []
  startIndicesBatchingDims := []
  startIndexMap := [0]
  indexVectorDim := 1
  sliceSizes := ![1, 71]
  wf := gather_S131072x71_S917504x1_S917504x71_1_0_n_n_0_1_171_wf
def scatter_S917504x71_S917504x1_S917504x71_1_0_0_1 : ScatterDims S917504x71 S917504x1 S917504x71 where
  updateWindowDims := [1]
  insertedWindowDims := [0]
  scatterDimsToOperandDims := [0]
  indexVectorDim := 1
  wf := scatter_S917504x71_S917504x1_S917504x71_1_0_0_1_wf
def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S4096x497_S497x64_S4096x64_1_0_0_1_n_n : DotDims S4096x497 S497x64 S4096x64 where
  lhsContracting := [1]
  rhsContracting := [0]
  lhsNonContracting := [0]
  rhsNonContracting := [1]
  lhsBatch := []
  rhsBatch := []
  wf := dot_S4096x497_S497x64_S4096x64_1_0_0_1_n_n_wf

abbrev win0_0 : Pipeline.Window sig grid0 :=
  Pipeline.Window.ofSpec (Memref.whole main_v26) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v60) S4096x497.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S497x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v65) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v92) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v107) S8x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v108) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v109) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S4096x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v110) S4096x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v126) S4096x497.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S497x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S4096x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v127) S4096x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S131072x64 : Shape := ⟨2, ![131072, 64]⟩
abbrev S8x256 : Shape := ⟨2, ![8, 256]⟩
abbrev S497x64 : Shape := ⟨2, ![497, 64]⟩
abbrev S64 : Shape := ⟨1, ![64]⟩
abbrev S256x64 : Shape := ⟨2, ![256, 64]⟩
abbrev S917504 : Shape := ⟨1, ![917504]⟩
abbrev S131072 : Shape := ⟨1, ![131072]⟩
abbrev S_ : Shape := ⟨0, ![]⟩
abbrev S8 : Shape := ⟨1, ![8]⟩
abbrev S131072x1 : Shape := ⟨2, ![131072, 1]⟩
abbrev S8x64 : Shape := ⟨2, ![8, 64]⟩
abbrev S8x1 : Shape := ⟨2, ![8, 1]⟩
abbrev S8x32x2 : Shape := ⟨3, ![8, 32, 2]⟩
abbrev S8x32 : Shape := ⟨2, ![8, 32]⟩
abbrev S1x64 : Shape := ⟨2, ![1, 64]⟩
abbrev S1x7 : Shape := ⟨2, ![1, 7]⟩
abbrev S131072x7 : Shape := ⟨2, ![131072, 7]⟩
abbrev S131072x71 : Shape := ⟨2, ![131072, 71]⟩
abbrev S917504x1 : Shape := ⟨2, ![917504, 1]⟩
abbrev S917504x71 : Shape := ⟨2, ![917504, 71]⟩
abbrev S131072x497 : Shape := ⟨2, ![131072, 497]⟩

abbrev nBuf : Space → Nat
  | .hbm => 247
  | .vmem => 0
  | .smem => 0
  | _ => 0

abbrev hbmTy0_0 (i : Nat) : BufTy := match i % 128 with
  | 0 => ⟨S131072x64, .f32⟩
  | 1 => ⟨S8x256, .f32⟩
  | 2 => ⟨S497x64, .f32⟩
  | 3 => ⟨S497x64, .f32⟩
  | 4 => ⟨S64, .f32⟩
  | 5 => ⟨S64, .f32⟩
  | 6 => ⟨S64, .f32⟩
  | 7 => ⟨S64, .f32⟩
  | 8 => ⟨S256x64, .f32⟩
  | 9 => ⟨S64, .f32⟩
  | 10 => ⟨S917504, .i32⟩
  | 11 => ⟨S917504, .i32⟩
  | 12 => ⟨S917504, .i32⟩
  | 13 => ⟨S131072, .i32⟩
  | 14 => ⟨S131072, .i32⟩
  | 15 => ⟨S_, .f32⟩
  | 16 => ⟨S131072, .f32⟩
  | 17 => ⟨S_, .f32⟩
  | 18 => ⟨S8, .f32⟩
  | 19 => ⟨S131072x1, .i32⟩
  | 20 => ⟨S8, .f32⟩
  | 21 => ⟨S_, .f32⟩
  | 22 => ⟨S8x64, .f32⟩
  | 23 => ⟨S131072x1, .i32⟩
  | 24 => ⟨S8x64, .f32⟩
  | 25 => ⟨S8x1, .f32⟩
  | 26 => ⟨S_, .f32⟩
  | 27 => ⟨S8x1, .f32⟩
  | 28 => ⟨S8x1, .f32⟩
  | 29 => ⟨S_, .f32⟩
  | 30 => ⟨S8x1, .f32⟩
  | 31 => ⟨S8x1, .f32⟩
  | 32 => ⟨S8x32x2, .f32⟩
  | 33 => ⟨S_, .f32⟩
  | 34 => ⟨S8x32, .f32⟩
  | 35 => ⟨S8x32, .f32⟩
  | 36 => ⟨S8x32, .f32⟩
  | 37 => ⟨S8x32x2, .f32⟩
  | 38 => ⟨S8x64, .f32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S131072x64, .f32⟩
  | 48 => ⟨S131072x64, .f32⟩
  | 49 => ⟨S131072x64, .f32⟩
  | 50 => ⟨S_, .f32⟩
  | 51 => ⟨S8x64, .f32⟩
  | 52 => ⟨S131072x1, .i32⟩
  | 53 => ⟨S8x64, .f32⟩
  | 54 => ⟨S8x32x2, .f32⟩
  | 55 => ⟨S_, .f32⟩
  | 56 => ⟨S8x32, .f32⟩
  | 57 => ⟨S8x32, .f32⟩
  | 58 => ⟨S8x32, .f32⟩
  | 59 => ⟨S_, .f32⟩
  | 60 => ⟨S8x32, .f32⟩
  | 61 => ⟨S8x32, .f32⟩
  | 62 => ⟨S8x32, .f32⟩
  | 63 => ⟨S_, .f32⟩
  | 64 => ⟨S8x32, .f32⟩
  | 65 => ⟨S8x32, .f32⟩
  | 66 => ⟨S8x32x2, .f32⟩
  | 67 => ⟨S8x64, .f32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072x64, .f32⟩
  | 77 => ⟨S131072x64, .f32⟩
  | 78 => ⟨S1x64, .f32⟩
  | 79 => ⟨S131072x64, .f32⟩
  | 80 => ⟨S131072x64, .f32⟩
  | 81 => ⟨S1x64, .f32⟩
  | 82 => ⟨S131072x64, .f32⟩
  | 83 => ⟨S131072x64, .f32⟩
  | 84 => ⟨S131072x64, .f32⟩
  | 85 => ⟨S131072x64, .f32⟩
  | 86 => ⟨S_, .f32⟩
  | 87 => ⟨S131072x64, .f32⟩
  | 88 => ⟨S131072x64, .f32⟩
  | 89 => ⟨S_, .f32⟩
  | 90 => ⟨S131072x64, .f32⟩
  | 91 => ⟨S131072x64, .f32⟩
  | 92 => ⟨S131072x64, .f32⟩
  | 93 => ⟨S131072x1, .i32⟩
  | 94 => ⟨S1x7, .i32⟩
  | 95 => ⟨S131072x7, .i32⟩
  | 96 => ⟨S131072x7, .i32⟩
  | 97 => ⟨S131072x7, .i1⟩
  | 98 => ⟨S131072x7, .f32⟩
  | 99 => ⟨S131072x71, .f32⟩
  | 100 => ⟨S_, .i32⟩
  | 101 => ⟨S917504, .i32⟩
  | 102 => ⟨S917504, .i32⟩
  | 103 => ⟨S917504, .i32⟩
  | 104 => ⟨S_, .i32⟩
  | 105 => ⟨S917504, .i32⟩
  | 106 => ⟨S917504, .i1⟩
  | 107 => ⟨S_, .i32⟩
  | 108 => ⟨S917504, .i32⟩
  | 109 => ⟨S917504, .i32⟩
  | 110 => ⟨S917504, .i32⟩
  | 111 => ⟨S917504x1, .i32⟩
  | 112 => ⟨S917504x71, .f32⟩
  | 113 => ⟨S_, .f32⟩
  | 114 => ⟨S917504x71, .f32⟩
  | 115 => ⟨S917504x1, .i32⟩
  | 116 => ⟨S917504x71, .f32⟩
  | 117 => ⟨S131072x497, .f32⟩
  | 118 => ⟨S131072x64, .f32⟩
  | 119 => ⟨S8x256, .f32⟩
  | 120 => ⟨S8x256, .f32⟩
  | 121 => ⟨S_, .f32⟩
  | 122 => ⟨S8x256, .f32⟩
  | 123 => ⟨S8x256, .f32⟩
  | 124 => ⟨S_, .f32⟩
  | 125 => ⟨S8x256, .f32⟩
  | 126 => ⟨S8x256, .f32⟩
  | 127 => ⟨S8x256, .f32⟩
  | _ => ⟨S131072x64, .f32⟩

abbrev hbmTy0_1 (i : Nat) : BufTy := match i % 128 with
  | 0 => ⟨S8x64, .f32⟩
  | 1 => ⟨S1x64, .f32⟩
  | 2 => ⟨S8x64, .f32⟩
  | 3 => ⟨S8x64, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x64, .f32⟩
  | 13 => ⟨S131072x64, .f32⟩
  | 14 => ⟨S_, .f32⟩
  | 15 => ⟨S131072, .f32⟩
  | 16 => ⟨S_, .f32⟩
  | 17 => ⟨S8, .f32⟩
  | 18 => ⟨S131072x1, .i32⟩
  | 19 => ⟨S8, .f32⟩
  | 20 => ⟨S_, .f32⟩
  | 21 => ⟨S8x64, .f32⟩
  | 22 => ⟨S131072x1, .i32⟩
  | 23 => ⟨S8x64, .f32⟩
  | 24 => ⟨S8x1, .f32⟩
  | 25 => ⟨S_, .f32⟩
  | 26 => ⟨S8x1, .f32⟩
  | 27 => ⟨S8x1, .f32⟩
  | 28 => ⟨S_, .f32⟩
  | 29 => ⟨S8x1, .f32⟩
  | 30 => ⟨S8x1, .f32⟩
  | 31 => ⟨S8x32x2, .f32⟩
  | 32 => ⟨S_, .f32⟩
  | 33 => ⟨S8x32, .f32⟩
  | 34 => ⟨S8x32, .f32⟩
  | 35 => ⟨S8x32, .f32⟩
  | 36 => ⟨S8x32x2, .f32⟩
  | 37 => ⟨S8x64, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072x64, .f32⟩
  | 47 => ⟨S131072x64, .f32⟩
  | 48 => ⟨S131072x64, .f32⟩
  | 49 => ⟨S_, .f32⟩
  | 50 => ⟨S8x64, .f32⟩
  | 51 => ⟨S131072x1, .i32⟩
  | 52 => ⟨S8x64, .f32⟩
  | 53 => ⟨S8x32x2, .f32⟩
  | 54 => ⟨S_, .f32⟩
  | 55 => ⟨S8x32, .f32⟩
  | 56 => ⟨S8x32, .f32⟩
  | 57 => ⟨S8x32, .f32⟩
  | 58 => ⟨S_, .f32⟩
  | 59 => ⟨S8x32, .f32⟩
  | 60 => ⟨S8x32, .f32⟩
  | 61 => ⟨S8x32, .f32⟩
  | 62 => ⟨S_, .f32⟩
  | 63 => ⟨S8x32, .f32⟩
  | 64 => ⟨S8x32, .f32⟩
  | 65 => ⟨S8x32x2, .f32⟩
  | 66 => ⟨S8x64, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S131072x64, .f32⟩
  | 76 => ⟨S131072x64, .f32⟩
  | 77 => ⟨S1x64, .f32⟩
  | 78 => ⟨S131072x64, .f32⟩
  | 79 => ⟨S131072x64, .f32⟩
  | 80 => ⟨S1x64, .f32⟩
  | 81 => ⟨S131072x64, .f32⟩
  | 82 => ⟨S131072x64, .f32⟩
  | 83 => ⟨S131072x64, .f32⟩
  | 84 => ⟨S131072x64, .f32⟩
  | 85 => ⟨S_, .f32⟩
  | 86 => ⟨S131072x64, .f32⟩
  | 87 => ⟨S131072x64, .f32⟩
  | 88 => ⟨S_, .f32⟩
  | 89 => ⟨S131072x64, .f32⟩
  | 90 => ⟨S131072x64, .f32⟩
  | 91 => ⟨S131072x64, .f32⟩
  | 92 => ⟨S131072x1, .i32⟩
  | 93 => ⟨S1x7, .i32⟩
  | 94 => ⟨S131072x7, .i32⟩
  | 95 => ⟨S131072x7, .i32⟩
  | 96 => ⟨S131072x7, .i1⟩
  | 97 => ⟨S131072x7, .f32⟩
  | 98 => ⟨S131072x71, .f32⟩
  | 99 => ⟨S_, .i32⟩
  | 100 => ⟨S917504, .i32⟩
  | 101 => ⟨S917504, .i32⟩
  | 102 => ⟨S917504, .i32⟩
  | 103 => ⟨S_, .i32⟩
  | 104 => ⟨S917504, .i32⟩
  | 105 => ⟨S917504, .i1⟩
  | 106 => ⟨S_, .i32⟩
  | 107 => ⟨S917504, .i32⟩
  | 108 => ⟨S917504, .i32⟩
  | 109 => ⟨S917504, .i32⟩
  | 110 => ⟨S917504x1, .i32⟩
  | 111 => ⟨S917504x71, .f32⟩
  | 112 => ⟨S_, .f32⟩
  | 113 => ⟨S917504x71, .f32⟩
  | 114 => ⟨S917504x1, .i32⟩
  | 115 => ⟨S917504x71, .f32⟩
  | 116 => ⟨S131072x497, .f32⟩
  | 117 => ⟨S131072x64, .f32⟩
  | 118 => ⟨S131072x64, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v55 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v56 : Ref sig .tc := ⟨.hbm, 98, rfl⟩
abbrev main_v57 : Ref sig .tc := ⟨.hbm, 99, rfl⟩
abbrev main_c_12 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_13 : Ref sig .tc := ⟨.hbm, 104, rfl⟩
abbrev main_v61 : Ref sig .tc := ⟨.hbm, 105, rfl⟩
abbrev main_v62 : Ref sig .tc := ⟨.hbm, 106, rfl⟩
abbrev main_c_14 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_15 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_call2_v0 : Ref sig .tc := ⟨.hbm, 119, rfl⟩
abbrev main_call2_v1 : Ref sig .tc := ⟨.hbm, 120, rfl⟩
abbrev main_call2_cst : Ref sig .tc := ⟨.hbm, 121, rfl⟩
abbrev main_call2_v2 : Ref sig .tc := ⟨.hbm, 122, rfl⟩
abbrev main_call2_v3 : Ref sig .tc := ⟨.hbm, 123, rfl⟩
abbrev main_call2_cst_0 : Ref sig .tc := ⟨.hbm, 124, rfl⟩
abbrev main_call2_v4 : Ref sig .tc := ⟨.hbm, 125, rfl⟩
abbrev main_call2_v5 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_16 : Ref sig .tc := ⟨.hbm, 132, rfl⟩
abbrev main_v78 : Ref sig .tc := ⟨.hbm, 133, rfl⟩
abbrev main_v79 : Ref sig .tc := ⟨.hbm, 134, rfl⟩
abbrev main_c_17 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_18 : Ref sig .tc := ⟨.hbm, 142, rfl⟩
abbrev main_v86 : Ref sig .tc := ⟨.hbm, 143, rfl⟩
abbrev main_cst_19 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_20 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_21 : Ref sig .tc := ⟨.hbm, 153, rfl⟩
abbrev main_v94 : Ref sig .tc := ⟨.hbm, 154, rfl⟩
abbrev main_v95 : Ref sig .tc := ⟨.hbm, 155, rfl⟩
abbrev main_cst_22 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_23 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_24 : Ref sig .tc := ⟨.hbm, 166, rfl⟩
abbrev main_v104 : Ref sig .tc := ⟨.hbm, 167, rfl⟩
abbrev main_v105 : Ref sig .tc := ⟨.hbm, 168, rfl⟩
abbrev main_c_25 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_26 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_27 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_28 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_29 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_c_30 : Ref sig .tc := ⟨.hbm, 195, rfl⟩
abbrev main_v127 : Ref sig .tc := ⟨.hbm, 196, rfl⟩
abbrev main_v128 : Ref sig .tc := ⟨.hbm, 197, rfl⟩
abbrev main_c_31 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v141 : Ref sig .tc := ⟨.hbm, 219, rfl⟩
abbrev main_call4_v0 : Ref sig .tc := ⟨.hbm, 220, rfl⟩
abbrev main_call4_v1 : Ref sig .tc := ⟨.hbm, 221, rfl⟩
abbrev main_call4_v2 : Ref sig .tc := ⟨.hbm, 222, rfl⟩
abbrev main_call4_v3 : Ref sig .tc := ⟨.hbm, 223, rfl⟩
abbrev main_call4_v4 : Ref sig .tc := ⟨.hbm, 224, rfl⟩
abbrev main_v142 : Ref sig .tc := ⟨.hbm, 225, rfl⟩
abbrev main_v143 : Ref sig .tc := ⟨.hbm, 226, rfl⟩
abbrev main_c_32 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_c_33 : Ref sig .tc := ⟨.hbm, 231, rfl⟩
abbrev main_v147 : Ref sig .tc := ⟨.hbm, 232, rfl⟩
abbrev main_v148 : Ref sig .tc := ⟨.hbm, 233, rfl⟩
abbrev main_c_34 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_35 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S8 : S_.BroadcastsInDim S8 (![] : Fin 0 → Fin S8.rank)
  bcast_S131072_S131072x1_0 : S131072.BroadcastsInDim S131072x1 (![0] : Fin 1 → Fin S131072x1.rank)
  bcast_S_S8x64 : S_.BroadcastsInDim S8x64 (![] : Fin 0 → Fin S8x64.rank)
  bcast_S8_S8x1_0 : S8.BroadcastsInDim S8x1 (![0] : Fin 1 → Fin S8x1.rank)
  bcast_S_S8x1 : S_.BroadcastsInDim S8x1 (![] : Fin 0 → Fin S8x1.rank)
  shapeCasts_S8x64_S8x32x2 : S8x64.ShapeCasts S8x32x2
  reducesTo_S8x32x2_S8x32_d2 : S8x32x2.ReducesTo [2] S8x32
  h_S_ : 0 < S_.numel
  bcast_S8x1_S8x32_0_1 : S8x1.BroadcastsInDim S8x32 (![0, 1] : Fin 2 → Fin S8x32.rank)
  bcast_S8x32_S8x32x2_0_1 : S8x32.BroadcastsInDim S8x32x2 (![0, 1] : Fin 2 → Fin S8x32x2.rank)
  shapeCasts_S8x32x2_S8x64 : S8x32x2.ShapeCasts S8x64
  bcast_S_S8x32 : S_.BroadcastsInDim S8x32 (![] : Fin 0 → Fin S8x32.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S131072x1_S131072x7_0_1 : S131072x1.BroadcastsInDim S131072x7 (![0, 1] : Fin 2 → Fin S131072x7.rank)
  bcast_S1x7_S131072x7_0_1 : S1x7.BroadcastsInDim S131072x7 (![0, 1] : Fin 2 → Fin S131072x7.rank)
  concatenates_S131072x64_S131072x7_S131072x71_d1 : Shape.Concatenates [S131072x64, S131072x7] S131072x71 1
  bcast_S_S917504 : S_.BroadcastsInDim S917504 (![] : Fin 0 → Fin S917504.rank)
  bcast_S917504_S917504x1_0 : S917504.BroadcastsInDim S917504x1 (![0] : Fin 1 → Fin S917504x1.rank)
  bcast_S_S917504x71 : S_.BroadcastsInDim S917504x71 (![] : Fin 0 → Fin S917504x71.rank)
  shapeCasts_S917504x71_S131072x497 : S917504x71.ShapeCasts S131072x497
  bcast_S_S8x256 : S_.BroadcastsInDim S8x256 (![] : Fin 0 → Fin S8x256.rank)
  bcast_S1x64_S8x64_0_1 : S1x64.BroadcastsInDim S8x64 (![0, 1] : Fin 2 → Fin S8x64.rank)
  scatter_S8_S131072x1_S131072_n_0_0_1_wf : ScatterDims.WF S8 S131072x1 S131072 [] [0] [0] 1
  scatter_S8x64_S131072x1_S131072x64_1_0_0_1_wf : ScatterDims.WF S8x64 S131072x1 S131072x64 [1] [0] [0] 1
  gather_S8x64_S131072x1_S131072x64_1_0_n_n_0_1_164_wf : GatherDims.WF S8x64 S131072x1 S131072x64 [1] [0] [] [0] [] 1 ![1, 64]
  gather_S131072x71_S917504x1_S917504x71_1_0_n_n_0_1_171_wf : GatherDims.WF S131072x71 S917504x1 S917504x71 [1] [0] [] [0] [] 1 ![1, 71]
  scatter_S917504x71_S917504x1_S917504x71_1_0_0_1_wf : ScatterDims.WF S917504x71 S917504x1 S917504x71 [1] [0] [0] 1
  dot_S131072x497_S497x64_S131072x64_1_0_0_1_n_n_wf : DotDims.WF S131072x497 S497x64 S131072x64 [1] [0] [0] [1] [] []
  dot_S8x256_S256x64_S8x64_1_0_0_1_n_n_wf : DotDims.WF S8x256 S256x64 S8x64 [1] [0] [0] [1] [] []

variable [Facts₀]

def scatter_S8_S131072x1_S131072_n_0_0_1 : ScatterDims S8 S131072x1 S131072 where
  updateWindowDims := []
  insertedWindowDims := [0]
  scatterDimsToOperandDims := [0]
  indexVectorDim := 1
  wf := scatter_S8_S131072x1_S131072_n_0_0_1_wf
def scatter_S8x64_S131072x1_S131072x64_1_0_0_1 : ScatterDims S8x64 S131072x1 S131072x64 where
  updateWindowDims := [1]
  insertedWindowDims := [0]
  scatterDimsToOperandDims := [0]
  indexVectorDim := 1
  wf := scatter_S8x64_S131072x1_S131072x64_1_0_0_1_wf
def gather_S8x64_S131072x1_S131072x64_1_0_n_n_0_1_164 : GatherDims S8x64 S131072x1 S131072x64 where
  offsetDims := [1]
  collapsedSliceDims := [0]
  operandBatchingDims := []
  startIndicesBatchingDims := []
  startIndexMap := [0]
  indexVectorDim := 1
  sliceSizes := ![1, 64]
  wf := gather_S8x64_S131072x1_S131072x64_1_0_n_n_0_1_164_wf
def gather_S131072x71_S917504x1_S917504x71_1_0_n_n_0_1_171 : GatherDims S131072x71 S917504x1 S917504x71 where
  offsetDims := [1]
  collapsedSliceDims := [0]
  operandBatchingDims := []
  startIndicesBatchingDims := []
  startIndexMap := [0]
  indexVectorDim := 1
  sliceSizes := ![1, 71]
  wf := gather_S131072x71_S917504x1_S917504x71_1_0_n_n_0_1_171_wf
def scatter_S917504x71_S917504x1_S917504x71_1_0_0_1 : ScatterDims S917504x71 S917504x1 S917504x71 where
  updateWindowDims := [1]
  insertedWindowDims := [0]
  scatterDimsToOperandDims := [0]
  indexVectorDim := 1
  wf := scatter_S917504x71_S917504x1_S917504x71_1_0_0_1_wf
def dot_S131072x497_S497x64_S131072x64_1_0_0_1_n_n : DotDims S131072x497 S497x64 S131072x64 where
  lhsContracting := [1]
  rhsContracting := [0]
  lhsNonContracting := [0]
  rhsNonContracting := [1]
  lhsBatch := []
  rhsBatch := []
  wf := dot_S131072x497_S497x64_S131072x64_1_0_0_1_n_n_wf
def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf

class Facts : Prop extends Facts₀ where

variable [Facts]
-- ==== Proof.HostDefs.lean ====
/-
  The same three computations as the reference spells them with whole-array host operations: a batch id is first
  wrapped (a negative id has 8 added), the table row is taken by a gather (whose start index is clamped into the
  table), scale and shift are broadcast along the rows, SiLU is y * (1 / (1 + exp (-y))), and a projection is one
  dot_general over the 497 columns.
-/
import proofs.«428457_j2224793059401_1_alg».proof.Proof.Gen.ReferenceIdeal
import Idealize.ShloMosaic.PureOps.Ideal

noncomputable section

namespace Cert.GraphBlock.Ref

open Idealize.ShloMosaic Cert.ReferenceIdeal Cert.ReferenceIdeal.Gen

/-- The gather's index column: each batch id, with 8 added when it is negative. -/
def wrapIdx (bid : IVec S131072 32) : IVec S131072x1 32 :=
  broadcastInDim S131072x1 ![0] bcast_S131072_S131072x1_0
    (select (cmpi .slt bid (broadcastInDim S131072 ![] bcast_S_S131072 (constantI S_ 32 0#32)))
      (addi bid (broadcastInDim S131072 ![] bcast_S_S131072 (constantI S_ 32 8#32))) bid)

/-- Row `n` of the result is the table row the wrapped id of row `n` names. -/
def rowsOf (t : FVec Ideal S8x64 .f32) (bid : IVec S131072 32) : FVec Ideal S131072x64 .f32 :=
  Host.gather gather_S8x64_S131072x1_S131072x64_1_0_n_n_0_1_164 t (wrapIdx bid)

/-- A channel vector repeated along the rows. -/
def alongRows (g : FVec Ideal S64 .f32) : FVec Ideal S131072x64 .f32 :=
  broadcastInDim S131072x64 ![0, 1] bcast_S1x64_S131072x64_0_1 (broadcastInDim S1x64 ![1] bcast_S64_S1x64_1 g)

/-- y * (1 / (1 + exp (-y))), entry by entry. -/
def siluH (y : FVec Ideal S131072x64 .f32) : FVec Ideal S131072x64 .f32 :=
  mulf y (Host.divf (broadcastInDim S131072x64 ![] bcast_S_S131072x64 (constant S_ .f32 0x3F800000#32))
    (addf (broadcastInDim S131072x64 ![] bcast_S_S131072x64 (constant S_ .f32 0x3F800000#32)) (Host.exp (Host.negf y))))

/-- centred entries times the gathered inverse deviation times the scale, plus the shift, then SiLU. -/
def normSiluH (d : FVec Ideal S131072x64 .f32) (s : FVec Ideal S8x64 .f32) (g b : FVec Ideal S64 .f32)
    (bid : IVec S131072 32) : FVec Ideal S131072x64 .f32 :=
  siluH (addf (mulf (mulf d (rowsOf s bid)) (alongRows g)) (alongRows b))

/-- the projection plus the gathered embedding rows. -/
def conv1H (a : FVec Ideal S131072x497 .f32) (w : FVec Ideal S497x64 .f32) (e : FVec Ideal S8x64 .f32)
    (bid : IVec S131072 32) : FVec Ideal S131072x64 .f32 :=
  addf (Host.dotGeneral dot_S131072x497_S497x64_S131072x64_1_0_0_1_n_n none a w) (rowsOf e bid)

/-- the skip entry plus the projection. -/
def conv2H (a : FVec Ideal S131072x497 .f32) (w : FVec Ideal S497x64 .f32) (x : FVec Ideal S131072x64 .f32) :
    FVec Ideal S131072x64 .f32 :=
  addf x (Host.dotGeneral dot_S131072x497_S497x64_S131072x64_1_0_0_1_n_n none a w)

end Cert.GraphBlock.Ref

end
-- ==== Proof.HostStages.lean ====
/-
  The host stretches the two programs share, each as one function of the arrays it reads.
  `diffH data bid`: the rows of `data` minus their batch's per-group mean (segment sums of the rows and of the
  counts over the batch ids, pairs of channels summed, divided by 2·count + ε, each group mean repeated over its two
  channels, and the row's batch's line gathered back).  `invH data bid`: per batch and channel, 1 / sqrt (the same
  group average of the squared centred rows, + ε).  `aggH h …`: each node's features `h` extended by the one-hot
  of its node type, gathered along the edges' source nodes and summed into one slot per (target node, edge type),
  the seven slots of a node laid side by side.  `embH`: SiLU of the embedding times the embedding weights plus
  their bias.  `blockH` composes them with the three block computations into the whole reference function.
-/
import proofs.«428457_j2224793059401_1_alg».proof.Proof.HostDefs

noncomputable section

namespace Cert.GraphBlock.Ref

open Idealize.ShloMosaic Cert.ReferenceIdeal Cert.ReferenceIdeal.Gen

/-- the rows minus the gathered per-batch group means. -/
def diffH (data : FVec Ideal S131072x64 .f32) (bid : IVec S131072 32) : FVec Ideal S131072x64 .f32 :=
  subf data (Host.gather gather_S8x64_S131072x1_S131072x64_1_0_n_n_0_1_164 (shapeCast _ (broadcastInDim S8x32x2 ![0, 1] bcast_S8x32_S8x32x2_0_1 (Host.divf (Host.reduceAdd (shapeCast _ (Host.scatterAdd scatter_S8x64_S131072x1_S131072x64_1_0_0_1 (broadcastInDim S8x64 ![] bcast_S_S8x64 (constant S_ .f32 0x00000000#32)) (broadcastInDim S131072x1 ![0] bcast_S131072_S131072x1_0 bid) data) shapeCasts_S8x64_S8x32x2) (constant S_ .f32 0x00000000#32) reducesTo_S8x32x2_S8x32_d2 h_S_) (broadcastInDim S8x32 ![0, 1] bcast_S8x1_S8x32_0_1 (addf (mulf (broadcastInDim S8x1 ![0] bcast_S8_S8x1_0 (Host.scatterAdd scatter_S8_S131072x1_S131072_n_0_0_1 (broadcastInDim S8 ![] bcast_S_S8 (constant S_ .f32 0x00000000#32)) (broadcastInDim S131072x1 ![0] bcast_S131072_S131072x1_0 bid) (broadcastInDim S131072 ![] bcast_S_S131072 (constant S_ .f32 0x3F800000#32)))) (broadcastInDim S8x1 ![] bcast_S_S8x1 (constant S_ .f32 0x40000000#32))) (broadcastInDim S8x1 ![] bcast_S_S8x1 (constant S_ .f32 0x3727C5AC#32)))))) shapeCasts_S8x32x2_S8x64) (broadcastInDim S131072x1 ![0] bcast_S131072_S131072x1_0 (select (cmpi .slt bid (broadcastInDim S131072 ![] bcast_S_S131072 (constantI S_ 32 0#32))) (addi bid (broadcastInDim S131072 ![] bcast_S_S131072 (constantI S_ 32 8#32))) bid)))

/-- per batch and channel, the reciprocal square root of the group average of the squared centred rows plus ε. -/
def invH (data : FVec Ideal S131072x64 .f32) (bid : IVec S131072 32) : FVec Ideal S8x64 .f32 :=
  shapeCast _ (broadcastInDim S8x32x2 ![0, 1] bcast_S8x32_S8x32x2_0_1 (Host.divf (broadcastInDim S8x32 ![] bcast_S_S8x32 (constant S_ .f32 0x3F800000#32)) (Host.sqrt (addf (Host.divf (Host.reduceAdd (shapeCast _ (Host.scatterAdd scatter_S8x64_S131072x1_S131072x64_1_0_0_1 (broadcastInDim S8x64 ![] bcast_S_S8x64 (constant S_ .f32 0x00000000#32)) (broadcastInDim S131072x1 ![0] bcast_S131072_S131072x1_0 bid) (mulf (diffH data bid) (diffH data bid))) shapeCasts_S8x64_S8x32x2) (constant S_ .f32 0x00000000#32) reducesTo_S8x32x2_S8x32_d2 h_S_) (broadcastInDim S8x32 ![0, 1] bcast_S8x1_S8x32_0_1 (addf (mulf (broadcastInDim S8x1 ![0] bcast_S8_S8x1_0 (Host.scatterAdd scatter_S8_S131072x1_S131072_n_0_0_1 (broadcastInDim S8 ![] bcast_S_S8 (constant S_ .f32 0x00000000#32)) (broadcastInDim S131072x1 ![0] bcast_S131072_S131072x1_0 bid) (broadcastInDim S131072 ![] bcast_S_S131072 (constant S_ .f32 0x3F800000#32)))) (broadcastInDim S8x1 ![] bcast_S_S8x1 (constant S_ .f32 0x40000000#32))) (broadcastInDim S8x1 ![] bcast_S_S8x1 (constant S_ .f32 0x3727C5AC#32))))) (broadcastInDim S8x32 ![] bcast_S_S8x32 (constant S_ .f32 0x3727C5AC#32)))))) shapeCasts_S8x32x2_S8x64

/-- the gather along the edges and the scatter-sum into (target node, edge type) slots, laid out as 497 columns. -/
def aggH (h : FVec Ideal S131072x64 .f32) (er ec et : IVec S917504 32) (nt : IVec S131072 32) : FVec Ideal S131072x497 .f32 :=
  shapeCast _ (Host.scatterAdd scatter_S917504x71_S917504x1_S917504x71_1_0_0_1 (broadcastInDim S917504x71 ![] bcast_S_S917504x71 (constant S_ .f32 0x00000000#32)) (broadcastInDim S917504x1 ![0] bcast_S917504_S917504x1_0 (addi (muli er (broadcastInDim S917504 ![] bcast_S_S917504 (constantI S_ 32 7#32))) et)) (Host.gather gather_S131072x71_S917504x1_S917504x71_1_0_n_n_0_1_171 (concatenate S131072x71 1 [⟨S131072x64, h⟩, ⟨S131072x7, (uitofp .f32 (cmpi .eq (broadcastInDim S131072x7 ![0, 1] bcast_S131072x1_S131072x7_0_1 (broadcastInDim S131072x1 ![0] bcast_S131072_S131072x1_0 nt)) (broadcastInDim S131072x7 ![0, 1] bcast_S1x7_S131072x7_0_1 (iotaInDim S1x7 32 1))))⟩] concatenates_S131072x64_S131072x7_S131072x71_d1) (broadcastInDim S917504x1 ![0] bcast_S917504_S917504x1_0 (select (cmpi .slt ec (broadcastInDim S917504 ![] bcast_S_S917504 (constantI S_ 32 0#32))) (addi ec (broadcastInDim S917504 ![] bcast_S_S917504 (constantI S_ 32 131072#32))) ec)))) shapeCasts_S917504x71_S131072x497

/-- SiLU of the embedding through the embedding layer. -/
def embH (emb : FVec Ideal S8x256 .f32) (ew : FVec Ideal S256x64 .f32) (eb : FVec Ideal S64 .f32) : FVec Ideal S8x64 .f32 :=
  addf (Host.dotGeneral dot_S8x256_S256x64_S8x64_1_0_0_1_n_n none (mulf emb (Host.divf (broadcastInDim S8x256 ![] bcast_S_S8x256 (constant S_ .f32 0x3F800000#32)) (addf (broadcastInDim S8x256 ![] bcast_S_S8x256 (constant S_ .f32 0x3F800000#32)) (Host.exp (Host.negf emb))))) ew) (broadcastInDim S8x64 ![0, 1] bcast_S1x64_S8x64_0_1 (broadcastInDim S1x64 ![1] bcast_S64_S1x64_1 eb))

/-- the hidden features after the first normalisation, convolution and embedding add. -/
def hiddenH (x : FVec Ideal S131072x64 .f32) (emb : FVec Ideal S8x256 .f32) (w1 : FVec Ideal S497x64 .f32)
    (g1 b1 : FVec Ideal S64 .f32) (ew : FVec Ideal S256x64 .f32) (eb : FVec Ideal S64 .f32)
    (er ec et : IVec S917504 32) (nt bid : IVec S131072 32) : FVec Ideal S131072x64 .f32 :=
  conv1H (aggH (normSiluH (diffH x bid) (invH x bid) g1 b1 bid) er ec et nt) w1 (embH emb ew eb) bid

/-- the whole block: the second normalisation and convolution of the hidden features, plus the input. -/
def blockH (x : FVec Ideal S131072x64 .f32) (emb : FVec Ideal S8x256 .f32) (w1 w2 : FVec Ideal S497x64 .f32)
    (g1 b1 g2 b2 : FVec Ideal S64 .f32) (ew : FVec Ideal S256x64 .f32) (eb : FVec Ideal S64 .f32)
    (er ec et : IVec S917504 32) (nt bid : IVec S131072 32) : FVec Ideal S131072x64 .f32 :=
  conv2H (aggH (normSiluH (diffH (hiddenH x emb w1 g1 b1 ew eb er ec et nt bid) bid)
      (invH (hiddenH x emb w1 g1 b1 ew eb er ec et nt bid) bid) g2 b2 bid) er ec et nt) w2 x

end Cert.GraphBlock.Ref

end
-- ==== Proof.Stretches.lean ====
/-
  The idealized kernel's host stretches, read boundary by boundary.  Between two pallas_calls the program applies host
  operations to the arrays the previous call left; read back through the fold of a stretch, each array a pallas_call
  takes in is one of the shared stage functions (the centring and the inverse deviations of a group normalisation,
  the edge aggregation, the embedding layer) of the arrays at the stretch's entry, a re-laid-out argument, or an
  argument itself: no operation and no pallas_call ever writes an argument, so at every boundary it holds its launch
  contents.
-/
import proofs.«428457_j2224793059401_1_alg».proof.Proof.Gen.KernelIdeal.Frame
import proofs.«428457_j2224793059401_1_alg».proof.Proof.HostStages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.GraphBlock

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- an `[a]` array laid out as `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- the rewrite loop that reads an operation's result at its own buffer and passes over every other buffer. -/
macro "results_rw" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-! ## Before the first pallas_call -/

set_option maxHeartbeats 2000000 in
theorem e1_diff : V1 m ρ c main_v26 = Ref.diffH (m ((c : Thread nD τ).loc main_arg0)) (m ((c : Thread nD τ).loc main_arg14)) := by
  show StableHlo.after hostOps0 (W0 m ρ c) (Proc.devRef .tc main_v26) = _
  simp only [hostOps0]
  after_results_simp
  rfl

set_option maxHeartbeats 2000000 in
theorem e1_inv : V1 m ρ c main_v41 = Ref.invH (m ((c : Thread nD τ).loc main_arg0)) (m ((c : Thread nD τ).loc main_arg14)) := by
  show StableHlo.after hostOps0 (W0 m ρ c) (Proc.devRef .tc main_v41) = _
  simp only [hostOps0]
  after_results_simp
  rfl

theorem e1_g (ch : Fin 64) : (V1 m ρ c main_v42 : FVec Ideal S1x64 .f32) (ix2 (0 : Fin 1) ch) = (m ((c : Thread nD τ).loc main_arg4) : FVec Ideal S64 .f32) (ix1 ch) := by
  obtain ⟨h, e⟩ : ∃ h, (V1 m ρ c main_v42 : FVec Ideal S1x64 .f32) = shapeCast S1x64 (m ((c : Thread nD τ).loc main_arg4) : FVec Ideal S64 .f32) h :=
    ⟨_, by show StableHlo.after hostOps0 (W0 m ρ c) (Proc.devRef .tc main_v42) = _; simp only [hostOps0]; after_results_simp; rfl⟩
  rw [e]; exact shapeCast_a_1a_apply _ _ _ _

theorem e1_b (ch : Fin 64) : (V1 m ρ c main_v43 : FVec Ideal S1x64 .f32) (ix2 (0 : Fin 1) ch) = (m ((c : Thread nD τ).loc main_arg5) : FVec Ideal S64 .f32) (ix1 ch) := by
  obtain ⟨h, e⟩ : ∃ h, (V1 m ρ c main_v43 : FVec Ideal S1x64 .f32) = shapeCast S1x64 (m ((c : Thread nD τ).loc main_arg5) : FVec Ideal S64 .f32) h :=
    ⟨_, by show StableHlo.after hostOps0 (W0 m ρ c) (Proc.devRef .tc main_v43) = _; simp only [hostOps0]; after_results_simp; rfl⟩
  rw [e]; exact shapeCast_a_1a_apply _ _ _ _

theorem e1_bid (n : Fin 131072) : (V1 m ρ c main_v0 : IVec S131072x1 32) (ix2 n (0 : Fin 1)) = (m ((c : Thread nD τ).loc main_arg14) : IVec S131072 32) (ix1 n) := by
  obtain ⟨h, e⟩ : ∃ h, (V1 m ρ c main_v0 : IVec S131072x1 32) = shapeCast S131072x1 (m ((c : Thread nD τ).loc main_arg14) : IVec S131072 32) h :=
    ⟨_, by show StableHlo.after hostOps0 (W0 m ρ c) (Proc.devRef .tc main_v0) = _; simp only [hostOps0]; after_results_simp; rfl⟩
  rw [e]; exact shapeCast_a_a1_apply _ _ _ _

/-! ## An argument is never written: its contents at every boundary are the launch contents -/

theorem W2_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  simp only [hostOps0]; after_results_simp <;> rfl
theorem W2_arg1 : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  simp only [hostOps0]; after_results_simp <;> rfl
theorem W2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  simp only [hostOps0]; after_results_simp <;> rfl
theorem W2_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  simp only [hostOps0]; after_results_simp <;> rfl
theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  simp only [hostOps0]; after_results_simp <;> rfl
theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  simp only [hostOps0]; after_results_simp <;> rfl
theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  simp only [hostOps0]; after_results_simp <;> rfl
theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  simp only [hostOps0]; after_results_simp <;> rfl
theorem W2_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  simp only [hostOps0]; after_results_simp <;> rfl
theorem W2_arg11 : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  simp only [hostOps0]; after_results_simp <;> rfl
theorem W2_arg12 : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  simp only [hostOps0]; after_results_simp <;> rfl
theorem W2_arg13 : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  simp only [hostOps0]; after_results_simp <;> rfl
theorem W2_arg14 : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  simp only [hostOps0]; after_results_simp <;> rfl

/-! ## Between the first and the second pallas_call -/

set_option maxHeartbeats 2000000 in
theorem e3_agg : V6 m ρ c main_v60 = Ref.aggH (W2 m ρ c (Proc.devRef .tc main_v44)) (m ((c : Thread nD τ).loc main_arg10)) (m ((c : Thread nD τ).loc main_arg11)) (m ((c : Thread nD τ).loc main_arg12)) (m ((c : Thread nD τ).loc main_arg13)) := by
  show StableHlo.after hostOps1_3 (StableHlo.after hostOps1_2 (StableHlo.after hostOps1_1 (StableHlo.after hostOps1 (W2 m ρ c)))) (Proc.devRef .tc main_v60) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  rw [W2_arg10 m ρ c, W2_arg11 m ρ c, W2_arg12 m ρ c, W2_arg13 m ρ c]
  rfl

set_option maxHeartbeats 2000000 in
theorem e3_emb : V6 m ρ c main_v65 = Ref.embH (m ((c : Thread nD τ).loc main_arg1)) (m ((c : Thread nD τ).loc main_arg8)) (m ((c : Thread nD τ).loc main_arg9)) := by
  show StableHlo.after hostOps1_3 (StableHlo.after hostOps1_2 (StableHlo.after hostOps1_1 (StableHlo.after hostOps1 (W2 m ρ c)))) (Proc.devRef .tc main_v65) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  rw [W2_arg1 m ρ c, W2_arg8 m ρ c, W2_arg9 m ρ c]
  rfl

theorem e3_w : V6 m ρ c main_arg2 = m ((c : Thread nD τ).loc main_arg2) := by
  show StableHlo.after hostOps1_3 (StableHlo.after hostOps1_2 (StableHlo.after hostOps1_1 (StableHlo.after hostOps1 (W2 m ρ c)))) (Proc.devRef .tc main_arg2) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg2 m ρ c

/-- the batch-id column is an input of the first pallas_call and no stretch writes it. -/
theorem W2_v0 : W2 m ρ c (Proc.devRef .tc main_v0) = V1 m ρ c main_v0 :=
  (W2_arr m ρ c 4).trans (((dat0 (V1 m ρ) c).arrAt_in 4 rfl _).trans (A_eq0 (V1 m ρ) c 4))

theorem V6_v0 : V6 m ρ c main_v0 = V1 m ρ c main_v0 := by
  show StableHlo.after hostOps1_3 (StableHlo.after hostOps1_2 (StableHlo.after hostOps1_1 (StableHlo.after hostOps1 (W2 m ρ c)))) (Proc.devRef .tc main_v0) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_v0 m ρ c

theorem e3_bid (n : Fin 131072) : (V6 m ρ c main_v0 : IVec S131072x1 32) (ix2 n (0 : Fin 1)) = (m ((c : Thread nD τ).loc main_arg14) : IVec S131072 32) (ix1 n) := by
  rw [V6_v0 m ρ c]; exact e1_bid m ρ c n

theorem W7_arg0 : W7 m ρ c (Proc.devRef .tc main_arg0) = m ((c : Thread nD τ).loc main_arg0) := by
  rw [W7_of_ne m ρ c main_arg0 (by decide)]
  show StableHlo.after hostOps1_3 (StableHlo.after hostOps1_2 (StableHlo.after hostOps1_1 (StableHlo.after hostOps1 (W2 m ρ c)))) (Proc.devRef .tc main_arg0) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg0 m ρ c
theorem W7_arg3 : W7 m ρ c (Proc.devRef .tc main_arg3) = m ((c : Thread nD τ).loc main_arg3) := by
  rw [W7_of_ne m ρ c main_arg3 (by decide)]
  show StableHlo.after hostOps1_3 (StableHlo.after hostOps1_2 (StableHlo.after hostOps1_1 (StableHlo.after hostOps1 (W2 m ρ c)))) (Proc.devRef .tc main_arg3) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg3 m ρ c
theorem W7_arg6 : W7 m ρ c (Proc.devRef .tc main_arg6) = m ((c : Thread nD τ).loc main_arg6) := by
  rw [W7_of_ne m ρ c main_arg6 (by decide)]
  show StableHlo.after hostOps1_3 (StableHlo.after hostOps1_2 (StableHlo.after hostOps1_1 (StableHlo.after hostOps1 (W2 m ρ c)))) (Proc.devRef .tc main_arg6) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg6 m ρ c
theorem W7_arg7 : W7 m ρ c (Proc.devRef .tc main_arg7) = m ((c : Thread nD τ).loc main_arg7) := by
  rw [W7_of_ne m ρ c main_arg7 (by decide)]
  show StableHlo.after hostOps1_3 (StableHlo.after hostOps1_2 (StableHlo.after hostOps1_1 (StableHlo.after hostOps1 (W2 m ρ c)))) (Proc.devRef .tc main_arg7) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg7 m ρ c
theorem W7_arg10 : W7 m ρ c (Proc.devRef .tc main_arg10) = m ((c : Thread nD τ).loc main_arg10) := by
  rw [W7_of_ne m ρ c main_arg10 (by decide)]
  show StableHlo.after hostOps1_3 (StableHlo.after hostOps1_2 (StableHlo.after hostOps1_1 (StableHlo.after hostOps1 (W2 m ρ c)))) (Proc.devRef .tc main_arg10) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg10 m ρ c
theorem W7_arg11 : W7 m ρ c (Proc.devRef .tc main_arg11) = m ((c : Thread nD τ).loc main_arg11) := by
  rw [W7_of_ne m ρ c main_arg11 (by decide)]
  show StableHlo.after hostOps1_3 (StableHlo.after hostOps1_2 (StableHlo.after hostOps1_1 (StableHlo.after hostOps1 (W2 m ρ c)))) (Proc.devRef .tc main_arg11) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg11 m ρ c
theorem W7_arg12 : W7 m ρ c (Proc.devRef .tc main_arg12) = m ((c : Thread nD τ).loc main_arg12) := by
  rw [W7_of_ne m ρ c main_arg12 (by decide)]
  show StableHlo.after hostOps1_3 (StableHlo.after hostOps1_2 (StableHlo.after hostOps1_1 (StableHlo.after hostOps1 (W2 m ρ c)))) (Proc.devRef .tc main_arg12) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg12 m ρ c
theorem W7_arg13 : W7 m ρ c (Proc.devRef .tc main_arg13) = m ((c : Thread nD τ).loc main_arg13) := by
  rw [W7_of_ne m ρ c main_arg13 (by decide)]
  show StableHlo.after hostOps1_3 (StableHlo.after hostOps1_2 (StableHlo.after hostOps1_1 (StableHlo.after hostOps1 (W2 m ρ c)))) (Proc.devRef .tc main_arg13) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg13 m ρ c
theorem W7_arg14 : W7 m ρ c (Proc.devRef .tc main_arg14) = m ((c : Thread nD τ).loc main_arg14) := by
  rw [W7_of_ne m ρ c main_arg14 (by decide)]
  show StableHlo.after hostOps1_3 (StableHlo.after hostOps1_2 (StableHlo.after hostOps1_1 (StableHlo.after hostOps1 (W2 m ρ c)))) (Proc.devRef .tc main_arg14) = _
  simp only [hostOps1_3, hostOps1_2, hostOps1_1, hostOps1]
  dsimp only [StableHlo.TRef.unary, StableHlo.TRef.binary, StableHlo.TRef.nullary, StableHlo.TRef.of, StableHlo.TRef.toBuf, StableHlo.TRef.ofBuf]
  after_results_simp
  results_rw
  exact W2_arg14 m ρ c

theorem W7_v0 : W7 m ρ c (Proc.devRef .tc main_v0) = V1 m ρ c main_v0 :=
  ((W7_arr m ρ c 2).trans (((dat1 (V6 m ρ) c).arrAt_in 2 rfl _).trans (A_eq1 (V6 m ρ) c 2))).trans (V6_v0 m ρ c)

/-! ## Between the second and the third pallas_call -/

set_option maxHeartbeats 2000000 in
theorem e5_diff : V8 m ρ c main_v92 = Ref.diffH (W7 m ρ c (Proc.devRef .tc main_v66)) (m ((c : Thread nD τ).loc main_arg14)) := by
  show StableHlo.after hostOps2 (W7 m ρ c) (Proc.devRef .tc main_v92) = _
  simp only [hostOps2]
  after_results_simp
  rw [W7_arg14 m ρ c]
  rfl

set_option maxHeartbeats 2000000 in
theorem e5_inv : V8 m ρ c main_v107 = Ref.invH (W7 m ρ c (Proc.devRef .tc main_v66)) (m ((c : Thread nD τ).loc main_arg14)) := by
  show StableHlo.after hostOps2 (W7 m ρ c) (Proc.devRef .tc main_v107) = _
  simp only [hostOps2]
  after_results_simp
  rw [W7_arg14 m ρ c]
  rfl

theorem e5_g (ch : Fin 64) : (V8 m ρ c main_v108 : FVec Ideal S1x64 .f32) (ix2 (0 : Fin 1) ch) = (m ((c : Thread nD τ).loc main_arg6) : FVec Ideal S64 .f32) (ix1 ch) := by
  obtain ⟨h, e⟩ : ∃ h, (V8 m ρ c main_v108 : FVec Ideal S1x64 .f32) = shapeCast S1x64 (m ((c : Thread nD τ).loc main_arg6) : FVec Ideal S64 .f32) h :=
    ⟨_, by show StableHlo.after hostOps2 (W7 m ρ c) (Proc.devRef .tc main_v108) = _; simp only [hostOps2]; after_results_simp; rw [W7_arg6 m ρ c]; rfl⟩
  rw [e]; exact shapeCast_a_1a_apply _ _ _ _

theorem e5_b (ch : Fin 64) : (V8 m ρ c main_v109 : FVec Ideal S1x64 .f32) (ix2 (0 : Fin 1) ch) = (m ((c : Thread nD τ).loc main_arg7) : FVec Ideal S64 .f32) (ix1 ch) := by
  obtain ⟨h, e⟩ : ∃ h, (V8 m ρ c main_v109 : FVec Ideal S1x64 .f32) = shapeCast S1x64 (m ((c : Thread nD τ).loc main_arg7) : FVec Ideal S64 .f32) h :=
    ⟨_, by show StableHlo.after hostOps2 (W7 m ρ c) (Proc.devRef .tc main_v109) = _; simp only [hostOps2]; after_results_simp; rw [W7_arg7 m ρ c]; rfl⟩
  rw [e]; exact shapeCast_a_1a_apply _ _ _ _

theorem V8_v0 : V8 m ρ c main_v0 = V1 m ρ c main_v0 := by
  show StableHlo.after hostOps2 (W7 m ρ c) (Proc.devRef .tc main_v0) = _
  simp only [hostOps2]
  after_results_simp
  exact W7_v0 m ρ c

theorem e5_bid (n : Fin 131072) : (V8 m ρ c main_v0 : IVec S131072x1 32) (ix2 n (0 : Fin 1)) = (m ((c : Thread nD τ).loc main_arg14) : IVec S131072 32) (ix1 n) := by
  rw [V8_v0 m ρ c]; exact e1_bid m ρ c n

theorem W9_arg0 : W9 m ρ c (Proc.devRef .tc main_arg0) = m ((c : Thread nD τ).loc main_arg0) := by
  rw [W9_of_ne m ρ c main_arg0 (by decide)]
  show StableHlo.after hostOps2 (W7 m ρ c) (Proc.devRef .tc main_arg0) = _
  simp only [hostOps2]; after_results_simp
  exact W7_arg0 m ρ c
theorem W9_arg3 : W9 m ρ c (Proc.devRef .tc main_arg3) = m ((c : Thread nD τ).loc main_arg3) := by
  rw [W9_of_ne m ρ c main_arg3 (by decide)]
  show StableHlo.after hostOps2 (W7 m ρ c) (Proc.devRef .tc main_arg3) = _
  simp only [hostOps2]; after_results_simp
  exact W7_arg3 m ρ c
theorem W9_arg10 : W9 m ρ c (Proc.devRef .tc main_arg10) = m ((c : Thread nD τ).loc main_arg10) := by
  rw [W9_of_ne m ρ c main_arg10 (by decide)]
  show StableHlo.after hostOps2 (W7 m ρ c) (Proc.devRef .tc main_arg10) = _
  simp only [hostOps2]; after_results_simp
  exact W7_arg10 m ρ c
theorem W9_arg11 : W9 m ρ c (Proc.devRef .tc main_arg11) = m ((c : Thread nD τ).loc main_arg11) := by
  rw [W9_of_ne m ρ c main_arg11 (by decide)]
  show StableHlo.after hostOps2 (W7 m ρ c) (Proc.devRef .tc main_arg11) = _
  simp only [hostOps2]; after_results_simp
  exact W7_arg11 m ρ c
theorem W9_arg12 : W9 m ρ c (Proc.devRef .tc main_arg12) = m ((c : Thread nD τ).loc main_arg12) := by
  rw [W9_of_ne m ρ c main_arg12 (by decide)]
  show StableHlo.after hostOps2 (W7 m ρ c) (Proc.devRef .tc main_arg12) = _
  simp only [hostOps2]; after_results_simp
  exact W7_arg12 m ρ c
theorem W9_arg13 : W9 m ρ c (Proc.devRef .tc main_arg13) = m ((c : Thread nD τ).loc main_arg13) := by
  rw [W9_of_ne m ρ c main_arg13 (by decide)]
  show StableHlo.after hostOps2 (W7 m ρ c) (Proc.devRef .tc main_arg13) = _
  simp only [hostOps2]; after_results_simp
  exact W7_arg13 m ρ c

/-! ## Between the third and the fourth pallas_call -/

set_option maxHeartbeats 2000000 in
theorem e7_agg : V11 m ρ c main_v126 = Ref.aggH (W9 m ρ c (Proc.devRef .tc main_v110)) (m ((c : Thread nD τ).loc main_arg10)) (m ((c : Thread nD τ).loc main_arg11)) (m ((c : Thread nD τ).loc main_arg12)) (m ((c : Thread nD τ).loc main_arg13)) := by
  show StableHlo.after hostOps3_1 (StableHlo.after hostOps3 (W9 m ρ c)) (Proc.devRef .tc main_v126) = _
  simp only [hostOps3_1, hostOps3]
  dsimp only [StableHlo.TRef.unary, StableHlo.TRef.binary, StableHlo.TRef.nullary, StableHlo.TRef.of, StableHlo.TRef.toBuf, StableHlo.TRef.ofBuf]
  after_results_simp
  results_rw
  rw [W9_arg10 m ρ c, W9_arg11 m ρ c, W9_arg12 m ρ c, W9_arg13 m ρ c]
  rfl

theorem e7_w : V11 m ρ c main_arg3 = m ((c : Thread nD τ).loc main_arg3) := by
  show StableHlo.after hostOps3_1 (StableHlo.after hostOps3 (W9 m ρ c)) (Proc.devRef .tc main_arg3) = _
  simp only [hostOps3_1, hostOps3]
  dsimp only [StableHlo.TRef.unary, StableHlo.TRef.binary, StableHlo.TRef.nullary, StableHlo.TRef.of, StableHlo.TRef.toBuf, StableHlo.TRef.ofBuf]
  after_results_simp
  results_rw
  exact W9_arg3 m ρ c

theorem e7_x : V11 m ρ c main_arg0 = m ((c : Thread nD τ).loc main_arg0) := by
  show StableHlo.after hostOps3_1 (StableHlo.after hostOps3 (W9 m ρ c)) (Proc.devRef .tc main_arg0) = _
  simp only [hostOps3_1, hostOps3]
  dsimp only [StableHlo.TRef.unary, StableHlo.TRef.binary, StableHlo.TRef.nullary, StableHlo.TRef.of, StableHlo.TRef.toBuf, StableHlo.TRef.ofBuf]
  after_results_simp
  results_rw
  exact W9_arg0 m ρ c

end Cert.GraphBlock

end
-- ==== Proof.Spec.lean ====
/-
  The three block computations of the graph-convolution block, as whole-array functions read index by index over
  the extended reals.  A row's batch word selects one of eight table rows by the sum over k = 0..7 of
  [word = k] * table(k, ch) (the one-hot product the kernels form); the normalising kernel multiplies the centred
  entry by that selected inverse deviation and the channel's scale, adds the channel's shift, and applies
  y * logistic y; the two projection kernels are a 497-term inner product per entry, plus the selected embedding row
  (first projection) or plus the skip entry (second projection).
-/
import proofs.«428457_j2224793059401_1_alg».proof.KernelIdeal
import Idealize.ShloMosaic.PureOps.Ideal
import Idealize.ShloMosaic.Lib.ValueIdx

noncomputable section

namespace Cert.GraphBlock

open Idealize.ShloMosaic Idealize.ShloMosaic.ValueIdx Cert.KernelIdeal

/-- Entry `ch` of the table row that row `n`'s batch word selects: the sum over the eight candidate rows of the
    indicator "the word is k" times the candidate's entry. -/
def pick (bid : IVec S131072x1 32) (t : FVec Ideal S8x64 .f32) (n : Fin 131072) (ch : Fin 64) : EReal :=
  ∑ k : Fin 8, (if bid (ix2 n (0 : Fin 1)) = BitVec.ofNat 32 k.val then (1 : EReal) else 0) * t (ix2 k ch)

/-- The normalise-scale-shift-SiLU array: at (n, ch), with y = d(n,ch) * pick(n,ch) * g(0,ch) + b(0,ch), the value y * logistic y. -/
def normSiluArr (d : FVec Ideal S131072x64 .f32) (s : FVec Ideal S8x64 .f32) (g b : FVec Ideal S1x64 .f32)
    (bid : IVec S131072x1 32) : FVec Ideal S131072x64 .f32 := fun i =>
  (d i * pick bid s (i 0) (i 1) * g (ix2 (0 : Fin 1) (i 1)) + b (ix2 (0 : Fin 1) (i 1)) : EReal)
    * Ideal.logistic (d i * pick bid s (i 0) (i 1) * g (ix2 (0 : Fin 1) (i 1)) + b (ix2 (0 : Fin 1) (i 1)) : EReal)

/-- The first projection: at (n, ch), the inner product of row n of `a` with column ch of `w`, plus the selected
    embedding entry. -/
def conv1Arr (a : FVec Ideal S131072x497 .f32) (w : FVec Ideal S497x64 .f32) (bid : IVec S131072x1 32)
    (e : FVec Ideal S8x64 .f32) : FVec Ideal S131072x64 .f32 := fun i =>
  ((∑ k : Fin 497, a (ix2 (i 0) k) * w (ix2 k (i 1))) + pick bid e (i 0) (i 1) : EReal)

/-- The second projection with the skip connection: at (n, ch), x(n,ch) plus the inner product of row n of `a` with
    column ch of `w`. -/
def conv2Arr (a : FVec Ideal S131072x497 .f32) (w : FVec Ideal S497x64 .f32) (x : FVec Ideal S131072x64 .f32) :
    FVec Ideal S131072x64 .f32 := fun i =>
  (x i + ∑ k : Fin 497, a (ix2 (i 0) k) * w (ix2 k (i 1)) : EReal)

end Cert.GraphBlock

end
-- ==== Proof.Region0.lean ====
import proofs.«428457_j2224793059401_1_alg».proof.Proof.Gen.KernelIdeal.Frame
import proofs.«428457_j2224793059401_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GraphBlock

open Idealize.ShloMosaic Idealize.ShloMosaic.TcCoe Idealize.ShloMosaic.ValueIdx Idealize.SL.Sem Cert.KernelIdeal
open Idealize.ShloMosaic.Pipeline (Dat Cfg Window)

namespace Region0

/-- A column of shape [a, 1] broadcast to [a, b] reads, at (p, c), the operand's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane counter along axis 1 of a [1, 8] vector reads k at (0, k). -/
theorem iota_row8_apply (h : S1x8.Iotas .tc 32 [1]) (k : Fin 8) :
    iota .tc S1x8 32 [1] h (ix2 (0 : Fin 1) k) = BitVec.ofNat 32 k.val := by
  show BitVec.ofNat 32 (0 * 8 + k.val) = BitVec.ofNat 32 k.val
  rw [Nat.zero_mul, Nat.zero_add]

/-- The equality comparison of two words is the bit 1 exactly when they are the same word. -/
theorem cmpi_eq_word (a b : BitVec 32) : IntOp.cmpi .eq a b = if a = b then 1#1 else 0#1 := by
  show BitVec.ofBool (a == b) = _
  by_cases h : a = b
  · rw [if_pos h, h, beq_self_eq_true]; rfl
  · rw [if_neg h, beq_eq_false_iff_ne.mpr h]; rfl

/-- The signed reading of the widened comparison bit, as an extended real: 1 where the words agree, else 0. -/
theorem sitofp_extui_cmpi_eq (a b : BitVec 32) :
    (FloatOps.sitofp (F := Ideal) .f32 ((IntOp.cmpi .eq a b).setWidth 32) : EReal) = if a = b then 1 else 0 := by
  rw [cmpi_eq_word]
  by_cases hab : a = b
  · rw [if_pos hab, if_pos hab]
    show (((BitVec.setWidth 32 1#1).toInt : ℝ) : EReal) = 1
    have e : (BitVec.setWidth 32 1#1).toInt = 1 := by decide
    rw [e]; norm_num
  · rw [if_neg hab, if_neg hab]
    show (((BitVec.setWidth 32 0#1).toInt : ℝ) : EReal) = 0
    have e : (BitVec.setWidth 32 0#1).toInt = 0 := by decide
    rw [e]; norm_num

/-- The one-hot matrix the kernel forms: its (p, k) entry is 1 when row p's word is k and 0 otherwise. -/
theorem onehot_apply (bid : IVec S4096x1 32) (hb : S4096x1.Broadcasts S4096x8) (hi : S1x8.Iotas .tc 32 [1])
    (hib : S1x8.Broadcasts S4096x8) (hlt : 1 < 32) (p : Fin 4096) (k : Fin 8) :
    (sitofp .f32 (extui 32 (cmpi .eq (broadcastTo S4096x8 bid hb) (broadcastTo S4096x8 (iota .tc S1x8 32 [1] hi) hib)) hlt)
      : FVec Ideal S4096x8 .f32) (ix2 p k)
      = if bid (ix2 p (0 : Fin 1)) = BitVec.ofNat 32 k.val then (1 : EReal) else 0 := by
  show FloatOps.sitofp (F := Ideal) .f32 ((IntOp.cmpi .eq (broadcastTo S4096x8 bid hb (ix2 p k))
    (broadcastTo S4096x8 (iota .tc S1x8 32 [1] hi) hib (ix2 p k))).setWidth 32) = _
  rw [broadcastTo_a1_ab_apply bid hb p k, broadcastTo_1b_ab_apply (iota .tc S1x8 32 [1] hi) hib p k, iota_row8_apply hi k]
  exact sitofp_extui_cmpi_eq _ _

/-! The contraction of the one-hot matrix with the table: the product's index functions, axis by axis. -/

theorem lhs_onehot_0 (i : S4096x64.Idx) (q : dot_S4096x8_S8x64_S4096x64_1_0_0_1_n_n.contr.Idx) :
    (dot_S4096x8_S8x64_S4096x64_1_0_0_1_n_n.lhsIdx i q 0).val = (i 0).val := by
  unfold DotDims.lhsIdx
  rw [dif_neg (show ¬(0 : Fin S4096x8.rank) ∈ dot_S4096x8_S8x64_S4096x64_1_0_0_1_n_n.lhsBatch by decide), dif_pos (show (0 : Fin S4096x8.rank) ∈ dot_S4096x8_S8x64_S4096x64_1_0_0_1_n_n.lhsNonContracting by decide)]
  rfl
theorem lhs_onehot_1 (i : S4096x64.Idx) (q : dot_S4096x8_S8x64_S4096x64_1_0_0_1_n_n.contr.Idx) :
    (dot_S4096x8_S8x64_S4096x64_1_0_0_1_n_n.lhsIdx i q 1).val = (q ⟨0, by decide⟩).val :=
  dot_S4096x8_S8x64_S4096x64_1_0_0_1_n_n.lhsIdx_val_of_single rfl i q
theorem rhs_onehot_0 (i : S4096x64.Idx) (q : dot_S4096x8_S8x64_S4096x64_1_0_0_1_n_n.contr.Idx) :
    (dot_S4096x8_S8x64_S4096x64_1_0_0_1_n_n.rhsIdx i q 0).val = (q ⟨0, by decide⟩).val :=
  dot_S4096x8_S8x64_S4096x64_1_0_0_1_n_n.rhsIdx_val_of_single rfl i q
theorem rhs_onehot_1 (i : S4096x64.Idx) (q : dot_S4096x8_S8x64_S4096x64_1_0_0_1_n_n.contr.Idx) :
    (dot_S4096x8_S8x64_S4096x64_1_0_0_1_n_n.rhsIdx i q 1).val = (i 1).val := by
  unfold DotDims.rhsIdx
  rw [dif_neg (show ¬(1 : Fin S8x64.rank) ∈ dot_S4096x8_S8x64_S4096x64_1_0_0_1_n_n.rhsBatch by decide), dif_pos (show (1 : Fin S8x64.rank) ∈ dot_S4096x8_S8x64_S4096x64_1_0_0_1_n_n.rhsNonContracting by decide)]
  rfl

/-- The [4096, 8] by [8, 64] product from a zero accumulator, at (p, q): the eight-term inner product of row p with column q. -/
theorem matmul_onehot_apply (a : FVec Ideal S4096x8 .f32) (t : FVec Ideal S8x64 .f32) (p : Fin 4096) (q : Fin 64) :
    (matmul dot_S4096x8_S8x64_S4096x64_1_0_0_1_n_n none a t (constant (F := Ideal) S4096x64 .f32 0x00000000#32)
      : FVec Ideal S4096x64 .f32) (ix2 p q) = ∑ k : Fin 8, a (ix2 p k) * t (ix2 k q) := by
  simp only [matmul]
  rw [Ideal.matmul_constant_zero_apply, ← Equiv.sum_comp (contrEquiv1 dot_S4096x8_S8x64_S4096x64_1_0_0_1_n_n 8 rfl rfl).symm]
  refine Finset.sum_congr rfl fun k _ => ?_
  have hk := contrEquiv1_symm_val dot_S4096x8_S8x64_S4096x64_1_0_0_1_n_n 8 rfl rfl k
  have el : dot_S4096x8_S8x64_S4096x64_1_0_0_1_n_n.lhsIdx (ix2 p q) ((contrEquiv1 dot_S4096x8_S8x64_S4096x64_1_0_0_1_n_n 8 rfl rfl).symm k) = ix2 p k := funext fun ax => Fin.ext (by
    match ax with
    | ⟨0, _⟩ => exact lhs_onehot_0 _ _
    | ⟨1, _⟩ => exact (lhs_onehot_1 _ _).trans hk)
  have er : dot_S4096x8_S8x64_S4096x64_1_0_0_1_n_n.rhsIdx (ix2 p q) ((contrEquiv1 dot_S4096x8_S8x64_S4096x64_1_0_0_1_n_n 8 rfl rfl).symm k) = ix2 k q := funext fun ax => Fin.ext (by
    match ax with
    | ⟨0, _⟩ => exact (rhs_onehot_0 _ _).trans hk
    | ⟨1, _⟩ => exact rhs_onehot_1 _ _)
  rw [el, er]

/-- The scale-shift-SiLU tail at (p, q): with d the centred block, M the selected inverse deviations and g, b the channel
    rows broadcast down the rows, the entry is y * logistic y for y = d * M * g + b. -/
theorem normSilu_pointwise (d M : FVec Ideal S4096x64 .f32) (g b : FVec Ideal S1x64 .f32) (hb : S1x64.Broadcasts S4096x64)
    (p : Fin 4096) (q : Fin 64) :
    mulf (addf (mulf (mulf d M) (broadcastTo S4096x64 g hb)) (broadcastTo S4096x64 b hb))
        (logistic (addf (mulf (mulf d M) (broadcastTo S4096x64 g hb)) (broadcastTo S4096x64 b hb))) (ix2 p q)
      = (d (ix2 p q) * M (ix2 p q) * g (ix2 (0 : Fin 1) q) + b (ix2 (0 : Fin 1) q) : EReal)
        * Ideal.logistic (d (ix2 p q) * M (ix2 p q) * g (ix2 (0 : Fin 1) q) + b (ix2 (0 : Fin 1) q) : EReal) := by
  show (d (ix2 p q) * M (ix2 p q) * broadcastTo S4096x64 g hb (ix2 p q) + broadcastTo S4096x64 b hb (ix2 p q) : EReal)
      * Ideal.logistic (d (ix2 p q) * M (ix2 p q) * broadcastTo S4096x64 g hb (ix2 p q) + broadcastTo S4096x64 b hb (ix2 p q) : EReal) = _
  rw [broadcastTo_1b_ab_apply g hb p q, broadcastTo_1b_ab_apply b hb p q]

/-- THE BODY'S VALUE at (p, q) of its 4096 x 64 block, from the blocks it loads: the centred entry times the table entry
    its row's word selects times the channel's scale, plus the channel's shift, through y * logistic y. -/
theorem pay_apply (v0 : FVec Ideal S4096x64 .f32) (v2 : IVec S4096x1 32) (v10 : FVec Ideal S8x64 .f32)
    (v14 v18 : FVec Ideal S1x64 .f32) (p : Fin 4096) (q : Fin 64) :
    Gen.k0_pay1 (F := Ideal) v0 v2 v10 v14 v18 (ix2 p q)
      = (v0 (ix2 p q) * (∑ k : Fin 8, (if v2 (ix2 p (0 : Fin 1)) = BitVec.ofNat 32 k.val then (1 : EReal) else 0) * v10 (ix2 k q))
            * v14 (ix2 (0 : Fin 1) q) + v18 (ix2 (0 : Fin 1) q) : EReal)
        * Ideal.logistic (v0 (ix2 p q) * (∑ k : Fin 8, (if v2 (ix2 p (0 : Fin 1)) = BitVec.ofNat 32 k.val then (1 : EReal) else 0) * v10 (ix2 k q))
            * v14 (ix2 (0 : Fin 1) q) + v18 (ix2 (0 : Fin 1) q) : EReal) := by
  unfold Gen.k0_pay1
  simp only [shapeCast_self]
  refine (normSilu_pointwise v0 _ v14 v18 _ p q).trans ?_
  rw [matmul_onehot_apply]
  refine congrArg (fun s : EReal => (v0 (ix2 p q) * s * v14 (ix2 (0 : Fin 1) q) + v18 (ix2 (0 : Fin 1) q))
    * Ideal.logistic (v0 (ix2 p q) * s * v14 (ix2 (0 : Fin 1) q) + v18 (ix2 (0 : Fin 1) q))) ?_
  refine Finset.sum_congr rfl fun k _ => ?_
  rw [onehot_apply]

/-! ## From the blocks to the array -/

theorem zero_offsets : (![0, 0] : Fin 2 → Nat) = fun _ => 0 := funext fun a => by
  match a with
  | ⟨0, _⟩ => rfl
  | ⟨1, _⟩ => rfl

/-- The printed index maps, decided over the 32 points: the row-blocked windows (the centred array, the words, the output)
    sit at block t along the rows and block 0 along the columns; the table and the two channel rows are whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! Each input block, read at a block coordinate, is its array read where the output's block puts that coordinate:
    a block's coordinate in the array is always block index * block size + 1 * the coordinate inside the block. -/

/-- The centred block at (p, q) is the centred array at row 4096 t + p, column q. -/
theorem read_centred (V : (c : Dev nD) → (b : Ref sig .tc) → Buf (Elt Ideal) ((c : Thread nD τ).loc b)) (c : Dev nD) (t : Fin cfg0.N) (p : Fin 4096) (q : Fin 64)
    (i : S131072x64.Idx) (h0 : (i 0).val = t.val * 4096 + p.val) (h1 : (i 1).val = q.val) :
    Gen.iblk0 V c 0 t (ix2 p q) = V c main_v26 i := by
  obtain ⟨e00, e01, -⟩ := index_facts t
  show V c main_v26 (((cfg0.win 0).blk t).view.emb (ix2 p q)) = V c main_v26 i
  refine congrArg (V c main_v26) (funext fun a => Fin.ext ?_)
  match a with
  | ⟨0, _⟩ => show win0_0.index t (0 : Fin 2) * 4096 + 1 * p.val = (i 0).val; omega
  | ⟨1, _⟩ => show win0_0.index t (1 : Fin 2) * 64 + 1 * q.val = (i 1).val; omega

/-- The table block is the whole table. -/
theorem read_table (V : (c : Dev nD) → (b : Ref sig .tc) → Buf (Elt Ideal) ((c : Thread nD τ).loc b)) (c : Dev nD) (t : Fin cfg0.N) (k : Fin 8) (q : Fin 64) (n : Fin 64) (h1 : n.val = q.val) :
    Gen.iblk0 V c 1 t (ix2 k q) = V c main_v41 (ix2 k n) := by
  obtain ⟨-, -, e10, e11, -⟩ := index_facts t
  show V c main_v41 (((cfg0.win 1).blk t).view.emb (ix2 k q)) = V c main_v41 (ix2 k n)
  refine congrArg (V c main_v41) (funext fun a => Fin.ext ?_)
  match a with
  | ⟨0, _⟩ => show win0_1.index t (0 : Fin 2) * 8 + 1 * k.val = k.val; omega
  | ⟨1, _⟩ => show win0_1.index t (1 : Fin 2) * 64 + 1 * q.val = n.val; omega

/-- The scale block is the whole scale row. -/
theorem read_scale (V : (c : Dev nD) → (b : Ref sig .tc) → Buf (Elt Ideal) ((c : Thread nD τ).loc b)) (c : Dev nD) (t : Fin cfg0.N) (q : Fin 64) (n : Fin 64) (h1 : n.val = q.val) :
    Gen.iblk0 V c 2 t (ix2 (0 : Fin 1) q) = V c main_v42 (ix2 (0 : Fin 1) n) := by
  obtain ⟨-, -, -, -, e20, e21, -⟩ := index_facts t
  show V c main_v42 (((cfg0.win 2).blk t).view.emb (ix2 (0 : Fin 1) q)) = V c main_v42 (ix2 (0 : Fin 1) n)
  refine congrArg (V c main_v42) (funext fun a => Fin.ext ?_)
  match a with
  | ⟨0, _⟩ => show win0_2.index t (0 : Fin 2) * 1 + 1 * 0 = 0; omega
  | ⟨1, _⟩ => show win0_2.index t (1 : Fin 2) * 64 + 1 * q.val = n.val; omega

/-- The shift block is the whole shift row. -/
theorem read_shift (V : (c : Dev nD) → (b : Ref sig .tc) → Buf (Elt Ideal) ((c : Thread nD τ).loc b)) (c : Dev nD) (t : Fin cfg0.N) (q : Fin 64) (n : Fin 64) (h1 : n.val = q.val) :
    Gen.iblk0 V c 3 t (ix2 (0 : Fin 1) q) = V c main_v43 (ix2 (0 : Fin 1) n) := by
  obtain ⟨-, -, -, -, -, -, e30, e31, -⟩ := index_facts t
  show V c main_v43 (((cfg0.win 3).blk t).view.emb (ix2 (0 : Fin 1) q)) = V c main_v43 (ix2 (0 : Fin 1) n)
  refine congrArg (V c main_v43) (funext fun a => Fin.ext ?_)
  match a with
  | ⟨0, _⟩ => show win0_3.index t (0 : Fin 2) * 1 + 1 * 0 = 0; omega
  | ⟨1, _⟩ => show win0_3.index t (1 : Fin 2) * 64 + 1 * q.val = n.val; omega

/-- The word block at row p is the word array at row 4096 t + p. -/
theorem read_words (V : (c : Dev nD) → (b : Ref sig .tc) → Buf (Elt Ideal) ((c : Thread nD τ).loc b)) (c : Dev nD) (t : Fin cfg0.N) (p : Fin 4096) (n : Fin 131072) (h0 : n.val = t.val * 4096 + p.val) :
    Gen.iblk0 V c 4 t (ix2 p (0 : Fin 1)) = V c main_v0 (ix2 n (0 : Fin 1)) := by
  obtain ⟨-, -, -, -, -, -, -, -, e40, e41, -⟩ := index_facts t
  show V c main_v0 (((cfg0.win 4).blk t).view.emb (ix2 p (0 : Fin 1))) = V c main_v0 (ix2 n (0 : Fin 1))
  refine congrArg (V c main_v0) (funext fun a => Fin.ext ?_)
  match a with
  | ⟨0, _⟩ => show win0_4.index t (0 : Fin 2) * 4096 + 1 * p.val = n.val; omega
  | ⟨1, _⟩ => show win0_4.index t (1 : Fin 2) * 1 + 1 * 0 = 0; omega

/-- WHAT POINT t WRITES BACK is block t of the specification's array of the region's entry arrays. -/
theorem flushed_eq (V : (c : Dev nD) → (b : Ref sig .tc) → Buf (Elt Ideal) ((c : Thread nD τ).loc b)) (c : Dev nD) (t : Fin cfg0.N) :
    (Gen.dat0 (F := Ideal) V c).flushed 5 t = ((cfg0.win 5).blk t).view.read (Elt Ideal)
      (normSiluArr (V c main_v26) (V c main_v41) (V c main_v42) (V c main_v43) (V c main_v0)) := by
  show (cfg0.win 5).cut (grid0.coords t) ((Gen.dat0 (F := Ideal) V c).after 5 t) = _
  rw [Gen.after0_5]
  unfold Gen.out0_5
  rw [View.canon_unit_zero zero_offsets]
  simp only [View.ld_unit_zero (S := S4096x64) zero_offsets, View.ld_unit_zero (S := S4096x1) zero_offsets,
    View.ld_unit_zero (S := S8x64) zero_offsets, View.ld_unit_zero (S := S1x64) zero_offsets]
  funext j
  obtain ⟨p, q, rfl⟩ : ∃ (p : Fin 4096) (q : Fin 64), j = ix2 p q := ⟨j 0, j 1, eq_ix2 j⟩
  obtain ⟨i, hi, h0, h1⟩ : ∃ i : S131072x64.Idx, ((cfg0.win 5).blk t).view.emb (ix2 p q) = i
      ∧ (i 0).val = t.val * 4096 + p.val ∧ (i 1).val = q.val := by
    obtain ⟨-, -, -, -, -, -, -, -, -, -, e50, e51⟩ := index_facts t
    refine ⟨_, rfl, ?_, ?_⟩
    · show win0_5.index t (0 : Fin 2) * 4096 + 1 * p.val = t.val * 4096 + p.val; omega
    · show win0_5.index t (1 : Fin 2) * 64 + 1 * q.val = q.val; omega
  show Gen.k0_pay1 (F := Ideal) (Gen.iblk0 V c 0 t) (Gen.iblk0 V c 4 t) (Gen.iblk0 V c 1 t) (Gen.iblk0 V c 2 t) (Gen.iblk0 V c 3 t) (ix2 p q)
      = normSiluArr (V c main_v26) (V c main_v41) (V c main_v42) (V c main_v43) (V c main_v0) (((cfg0.win 5).blk t).view.emb (ix2 p q))
  rw [hi, pay_apply]
  have hs : (∑ k : Fin 8, (if Gen.iblk0 V c 4 t (ix2 p (0 : Fin 1)) = BitVec.ofNat 32 k.val then (1 : EReal) else 0) * Gen.iblk0 V c 1 t (ix2 k q))
      = pick (V c main_v0) (V c main_v41) (i 0) (i 1) := by
    unfold pick
    refine Finset.sum_congr rfl fun k _ => ?_
    rw [read_words V c t p (i 0) h0, read_table V c t k q (i 1) h1]
  rw [hs, read_centred V c t p q i h0 h1, read_scale V c t q (i 1) h1, read_shift V c t q (i 1) h1]
  rfl

/-- An index of the array is in point t's block iff each coordinate is in the block's range on its axis. -/
theorem mem_block (t : Fin cfg0.N) (i : S131072x64.Idx) :
    i ∈ ((cfg0.win 5).blk t).view.set ↔ ∀ a : Fin 2, win0_5.index t a * S4096x64.size a ≤ (i a).val
      ∧ (i a).val < win0_5.index t a * S4096x64.size a + S4096x64.size a := by
  show i ∈ ((View.whole main_v44).slice (win0_5.rect t)).set ↔ _
  rw [View.set_slice_whole, Rect.mem_set_unit]
  exact Iff.rfl

/-- THE COVER: row r of the array lies in the block of point r / 4096, and every point writes its block back. -/
theorem covered (i : S131072x64.Idx) :
    ∃ t : Fin cfg0.N, (cfg0.win 5).flush t = true ∧ i ∈ ((cfg0.win 5).blk t).view.set := by
  have hi0 : (i 0).val < 131072 := (i 0).isLt
  have hi1 : (i 1).val < 64 := (i 1).isLt
  have hN : grid0.N = 32 := Gen.N_0
  obtain ⟨t, ht⟩ : ∃ t : Fin cfg0.N, t.val = (i 0).val / 4096 :=
    ⟨⟨(i 0).val / 4096, by show (i 0).val / 4096 < grid0.N; rw [hN]; omega⟩, rfl⟩
  refine ⟨t, Gen.flush0_5 t, ?_⟩
  rw [mem_block]
  obtain ⟨-, -, -, -, -, -, -, -, -, -, e50, e51⟩ := index_facts t
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 64 ≤ (i 1).val ∧ (i 1).val < win0_5.index t (1 : Fin 2) * 64 + 64
    omega

end Region0

/-- THE ARRAY after the run: every index is covered by a block some point writes back, and each written block is the
    specification's block, so the whole output array is the specification's array of the entry arrays. -/
theorem region0_arr (V : (c : Dev nD) → (b : Ref sig .tc) → Buf (Elt Ideal) ((c : Thread nD τ).loc b)) (c : Dev nD) :
    (Gen.dat0 (F := Ideal) V c).arrAt 5 cfg0.N
      = normSiluArr (V c main_v26) (V c main_v41) (V c main_v42) (V c main_v43) (V c main_v0) := by
  exact (Gen.dat0 (F := Ideal) V c).arrAt_eq_of_cover 5
    (normSiluArr (V c main_v26) (V c main_v41) (V c main_v42) (V c main_v43) (V c main_v0))
    (fun t _ => Region0.flushed_eq V c t) Region0.covered

end Cert.GraphBlock

end
-- ==== Proof.Region1.lean ====
import proofs.«428457_j2224793059401_1_alg».proof.Proof.Gen.KernelIdeal.Frame
import proofs.«428457_j2224793059401_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GraphBlock

open Idealize.ShloMosaic Idealize.ShloMosaic.TcCoe Idealize.ShloMosaic.ValueIdx Idealize.SL.Sem Cert.KernelIdeal
open Idealize.ShloMosaic.Pipeline (Dat Cfg Window)

/-! # The first projection's region: its stored value at an entry of a block, then from the 32 blocks to the array -/
namespace Region1

/-- A column of words broadcast along the rows reads, at (p, k), the column's word at row p. -/
theorem bcast_col_apply {a b : ℕ} {α : Type} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The indicator the body forms: at (p, k), one when row p's word is k and zero otherwise. -/
theorem onehot_apply (bid : IVec S4096x1 32) (hi : S1x8.Iotas .tc 32 [1]) (hb1 : S4096x1.Broadcasts S4096x8)
    (hb2 : S1x8.Broadcasts S4096x8) (hlt : 1 < 32) (p : Fin 4096) (k : Fin 8) :
    (sitofp .f32 (extui 32 (cmpi .eq (broadcastTo S4096x8 bid hb1) (broadcastTo S4096x8 (iota .tc S1x8 32 [1] hi) hb2)) hlt) : FVec Ideal S4096x8 .f32) (ix2 p k)
      = if bid (ix2 p (0 : Fin 1)) = BitVec.ofNat 32 k.val then (1 : EReal) else 0 := by
  have e1 : broadcastTo S4096x8 bid hb1 (ix2 p k) = bid (ix2 p (0 : Fin 1)) := bcast_col_apply bid hb1 p k
  have e2 : broadcastTo S4096x8 (iota .tc S1x8 32 [1] hi) hb2 (ix2 p k) = BitVec.ofNat 32 k.val := by
    rw [broadcastTo_1b_ab_apply (iota .tc S1x8 32 [1] hi) hb2 p k, iota_single_apply]
  show FloatOps.sitofp (F := Ideal) .f32 ((IntOp.cmpi .eq (broadcastTo S4096x8 bid hb1 (ix2 p k)) (broadcastTo S4096x8 (iota .tc S1x8 32 [1] hi) hb2 (ix2 p k))).setWidth 32) = _
  rw [e1, e2]
  show (((((BitVec.ofBool (bid (ix2 p (0 : Fin 1)) == BitVec.ofNat 32 k.val)).setWidth 32).toInt : ℝ)) : EReal) = _
  by_cases h : bid (ix2 p (0 : Fin 1)) = BitVec.ofNat 32 k.val
  · rw [if_pos h, h, beq_self_eq_true]
    show (((1 : ℤ) : ℝ) : EReal) = 1
    rw [Int.cast_one, EReal.coe_one]
  · rw [if_neg h, beq_eq_false_iff_ne.mpr h]
    show (((0 : ℤ) : ℝ) : EReal) = 0
    rw [Int.cast_zero, EReal.coe_zero]

/-! The two products of the body read at an entry: each contraction runs over one axis, whose index is its one
    coordinate; the operands are read at (row, k) and (k, column). -/

theorem lhsA_0 (j : S4096x64.Idx) (q : dot_S4096x497_S497x64_S4096x64_1_0_0_1_n_n.contr.Idx) :
    (dot_S4096x497_S497x64_S4096x64_1_0_0_1_n_n.lhsIdx j q 0).val = (j 0).val := by
  unfold DotDims.lhsIdx
  rw [dif_neg (show ¬(0 : Fin S4096x497.rank) ∈ dot_S4096x497_S497x64_S4096x64_1_0_0_1_n_n.lhsBatch by decide), dif_pos (show (0 : Fin S4096x497.rank) ∈ dot_S4096x497_S497x64_S4096x64_1_0_0_1_n_n.lhsNonContracting by decide)]
  rfl
theorem lhsA_1 (j : S4096x64.Idx) (q : dot_S4096x497_S497x64_S4096x64_1_0_0_1_n_n.contr.Idx) :
    (dot_S4096x497_S497x64_S4096x64_1_0_0_1_n_n.lhsIdx j q 1).val = (q ⟨0, by decide⟩).val :=
  dot_S4096x497_S497x64_S4096x64_1_0_0_1_n_n.lhsIdx_val_of_single rfl j q
theorem rhsA_0 (j : S4096x64.Idx) (q : dot_S4096x497_S497x64_S4096x64_1_0_0_1_n_n.contr.Idx) :
    (dot_S4096x497_S497x64_S4096x64_1_0_0_1_n_n.rhsIdx j q 0).val = (q ⟨0, by decide⟩).val :=
  dot_S4096x497_S497x64_S4096x64_1_0_0_1_n_n.rhsIdx_val_of_single rfl j q
theorem rhsA_1 (j : S4096x64.Idx) (q : dot_S4096x497_S497x64_S4096x64_1_0_0_1_n_n.contr.Idx) :
    (dot_S4096x497_S497x64_S4096x64_1_0_0_1_n_n.rhsIdx j q 1).val = (j 1).val := by
  unfold DotDims.rhsIdx
  rw [dif_neg (show ¬(1 : Fin S497x64.rank) ∈ dot_S4096x497_S497x64_S4096x64_1_0_0_1_n_n.rhsBatch by decide), dif_pos (show (1 : Fin S497x64.rank) ∈ dot_S4096x497_S497x64_S4096x64_1_0_0_1_n_n.rhsNonContracting by decide)]
  rfl

/-- The 497-term product at (p, q): the inner product of row p with column q. -/
theorem matmulA_apply {φ₁ φ₂ : FTy} (x : FVec Ideal S4096x497 φ₁) (w : FVec Ideal S497x64 φ₂) (p : Fin 4096) (q : Fin 64) :
    matmul dot_S4096x497_S497x64_S4096x64_1_0_0_1_n_n none x w (constant S4096x64 .f32 0x00000000#32) (ix2 p q)
      = ∑ k : Fin 497, x (ix2 p k) * w (ix2 k q) := by
  refine (Ideal.matmul_constant_zero_apply dot_S4096x497_S497x64_S4096x64_1_0_0_1_n_n none x w (ix2 p q)).trans ?_
  rw [← Equiv.sum_comp (contrEquiv1 dot_S4096x497_S497x64_S4096x64_1_0_0_1_n_n 497 rfl rfl).symm]
  refine Finset.sum_congr rfl fun k _ => ?_
  have hk := contrEquiv1_symm_val dot_S4096x497_S497x64_S4096x64_1_0_0_1_n_n 497 rfl rfl k
  have el : dot_S4096x497_S497x64_S4096x64_1_0_0_1_n_n.lhsIdx (ix2 p q) ((contrEquiv1 dot_S4096x497_S497x64_S4096x64_1_0_0_1_n_n 497 rfl rfl).symm k) = ix2 p k := funext fun a => Fin.ext (by
    match a with
    | ⟨0, _⟩ => exact lhsA_0 _ _
    | ⟨1, _⟩ => exact (lhsA_1 _ _).trans hk)
  have er : dot_S4096x497_S497x64_S4096x64_1_0_0_1_n_n.rhsIdx (ix2 p q) ((contrEquiv1 dot_S4096x497_S497x64_S4096x64_1_0_0_1_n_n 497 rfl rfl).symm k) = ix2 k q := funext fun a => Fin.ext (by
    match a with
    | ⟨0, _⟩ => exact (rhsA_0 _ _).trans hk
    | ⟨1, _⟩ => exact rhsA_1 _ _)
  rw [el, er]

theorem lhsB_0 (j : S4096x64.Idx) (q : dot_S4096x8_S8x64_S4096x64_1_0_0_1_n_n.contr.Idx) :
    (dot_S4096x8_S8x64_S4096x64_1_0_0_1_n_n.lhsIdx j q 0).val = (j 0).val := by
  unfold DotDims.lhsIdx
  rw [dif_neg (show ¬(0 : Fin S4096x8.rank) ∈ dot_S4096x8_S8x64_S4096x64_1_0_0_1_n_n.lhsBatch by decide), dif_pos (show (0 : Fin S4096x8.rank) ∈ dot_S4096x8_S8x64_S4096x64_1_0_0_1_n_n.lhsNonContracting by decide)]
  rfl
theorem lhsB_1 (j : S4096x64.Idx) (q : dot_S4096x8_S8x64_S4096x64_1_0_0_1_n_n.contr.Idx) :
    (dot_S4096x8_S8x64_S4096x64_1_0_0_1_n_n.lhsIdx j q 1).val = (q ⟨0, by decide⟩).val :=
  dot_S4096x8_S8x64_S4096x64_1_0_0_1_n_n.lhsIdx_val_of_single rfl j q
theorem rhsB_0 (j : S4096x64.Idx) (q : dot_S4096x8_S8x64_S4096x64_1_0_0_1_n_n.contr.Idx) :
    (dot_S4096x8_S8x64_S4096x64_1_0_0_1_n_n.rhsIdx j q 0).val = (q ⟨0, by decide⟩).val :=
  dot_S4096x8_S8x64_S4096x64_1_0_0_1_n_n.rhsIdx_val_of_single rfl j q
theorem rhsB_1 (j : S4096x64.Idx) (q : dot_S4096x8_S8x64_S4096x64_1_0_0_1_n_n.contr.Idx) :
    (dot_S4096x8_S8x64_S4096x64_1_0_0_1_n_n.rhsIdx j q 1).val = (j 1).val := by
  unfold DotDims.rhsIdx
  rw [dif_neg (show ¬(1 : Fin S8x64.rank) ∈ dot_S4096x8_S8x64_S4096x64_1_0_0_1_n_n.rhsBatch by decide), dif_pos (show (1 : Fin S8x64.rank) ∈ dot_S4096x8_S8x64_S4096x64_1_0_0_1_n_n.rhsNonContracting by decide)]
  rfl

/-- The 8-term product at (p, q): the sum over the eight candidate rows. -/
theorem matmulB_apply {φ₁ φ₂ : FTy} (x : FVec Ideal S4096x8 φ₁) (w : FVec Ideal S8x64 φ₂) (p : Fin 4096) (q : Fin 64) :
    matmul dot_S4096x8_S8x64_S4096x64_1_0_0_1_n_n none x w (constant S4096x64 .f32 0x00000000#32) (ix2 p q)
      = ∑ k : Fin 8, x (ix2 p k) * w (ix2 k q) := by
  refine (Ideal.matmul_constant_zero_apply dot_S4096x8_S8x64_S4096x64_1_0_0_1_n_n none x w (ix2 p q)).trans ?_
  rw [← Equiv.sum_comp (contrEquiv1 dot_S4096x8_S8x64_S4096x64_1_0_0_1_n_n 8 rfl rfl).symm]
  refine Finset.sum_congr rfl fun k _ => ?_
  have hk := contrEquiv1_symm_val dot_S4096x8_S8x64_S4096x64_1_0_0_1_n_n 8 rfl rfl k
  have el : dot_S4096x8_S8x64_S4096x64_1_0_0_1_n_n.lhsIdx (ix2 p q) ((contrEquiv1 dot_S4096x8_S8x64_S4096x64_1_0_0_1_n_n 8 rfl rfl).symm k) = ix2 p k := funext fun a => Fin.ext (by
    match a with
    | ⟨0, _⟩ => exact lhsB_0 _ _
    | ⟨1, _⟩ => exact (lhsB_1 _ _).trans hk)
  have er : dot_S4096x8_S8x64_S4096x64_1_0_0_1_n_n.rhsIdx (ix2 p q) ((contrEquiv1 dot_S4096x8_S8x64_S4096x64_1_0_0_1_n_n 8 rfl rfl).symm k) = ix2 k q := funext fun a => Fin.ext (by
    match a with
    | ⟨0, _⟩ => exact (rhsB_0 _ _).trans hk
    | ⟨1, _⟩ => exact rhsB_1 _ _)
  rw [el, er]

/-- The body's stored value at entry (p, q) of the 4096x64 block: the 497-term inner product of the block's row p
    with the weights' column q, plus the table entry that row p's word selects. -/
theorem pay_apply (v0 : Vec Ideal S4096x497 .f32) (v3 : Vec Ideal S497x64 .f32) (v6 : Vec Ideal S4096x1 .i32)
    (v14 : Vec Ideal S8x64 .f32) (p : Fin 4096) (q : Fin 64) :
    Gen.k1_pay1 (F := Ideal) v0 v3 v6 v14 (ix2 p q)
      = (∑ k : Fin 497, (v0 (ix2 p k) : EReal) * v3 (ix2 k q))
        + ∑ k : Fin 8, (if (v6 : IVec S4096x1 32) (ix2 p (0 : Fin 1)) = BitVec.ofNat 32 k.val then (1 : EReal) else 0) * v14 (ix2 k q) := by
  unfold Gen.k1_pay1
  simp only [shapeCast_self]
  rw [addf_apply, matmulA_apply, matmulB_apply]
  simp only [truncf_apply]
  refine congrArg (_ + ·) (Finset.sum_congr rfl fun k _ => ?_)
  exact congrArg (· * v14 (ix2 k q)) (onehot_apply v6 Gen.iota_S1x8_d1_w32 Gen.broadcasts_S4096x1_S4096x8 Gen.broadcasts_S1x8_S4096x8 Gen.natLt_1_32 p k)

/-! ## From the blocks to the array -/

theorem zeros2 : (![0, 0] : Fin 2 → Nat) = fun _ => 0 := funext fun a => by fin_cases a <;> rfl

/-- The printed index maps, decided over the 32 points: the row-blocked windows (the 4096x497 block, the id column,
    the output) sit at block row t, the two whole windows at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks

variable (V : (c : Dev nD) → (b : Ref sig .tc) → Buf (Elt Ideal) ((c : Thread nD τ).loc b))

/-- The 4096x497 block at point t is rows 4096·t … of the 131072x497 array. -/
theorem blk0_apply (c : Dev nD) (t : Fin cfg1.N) (z : S4096x497.Idx) (z' : S131072x497.Idx)
    (h0 : (z' 0).val = t.val * 4096 + (z 0).val) (h1 : (z' 1).val = (z 1).val) :
    (Gen.iblk1 V c 0 t : Vec Ideal S4096x497 .f32) z = (V c main_v60 : S131072x497.Idx → EReal) z' := by
  obtain ⟨e0, e1, -⟩ := idx_facts t
  unfold Gen.iblk1
  rw [View.read_apply]
  show (V c main_v60 : S131072x497.Idx → EReal) _ = (V c main_v60 : S131072x497.Idx → EReal) _
  congr 1
  funext a
  apply Fin.ext
  match a with
  | ⟨0, _⟩ => show win1_0.index t (0 : Fin 2) * 4096 + 1 * (z 0).val = (z' 0).val; rw [e0, h0]; omega
  | ⟨1, _⟩ => show win1_0.index t (1 : Fin 2) * 497 + 1 * (z 1).val = (z' 1).val; rw [e1, h1]; omega

/-- The weights' window is the whole 497x64 array at every point. -/
theorem blk1_eq (c : Dev nD) (t : Fin cfg1.N) :
    (Gen.iblk1 V c 1 t : Vec Ideal S497x64 .f32) = (V c main_arg2 : S497x64.Idx → EReal) := by
  obtain ⟨-, -, e0, e1, -⟩ := idx_facts t
  funext z
  unfold Gen.iblk1
  rw [View.read_apply]
  show (V c main_arg2 : S497x64.Idx → EReal) _ = (V c main_arg2 : S497x64.Idx → EReal) z
  congr 1
  funext a
  apply Fin.ext
  match a with
  | ⟨0, _⟩ => show win1_1.index t (0 : Fin 2) * 497 + 1 * (z 0).val = (z 0).val; rw [e0]; omega
  | ⟨1, _⟩ => show win1_1.index t (1 : Fin 2) * 64 + 1 * (z 1).val = (z 1).val; rw [e1]; omega

/-- The id column's block at point t is rows 4096·t … of the 131072x1 column. -/
theorem blk2_apply (c : Dev nD) (t : Fin cfg1.N) (z : S4096x1.Idx) (z' : S131072x1.Idx)
    (h0 : (z' 0).val = t.val * 4096 + (z 0).val) :
    (Gen.iblk1 V c 2 t : Vec Ideal S4096x1 .i32) z = (V c main_v0 : S131072x1.Idx → BitVec 32) z' := by
  obtain ⟨-, -, -, -, e0, e1, -⟩ := idx_facts t
  unfold Gen.iblk1
  rw [View.read_apply]
  show (V c main_v0 : S131072x1.Idx → BitVec 32) _ = (V c main_v0 : S131072x1.Idx → BitVec 32) _
  congr 1
  funext a
  apply Fin.ext
  match a with
  | ⟨0, _⟩ => show win1_2.index t (0 : Fin 2) * 4096 + 1 * (z 0).val = (z' 0).val; rw [e0, h0]; omega
  | ⟨1, _⟩ =>
    show win1_2.index t (1 : Fin 2) * 1 + 1 * (z 1).val = (z' 1).val
    have hz : (z 1).val < 1 := (z 1).isLt
    have hz' : (z' 1).val < 1 := (z' 1).isLt
    rw [e1]; omega

/-- The table's window is the whole 8x64 array at every point. -/
theorem blk3_eq (c : Dev nD) (t : Fin cfg1.N) :
    (Gen.iblk1 V c 3 t : Vec Ideal S8x64 .f32) = (V c main_v65 : S8x64.Idx → EReal) := by
  obtain ⟨-, -, -, -, -, -, e0, e1, -⟩ := idx_facts t
  funext z
  unfold Gen.iblk1
  rw [View.read_apply]
  show (V c main_v65 : S8x64.Idx → EReal) _ = (V c main_v65 : S8x64.Idx → EReal) z
  congr 1
  funext a
  apply Fin.ext
  match a with
  | ⟨0, _⟩ => show win1_3.index t (0 : Fin 2) * 8 + 1 * (z 0).val = (z 0).val; rw [e0]; omega
  | ⟨1, _⟩ => show win1_3.index t (1 : Fin 2) * 64 + 1 * (z 1).val = (z 1).val; rw [e1]; omega

/-- The stored value of a block whose rows are rows 4096·T … of the arrays, at block entry y, is the
    first projection's entry at the array index i that y sits at. -/
theorem pay_block (a : FVec Ideal S131072x497 .f32) (w : FVec Ideal S497x64 .f32) (bid : IVec S131072x1 32)
    (e : FVec Ideal S8x64 .f32) (x0 : Vec Ideal S4096x497 .f32) (x1 : Vec Ideal S497x64 .f32)
    (x2 : Vec Ideal S4096x1 .i32) (x3 : Vec Ideal S8x64 .f32) (T : ℕ) (y : S4096x64.Idx) (i : S131072x64.Idx)
    (hi0 : (i 0).val = T * 4096 + (y 0).val) (hi1 : (i 1).val = (y 1).val)
    (h0 : ∀ (z : S4096x497.Idx) (z' : S131072x497.Idx), (z' 0).val = T * 4096 + (z 0).val → (z' 1).val = (z 1).val → x0 z = a z')
    (h1 : x1 = w)
    (h2 : ∀ (z : S4096x1.Idx) (z' : S131072x1.Idx), (z' 0).val = T * 4096 + (z 0).val → (x2 : IVec S4096x1 32) z = bid z')
    (h3 : x3 = e) :
    Gen.k1_pay1 (F := Ideal) x0 x1 x2 x3 y = conv1Arr a w bid e i := by
  obtain ⟨p, q, rfl⟩ : ∃ (p : Fin 4096) (q : Fin 64), y = ix2 p q := ⟨y 0, y 1, eq_ix2 y⟩
  have hq : (i 1 : Fin 64) = q := Fin.ext hi1
  rw [pay_apply]
  unfold conv1Arr pick
  subst h1 h3
  rw [hq, h2 (ix2 p (0 : Fin 1)) (ix2 (i 0) (0 : Fin 1)) hi0]
  refine congrArg (· + _) (Finset.sum_congr rfl fun k _ => ?_)
  rw [h0 (ix2 p k) (ix2 (i 0) k) hi0 rfl]

/-- What point t writes back is block t of the first projection of the region's entry arrays. -/
theorem flushed_eq (c : Dev nD) (t : Fin cfg1.N) :
    (Gen.dat1 (F := Ideal) V c).flushed 4 t
      = ((cfg1.win 4).blk t).view.read (Elt Ideal) (conv1Arr (V c main_v60) (V c main_arg2) (V c main_v0) (V c main_v65)) := by
  show (cfg1.win 4).cut (grid1.coords t) ((Gen.dat1 (F := Ideal) V c).after 4 t) = _
  rw [Gen.after1_4]
  unfold Gen.out1_4
  rw [View.canon_unit_zero zeros2]
  simp only [View.ld_unit_zero (S := S4096x497) zeros2, View.ld_unit_zero (S := S497x64) zeros2,
    View.ld_unit_zero (S := S4096x1) zeros2, View.ld_unit_zero (S := S8x64) zeros2]
  obtain ⟨-, -, -, -, -, -, -, -, e0, e1⟩ := idx_facts t
  funext j
  rw [View.read_apply]
  show Gen.k1_pay1 (F := Ideal) (Gen.iblk1 V c 0 t) (Gen.iblk1 V c 1 t) (Gen.iblk1 V c 2 t) (Gen.iblk1 V c 3 t) ((cfg1.win 4).xinj (grid1.coords t) j) = _
  refine pay_block _ _ _ _ _ _ _ _ t.val _ _ ?_ ?_ (fun z z' h0 h1 => blk0_apply V c t z z' h0 h1) (blk1_eq V c t)
    (fun z z' h0 => blk2_apply V c t z z' h0) (blk3_eq V c t)
  · show win1_4.index t (0 : Fin 2) * 4096 + 1 * (j 0).val = t.val * 4096 + (j 0).val; rw [e0]; omega
  · show win1_4.index t (1 : Fin 2) * 64 + 1 * (j 1).val = (j 1).val; rw [e1]; omega

/-- An index of the 131072x64 array is in point t's block iff each coordinate is in the block's range on its axis. -/
theorem mem_blk (t : Fin cfg1.N) (i : S131072x64.Idx) :
    i ∈ ((cfg1.win 4).blk t).view.set
      ↔ ∀ a : Fin 2, win1_4.index t a * S4096x64.size a ≤ (i a).val ∧ (i a).val < win1_4.index t a * S4096x64.size a + S4096x64.size a := by
  show i ∈ ((View.whole main_v66).slice (win1_4.rect t)).set ↔ _
  rw [View.set_slice_whole, Rect.mem_set_unit]
  exact Iff.rfl

/-- Row r of the array lies in the block of point r / 4096. -/
theorem covered (i : S131072x64.Idx) :
    ∃ t : Fin cfg1.N, (cfg1.win 4).flush t = true ∧ i ∈ ((cfg1.win 4).blk t).view.set := by
  have hi0 : (i 0).val < 131072 := (i 0).isLt
  have hi1 : (i 1).val < 64 := (i 1).isLt
  have hN : cfg1.N = 32 := Gen.N_1
  let t : Fin cfg1.N := ⟨(i 0).val / 4096, by rw [hN]; omega⟩
  obtain ⟨-, -, -, -, -, -, -, -, e0, e1⟩ := idx_facts t
  have ht : t.val = (i 0).val / 4096 := rfl
  refine ⟨t, Gen.flush1_4 t, ?_⟩
  rw [mem_blk]
  intro a
  match a with
  | ⟨0, _⟩ =>
    show win1_4.index t (0 : Fin 2) * 4096 ≤ (i 0).val ∧ (i 0).val < win1_4.index t (0 : Fin 2) * 4096 + 4096
    rw [e0, ht]; omega
  | ⟨1, _⟩ =>
    show win1_4.index t (1 : Fin 2) * 64 ≤ (i 1).val ∧ (i 1).val < win1_4.index t (1 : Fin 2) * 64 + 64
    rw [e1]; omega

end Blocks

end Region1

/-- The whole output array of the first projection's pipeline after its run is the first projection of the region's
    entry arrays: every point writes its block of that one function, and the 32 blocks cover the array. -/
theorem region1_arr (V : (c : Dev nD) → (b : Ref sig .tc) → Buf (Elt Ideal) ((c : Thread nD τ).loc b)) (c : Dev nD) :
    (Gen.dat1 (F := Ideal) V c).arrAt 4 cfg1.N
      = conv1Arr (V c main_v60) (V c main_arg2) (V c main_v0) (V c main_v65) := by
  exact (Gen.dat1 (F := Ideal) V c).arrAt_eq_of_cover 4 (conv1Arr (V c main_v60) (V c main_arg2) (V c main_v0) (V c main_v65))
    (fun t _ => Region1.flushed_eq V c t) Region1.covered

end Cert.GraphBlock

end
-- ==== Proof.Region2.lean ====
import proofs.«428457_j2224793059401_1_alg».proof.Proof.Gen.KernelIdeal.Frame
import proofs.«428457_j2224793059401_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GraphBlock

open Idealize.ShloMosaic Idealize.ShloMosaic.TcCoe Idealize.ShloMosaic.ValueIdx Idealize.SL.Sem Cert.KernelIdeal
open Idealize.ShloMosaic.Pipeline (Dat Cfg Window)

namespace Region2

/-- A column of shape [a, 1] broadcast to [a, b] reads, at (p, c), the operand's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane counter along axis 1 of a [1, 8] vector reads k at (0, k). -/
theorem iota_row8_apply (h : S1x8.Iotas .tc 32 [1]) (k : Fin 8) :
    iota .tc S1x8 32 [1] h (ix2 (0 : Fin 1) k) = BitVec.ofNat 32 k.val := by
  show BitVec.ofNat 32 (0 * 8 + k.val) = BitVec.ofNat 32 k.val
  rw [Nat.zero_mul, Nat.zero_add]

/-- The equality comparison of two words is the bit 1 exactly when they are the same word. -/
theorem cmpi_eq_word (a b : BitVec 32) : IntOp.cmpi .eq a b = if a = b then 1#1 else 0#1 := by
  show BitVec.ofBool (a == b) = _
  by_cases h : a = b
  · rw [if_pos h, h, beq_self_eq_true]; rfl
  · rw [if_neg h, beq_eq_false_iff_ne.mpr h]; rfl

/-- The signed reading of the widened comparison bit, as an extended real: 1 where the words agree, else 0. -/
theorem sitofp_extui_cmpi_eq (a b : BitVec 32) :
    (FloatOps.sitofp (F := Ideal) .f32 ((IntOp.cmpi .eq a b).setWidth 32) : EReal) = if a = b then 1 else 0 := by
  rw [cmpi_eq_word]
  by_cases hab : a = b
  · rw [if_pos hab, if_pos hab]
    show (((BitVec.setWidth 32 1#1).toInt : ℝ) : EReal) = 1
    have e : (BitVec.setWidth 32 1#1).toInt = 1 := by decide
    rw [e]; norm_num
  · rw [if_neg hab, if_neg hab]
    show (((BitVec.setWidth 32 0#1).toInt : ℝ) : EReal) = 0
    have e : (BitVec.setWidth 32 0#1).toInt = 0 := by decide
    rw [e]; norm_num

/-- The one-hot matrix the kernel forms: its (p, k) entry is 1 when row p's word is k and 0 otherwise. -/
theorem onehot_apply (bid : IVec S4096x1 32) (hb : S4096x1.Broadcasts S4096x8) (hi : S1x8.Iotas .tc 32 [1])
    (hib : S1x8.Broadcasts S4096x8) (hlt : 1 < 32) (p : Fin 4096) (k : Fin 8) :
    (sitofp .f32 (extui 32 (cmpi .eq (broadcastTo S4096x8 bid hb) (broadcastTo S4096x8 (iota .tc S1x8 32 [1] hi) hib)) hlt)
      : FVec Ideal S4096x8 .f32) (ix2 p k)
      = if bid (ix2 p (0 : Fin 1)) = BitVec.ofNat 32 k.val then (1 : EReal) else 0 := by
  show FloatOps.sitofp (F := Ideal) .f32 ((IntOp.cmpi .eq (broadcastTo S4096x8 bid hb (ix2 p k))
    (broadcastTo S4096x8 (iota .tc S1x8 32 [1] hi) hib (ix2 p k))).setWidth 32) = _
  rw [broadcastTo_a1_ab_apply bid hb p k, broadcastTo_1b_ab_apply (iota .tc S1x8 32 [1] hi) hib p k, iota_row8_apply hi k]
  exact sitofp_extui_cmpi_eq _ _

/-! The contraction of the one-hot matrix with the table: the product's index functions, axis by axis. -/

theorem lhs_onehot_0 (i : S4096x64.Idx) (q : dot_S4096x8_S8x64_S4096x64_1_0_0_1_n_n.contr.Idx) :
    (dot_S4096x8_S8x64_S4096x64_1_0_0_1_n_n.lhsIdx i q 0).val = (i 0).val := by
  unfold DotDims.lhsIdx
  rw [dif_neg (show ¬(0 : Fin S4096x8.rank) ∈ dot_S4096x8_S8x64_S4096x64_1_0_0_1_n_n.lhsBatch by decide), dif_pos (show (0 : Fin S4096x8.rank) ∈ dot_S4096x8_S8x64_S4096x64_1_0_0_1_n_n.lhsNonContracting by decide)]
  rfl
theorem lhs_onehot_1 (i : S4096x64.Idx) (q : dot_S4096x8_S8x64_S4096x64_1_0_0_1_n_n.contr.Idx) :
    (dot_S4096x8_S8x64_S4096x64_1_0_0_1_n_n.lhsIdx i q 1).val = (q ⟨0, by decide⟩).val :=
  dot_S4096x8_S8x64_S4096x64_1_0_0_1_n_n.lhsIdx_val_of_single rfl i q
theorem rhs_onehot_0 (i : S4096x64.Idx) (q : dot_S4096x8_S8x64_S4096x64_1_0_0_1_n_n.contr.Idx) :
    (dot_S4096x8_S8x64_S4096x64_1_0_0_1_n_n.rhsIdx i q 0).val = (q ⟨0, by decide⟩).val :=
  dot_S4096x8_S8x64_S4096x64_1_0_0_1_n_n.rhsIdx_val_of_single rfl i q
theorem rhs_onehot_1 (i : S4096x64.Idx) (q : dot_S4096x8_S8x64_S4096x64_1_0_0_1_n_n.contr.Idx) :
    (dot_S4096x8_S8x64_S4096x64_1_0_0_1_n_n.rhsIdx i q 1).val = (i 1).val := by
  unfold DotDims.rhsIdx
  rw [dif_neg (show ¬(1 : Fin S8x64.rank) ∈ dot_S4096x8_S8x64_S4096x64_1_0_0_1_n_n.rhsBatch by decide), dif_pos (show (1 : Fin S8x64.rank) ∈ dot_S4096x8_S8x64_S4096x64_1_0_0_1_n_n.rhsNonContracting by decide)]
  rfl

/-- The [4096, 8] by [8, 64] product from a zero accumulator, at (p, q): the eight-term inner product of row p with column q. -/
theorem matmul_onehot_apply (a : FVec Ideal S4096x8 .f32) (t : FVec Ideal S8x64 .f32) (p : Fin 4096) (q : Fin 64) :
    (matmul dot_S4096x8_S8x64_S4096x64_1_0_0_1_n_n none a t (constant (F := Ideal) S4096x64 .f32 0x00000000#32)
      : FVec Ideal S4096x64 .f32) (ix2 p q) = ∑ k : Fin 8, a (ix2 p k) * t (ix2 k q) := by
  simp only [matmul]
  rw [Ideal.matmul_constant_zero_apply, ← Equiv.sum_comp (contrEquiv1 dot_S4096x8_S8x64_S4096x64_1_0_0_1_n_n 8 rfl rfl).symm]
  refine Finset.sum_congr rfl fun k _ => ?_
  have hk := contrEquiv1_symm_val dot_S4096x8_S8x64_S4096x64_1_0_0_1_n_n 8 rfl rfl k
  have el : dot_S4096x8_S8x64_S4096x64_1_0_0_1_n_n.lhsIdx (ix2 p q) ((contrEquiv1 dot_S4096x8_S8x64_S4096x64_1_0_0_1_n_n 8 rfl rfl).symm k) = ix2 p k := funext fun ax => Fin.ext (by
    match ax with
    | ⟨0, _⟩ => exact lhs_onehot_0 _ _
    | ⟨1, _⟩ => exact (lhs_onehot_1 _ _).trans hk)
  have er : dot_S4096x8_S8x64_S4096x64_1_0_0_1_n_n.rhsIdx (ix2 p q) ((contrEquiv1 dot_S4096x8_S8x64_S4096x64_1_0_0_1_n_n 8 rfl rfl).symm k) = ix2 k q := funext fun ax => Fin.ext (by
    match ax with
    | ⟨0, _⟩ => exact (rhs_onehot_0 _ _).trans hk
    | ⟨1, _⟩ => exact rhs_onehot_1 _ _)
  rw [el, er]

/-- The scale-shift-SiLU tail at (p, q): with d the centred block, M the selected inverse deviations and g, b the channel
    rows broadcast down the rows, the entry is y * logistic y for y = d * M * g + b. -/
theorem normSilu_pointwise (d M : FVec Ideal S4096x64 .f32) (g b : FVec Ideal S1x64 .f32) (hb : S1x64.Broadcasts S4096x64)
    (p : Fin 4096) (q : Fin 64) :
    mulf (addf (mulf (mulf d M) (broadcastTo S4096x64 g hb)) (broadcastTo S4096x64 b hb))
        (logistic (addf (mulf (mulf d M) (broadcastTo S4096x64 g hb)) (broadcastTo S4096x64 b hb))) (ix2 p q)
      = (d (ix2 p q) * M (ix2 p q) * g (ix2 (0 : Fin 1) q) + b (ix2 (0 : Fin 1) q) : EReal)
        * Ideal.logistic (d (ix2 p q) * M (ix2 p q) * g (ix2 (0 : Fin 1) q) + b (ix2 (0 : Fin 1) q) : EReal) := by
  show (d (ix2 p q) * M (ix2 p q) * broadcastTo S4096x64 g hb (ix2 p q) + broadcastTo S4096x64 b hb (ix2 p q) : EReal)
      * Ideal.logistic (d (ix2 p q) * M (ix2 p q) * broadcastTo S4096x64 g hb (ix2 p q) + broadcastTo S4096x64 b hb (ix2 p q) : EReal) = _
  rw [broadcastTo_1b_ab_apply g hb p q, broadcastTo_1b_ab_apply b hb p q]

/-- THE BODY'S VALUE at (p, q) of its 4096 x 64 block, from the blocks it loads: the centred entry times the table entry
    its row's word selects times the channel's scale, plus the channel's shift, through y * logistic y. -/
theorem pay_apply (v0 : FVec Ideal S4096x64 .f32) (v2 : IVec S4096x1 32) (v10 : FVec Ideal S8x64 .f32)
    (v14 v18 : FVec Ideal S1x64 .f32) (p : Fin 4096) (q : Fin 64) :
    Gen.k2_pay1 (F := Ideal) v0 v2 v10 v14 v18 (ix2 p q)
      = (v0 (ix2 p q) * (∑ k : Fin 8, (if v2 (ix2 p (0 : Fin 1)) = BitVec.ofNat 32 k.val then (1 : EReal) else 0) * v10 (ix2 k q))
            * v14 (ix2 (0 : Fin 1) q) + v18 (ix2 (0 : Fin 1) q) : EReal)
        * Ideal.logistic (v0 (ix2 p q) * (∑ k : Fin 8, (if v2 (ix2 p (0 : Fin 1)) = BitVec.ofNat 32 k.val then (1 : EReal) else 0) * v10 (ix2 k q))
            * v14 (ix2 (0 : Fin 1) q) + v18 (ix2 (0 : Fin 1) q) : EReal) := by
  unfold Gen.k2_pay1
  simp only [shapeCast_self]
  refine (normSilu_pointwise v0 _ v14 v18 _ p q).trans ?_
  rw [matmul_onehot_apply]
  refine congrArg (fun s : EReal => (v0 (ix2 p q) * s * v14 (ix2 (0 : Fin 1) q) + v18 (ix2 (0 : Fin 1) q))
    * Ideal.logistic (v0 (ix2 p q) * s * v14 (ix2 (0 : Fin 1) q) + v18 (ix2 (0 : Fin 1) q))) ?_
  refine Finset.sum_congr rfl fun k _ => ?_
  rw [onehot_apply]

/-! ## From the blocks to the array -/

theorem zero_offsets : (![0, 0] : Fin 2 → Nat) = fun _ => 0 := funext fun a => by
  match a with
  | ⟨0, _⟩ => rfl
  | ⟨1, _⟩ => rfl

/-- The printed index maps, decided over the 32 points: the row-blocked windows (the centred array, the words, the output)
    sit at block t along the rows and block 0 along the columns; the table and the two channel rows are whole. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! Each input block, read at a block coordinate, is its array read where the output's block puts that coordinate:
    a block's coordinate in the array is always block index * block size + 1 * the coordinate inside the block. -/

/-- The centred block at (p, q) is the centred array at row 4096 t + p, column q. -/
theorem read_centred (V : (c : Dev nD) → (b : Ref sig .tc) → Buf (Elt Ideal) ((c : Thread nD τ).loc b)) (c : Dev nD) (t : Fin cfg2.N) (p : Fin 4096) (q : Fin 64)
    (i : S131072x64.Idx) (h0 : (i 0).val = t.val * 4096 + p.val) (h1 : (i 1).val = q.val) :
    Gen.iblk2 V c 0 t (ix2 p q) = V c main_v92 i := by
  obtain ⟨e00, e01, -⟩ := index_facts t
  show V c main_v92 (((cfg2.win 0).blk t).view.emb (ix2 p q)) = V c main_v92 i
  refine congrArg (V c main_v92) (funext fun a => Fin.ext ?_)
  match a with
  | ⟨0, _⟩ => show win2_0.index t (0 : Fin 2) * 4096 + 1 * p.val = (i 0).val; omega
  | ⟨1, _⟩ => show win2_0.index t (1 : Fin 2) * 64 + 1 * q.val = (i 1).val; omega

/-- The table block is the whole table. -/
theorem read_table (V : (c : Dev nD) → (b : Ref sig .tc) → Buf (Elt Ideal) ((c : Thread nD τ).loc b)) (c : Dev nD) (t : Fin cfg2.N) (k : Fin 8) (q : Fin 64) (n : Fin 64) (h1 : n.val = q.val) :
    Gen.iblk2 V c 1 t (ix2 k q) = V c main_v107 (ix2 k n) := by
  obtain ⟨-, -, e10, e11, -⟩ := index_facts t
  show V c main_v107 (((cfg2.win 1).blk t).view.emb (ix2 k q)) = V c main_v107 (ix2 k n)
  refine congrArg (V c main_v107) (funext fun a => Fin.ext ?_)
  match a with
  | ⟨0, _⟩ => show win2_1.index t (0 : Fin 2) * 8 + 1 * k.val = k.val; omega
  | ⟨1, _⟩ => show win2_1.index t (1 : Fin 2) * 64 + 1 * q.val = n.val; omega

/-- The scale block is the whole scale row. -/
theorem read_scale (V : (c : Dev nD) → (b : Ref sig .tc) → Buf (Elt Ideal) ((c : Thread nD τ).loc b)) (c : Dev nD) (t : Fin cfg2.N) (q : Fin 64) (n : Fin 64) (h1 : n.val = q.val) :
    Gen.iblk2 V c 2 t (ix2 (0 : Fin 1) q) = V c main_v108 (ix2 (0 : Fin 1) n) := by
  obtain ⟨-, -, -, -, e20, e21, -⟩ := index_facts t
  show V c main_v108 (((cfg2.win 2).blk t).view.emb (ix2 (0 : Fin 1) q)) = V c main_v108 (ix2 (0 : Fin 1) n)
  refine congrArg (V c main_v108) (funext fun a => Fin.ext ?_)
  match a with
  | ⟨0, _⟩ => show win2_2.index t (0 : Fin 2) * 1 + 1 * 0 = 0; omega
  | ⟨1, _⟩ => show win2_2.index t (1 : Fin 2) * 64 + 1 * q.val = n.val; omega

/-- The shift block is the whole shift row. -/
theorem read_shift (V : (c : Dev nD) → (b : Ref sig .tc) → Buf (Elt Ideal) ((c : Thread nD τ).loc b)) (c : Dev nD) (t : Fin cfg2.N) (q : Fin 64) (n : Fin 64) (h1 : n.val = q.val) :
    Gen.iblk2 V c 3 t (ix2 (0 : Fin 1) q) = V c main_v109 (ix2 (0 : Fin 1) n) := by
  obtain ⟨-, -, -, -, -, -, e30, e31, -⟩ := index_facts t
  show V c main_v109 (((cfg2.win 3).blk t).view.emb (ix2 (0 : Fin 1) q)) = V c main_v109 (ix2 (0 : Fin 1) n)
  refine congrArg (V c main_v109) (funext fun a => Fin.ext ?_)
  match a with
  | ⟨0, _⟩ => show win2_3.index t (0 : Fin 2) * 1 + 1 * 0 = 0; omega
  | ⟨1, _⟩ => show win2_3.index t (1 : Fin 2) * 64 + 1 * q.val = n.val; omega

/-- The word block at row p is the word array at row 4096 t + p. -/
theorem read_words (V : (c : Dev nD) → (b : Ref sig .tc) → Buf (Elt Ideal) ((c : Thread nD τ).loc b)) (c : Dev nD) (t : Fin cfg2.N) (p : Fin 4096) (n : Fin 131072) (h0 : n.val = t.val * 4096 + p.val) :
    Gen.iblk2 V c 4 t (ix2 p (0 : Fin 1)) = V c main_v0 (ix2 n (0 : Fin 1)) := by
  obtain ⟨-, -, -, -, -, -, -, -, e40, e41, -⟩ := index_facts t
  show V c main_v0 (((cfg2.win 4).blk t).view.emb (ix2 p (0 : Fin 1))) = V c main_v0 (ix2 n (0 : Fin 1))
  refine congrArg (V c main_v0) (funext fun a => Fin.ext ?_)
  match a with
  | ⟨0, _⟩ => show win2_4.index t (0 : Fin 2) * 4096 + 1 * p.val = n.val; omega
  | ⟨1, _⟩ => show win2_4.index t (1 : Fin 2) * 1 + 1 * 0 = 0; omega

/-- WHAT POINT t WRITES BACK is block t of the specification's array of the region's entry arrays. -/
theorem flushed_eq (V : (c : Dev nD) → (b : Ref sig .tc) → Buf (Elt Ideal) ((c : Thread nD τ).loc b)) (c : Dev nD) (t : Fin cfg2.N) :
    (Gen.dat2 (F := Ideal) V c).flushed 5 t = ((cfg2.win 5).blk t).view.read (Elt Ideal)
      (normSiluArr (V c main_v92) (V c main_v107) (V c main_v108) (V c main_v109) (V c main_v0)) := by
  show (cfg2.win 5).cut (grid2.coords t) ((Gen.dat2 (F := Ideal) V c).after 5 t) = _
  rw [Gen.after2_5]
  unfold Gen.out2_5
  rw [View.canon_unit_zero zero_offsets]
  simp only [View.ld_unit_zero (S := S4096x64) zero_offsets, View.ld_unit_zero (S := S4096x1) zero_offsets,
    View.ld_unit_zero (S := S8x64) zero_offsets, View.ld_unit_zero (S := S1x64) zero_offsets]
  funext j
  obtain ⟨p, q, rfl⟩ : ∃ (p : Fin 4096) (q : Fin 64), j = ix2 p q := ⟨j 0, j 1, eq_ix2 j⟩
  obtain ⟨i, hi, h0, h1⟩ : ∃ i : S131072x64.Idx, ((cfg2.win 5).blk t).view.emb (ix2 p q) = i
      ∧ (i 0).val = t.val * 4096 + p.val ∧ (i 1).val = q.val := by
    obtain ⟨-, -, -, -, -, -, -, -, -, -, e50, e51⟩ := index_facts t
    refine ⟨_, rfl, ?_, ?_⟩
    · show win2_5.index t (0 : Fin 2) * 4096 + 1 * p.val = t.val * 4096 + p.val; omega
    · show win2_5.index t (1 : Fin 2) * 64 + 1 * q.val = q.val; omega
  show Gen.k2_pay1 (F := Ideal) (Gen.iblk2 V c 0 t) (Gen.iblk2 V c 4 t) (Gen.iblk2 V c 1 t) (Gen.iblk2 V c 2 t) (Gen.iblk2 V c 3 t) (ix2 p q)
      = normSiluArr (V c main_v92) (V c main_v107) (V c main_v108) (V c main_v109) (V c main_v0) (((cfg2.win 5).blk t).view.emb (ix2 p q))
  rw [hi, pay_apply]
  have hs : (∑ k : Fin 8, (if Gen.iblk2 V c 4 t (ix2 p (0 : Fin 1)) = BitVec.ofNat 32 k.val then (1 : EReal) else 0) * Gen.iblk2 V c 1 t (ix2 k q))
      = pick (V c main_v0) (V c main_v107) (i 0) (i 1) := by
    unfold pick
    refine Finset.sum_congr rfl fun k _ => ?_
    rw [read_words V c t p (i 0) h0, read_table V c t k q (i 1) h1]
  rw [hs, read_centred V c t p q i h0 h1, read_scale V c t q (i 1) h1, read_shift V c t q (i 1) h1]
  rfl

/-- An index of the array is in point t's block iff each coordinate is in the block's range on its axis. -/
theorem mem_block (t : Fin cfg2.N) (i : S131072x64.Idx) :
    i ∈ ((cfg2.win 5).blk t).view.set ↔ ∀ a : Fin 2, win2_5.index t a * S4096x64.size a ≤ (i a).val
      ∧ (i a).val < win2_5.index t a * S4096x64.size a + S4096x64.size a := by
  show i ∈ ((View.whole main_v110).slice (win2_5.rect t)).set ↔ _
  rw [View.set_slice_whole, Rect.mem_set_unit]
  exact Iff.rfl

/-- THE COVER: row r of the array lies in the block of point r / 4096, and every point writes its block back. -/
theorem covered (i : S131072x64.Idx) :
    ∃ t : Fin cfg2.N, (cfg2.win 5).flush t = true ∧ i ∈ ((cfg2.win 5).blk t).view.set := by
  have hi0 : (i 0).val < 131072 := (i 0).isLt
  have hi1 : (i 1).val < 64 := (i 1).isLt
  have hN : grid2.N = 32 := Gen.N_2
  obtain ⟨t, ht⟩ : ∃ t : Fin cfg2.N, t.val = (i 0).val / 4096 :=
    ⟨⟨(i 0).val / 4096, by show (i 0).val / 4096 < grid2.N; rw [hN]; omega⟩, rfl⟩
  refine ⟨t, Gen.flush2_5 t, ?_⟩
  rw [mem_block]
  obtain ⟨-, -, -, -, -, -, -, -, -, -, e50, e51⟩ := index_facts t
  intro a
  match a with
  | ⟨0, _⟩ =>
    show win2_5.index t (0 : Fin 2) * 4096 ≤ (i 0).val ∧ (i 0).val < win2_5.index t (0 : Fin 2) * 4096 + 4096
    omega
  | ⟨1, _⟩ =>
    show win2_5.index t (1 : Fin 2) * 64 ≤ (i 1).val ∧ (i 1).val < win2_5.index t (1 : Fin 2) * 64 + 64
    omega

end Region2

/-- THE ARRAY after the run: every index is covered by a block some point writes back, and each written block is the
    specification's block, so the whole output array is the specification's array of the entry arrays. -/
theorem region2_arr (V : (c : Dev nD) → (b : Ref sig .tc) → Buf (Elt Ideal) ((c : Thread nD τ).loc b)) (c : Dev nD) :
    (Gen.dat2 (F := Ideal) V c).arrAt 5 cfg2.N
      = normSiluArr (V c main_v92) (V c main_v107) (V c main_v108) (V c main_v109) (V c main_v0) := by
  exact (Gen.dat2 (F := Ideal) V c).arrAt_eq_of_cover 5
    (normSiluArr (V c main_v92) (V c main_v107) (V c main_v108) (V c main_v109) (V c main_v0))
    (fun t _ => Region2.flushed_eq V c t) Region2.covered

end Cert.GraphBlock

end
-- ==== Proof.Region3.lean ====
import proofs.«428457_j2224793059401_1_alg».proof.Proof.Gen.KernelIdeal.Frame
import proofs.«428457_j2224793059401_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GraphBlock

open Idealize.ShloMosaic Idealize.ShloMosaic.TcCoe Idealize.ShloMosaic.ValueIdx Idealize.SL.Sem Cert.KernelIdeal
open Idealize.ShloMosaic.Pipeline (Dat Cfg Window)

namespace Region3

/-- The zero offsets of a whole-buffer access, spelt as a constant function. -/
theorem zeroOff2 : (![0, 0] : Fin 2 → Nat) = fun _ => 0 := funext fun a => by fin_cases a <;> rfl

/-! ## The block product's operand indices, axis by axis -/

theorem lhs_proj2_0 (i : S4096x64.Idx) (q : dot_S4096x497_S497x64_S4096x64_1_0_0_1_n_n.contr.Idx) :
    (dot_S4096x497_S497x64_S4096x64_1_0_0_1_n_n.lhsIdx i q 0).val = (i 0).val := by
  unfold DotDims.lhsIdx
  rw [dif_neg (show ¬(0 : Fin S4096x497.rank) ∈ dot_S4096x497_S497x64_S4096x64_1_0_0_1_n_n.lhsBatch by decide), dif_pos (show (0 : Fin S4096x497.rank) ∈ dot_S4096x497_S497x64_S4096x64_1_0_0_1_n_n.lhsNonContracting by decide)]
  rfl
theorem lhs_proj2_1 (i : S4096x64.Idx) (q : dot_S4096x497_S497x64_S4096x64_1_0_0_1_n_n.contr.Idx) :
    (dot_S4096x497_S497x64_S4096x64_1_0_0_1_n_n.lhsIdx i q 1).val = (q ⟨0, by decide⟩).val :=
  dot_S4096x497_S497x64_S4096x64_1_0_0_1_n_n.lhsIdx_val_of_single rfl i q
theorem rhs_proj2_0 (i : S4096x64.Idx) (q : dot_S4096x497_S497x64_S4096x64_1_0_0_1_n_n.contr.Idx) :
    (dot_S4096x497_S497x64_S4096x64_1_0_0_1_n_n.rhsIdx i q 0).val = (q ⟨0, by decide⟩).val :=
  dot_S4096x497_S497x64_S4096x64_1_0_0_1_n_n.rhsIdx_val_of_single rfl i q
theorem rhs_proj2_1 (i : S4096x64.Idx) (q : dot_S4096x497_S497x64_S4096x64_1_0_0_1_n_n.contr.Idx) :
    (dot_S4096x497_S497x64_S4096x64_1_0_0_1_n_n.rhsIdx i q 1).val = (i 1).val := by
  unfold DotDims.rhsIdx
  rw [dif_neg (show ¬(1 : Fin S497x64.rank) ∈ dot_S4096x497_S497x64_S4096x64_1_0_0_1_n_n.rhsBatch by decide), dif_pos (show (1 : Fin S497x64.rank) ∈ dot_S4096x497_S497x64_S4096x64_1_0_0_1_n_n.rhsNonContracting by decide)]
  rfl

/-- The body's arithmetic at entry (p, q) of the block: the skip entry plus the inner product of row p of the
    activation block with column q of the weights. -/
theorem proj2_pay_apply (v0 : Vec Ideal S4096x497 .f32) (v3 : Vec Ideal S497x64 .f32) (v6 : Vec Ideal S4096x64 .f32)
    (p : Fin 4096) (q : Fin 64) :
    Gen.k3_pay1 (F := Ideal) v0 v3 v6 (ix2 p q) = (v6 (ix2 p q) + ∑ k : Fin 497, v0 (ix2 p k) * v3 (ix2 k q) : EReal) := by
  unfold Gen.k3_pay1
  rw [addf_apply]
  refine congrArg (v6 (ix2 p q) + ·) ?_
  refine (Ideal.matmul_constant_zero_apply dot_S4096x497_S497x64_S4096x64_1_0_0_1_n_n none _ _ _).trans ?_
  rw [← Equiv.sum_comp (contrEquiv1 dot_S4096x497_S497x64_S4096x64_1_0_0_1_n_n 497 rfl rfl).symm]
  refine Finset.sum_congr rfl fun k _ => ?_
  have hk := contrEquiv1_symm_val dot_S4096x497_S497x64_S4096x64_1_0_0_1_n_n 497 rfl rfl k
  have el : dot_S4096x497_S497x64_S4096x64_1_0_0_1_n_n.lhsIdx (ix2 p q) ((contrEquiv1 dot_S4096x497_S497x64_S4096x64_1_0_0_1_n_n 497 rfl rfl).symm k) = ix2 p k := funext fun a => Fin.ext (by
    match a with
    | ⟨0, _⟩ => exact lhs_proj2_0 _ _
    | ⟨1, _⟩ => exact (lhs_proj2_1 _ _).trans hk)
  have er : dot_S4096x497_S497x64_S4096x64_1_0_0_1_n_n.rhsIdx (ix2 p q) ((contrEquiv1 dot_S4096x497_S497x64_S4096x64_1_0_0_1_n_n 497 rfl rfl).symm k) = ix2 k q := funext fun a => Fin.ext (by
    match a with
    | ⟨0, _⟩ => exact (rhs_proj2_0 _ _).trans hk
    | ⟨1, _⟩ => exact rhs_proj2_1 _ _)
  rw [truncf_apply, truncf_apply, el, er, shapeCast_self]

/-! ## The blocks' places in their arrays -/

/-- The index maps over the 32 grid points: the activation block, the skip block and the output block of point t are
    block t along the rows and block 0 along the columns; the weights' block is the whole array. -/
theorem proj2_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- WHAT POINT t WRITES BACK is block t of the second projection of the region's entry arrays. -/
theorem proj2_flushed_eq (V : (c : Dev nD) → (b : Ref sig .tc) → Buf (Elt Ideal) ((c : Thread nD τ).loc b)) (c : Dev nD)
    (t : Fin cfg3.N) :
    (Gen.dat3 (F := Ideal) V c).flushed 3 t
      = ((cfg3.win 3).blk t).view.read (Elt Ideal) (conv2Arr (V c main_v126) (V c main_arg3) (V c main_arg0)) := by
  show (cfg3.win 3).cut (grid3.coords t) ((Gen.dat3 (F := Ideal) V c).after 3 t) = _
  rw [Gen.after3_3]
  unfold Gen.out3_3
  rw [View.canon_unit_zero zeroOff2]
  simp only [View.ld_unit_zero (S := S4096x497) zeroOff2, View.ld_unit_zero (S := S497x64) zeroOff2,
    View.ld_unit_zero (S := S4096x64) zeroOff2]
  obtain ⟨e00, e01, e10, e11, e20, e21, e30, e31⟩ := proj2_idx_facts t
  refine funext fun (j : S4096x64.Idx) => ?_
  obtain ⟨p, q, rfl⟩ : ∃ (p : Fin 4096) (q : Fin 64), j = ix2 p q := ⟨j 0, j 1, eq_ix2 j⟩
  show Gen.k3_pay1 (F := Ideal) (Gen.iblk3 V c 0 t) (Gen.iblk3 V c 1 t) (Gen.iblk3 V c 2 t) (ix2 p q)
    = conv2Arr (V c main_v126) (V c main_arg3) (V c main_arg0) (((cfg3.win 3).blk t).view.emb (ix2 p q))
  refine (proj2_pay_apply _ _ _ p q).trans ?_
  have hp : p.val < 4096 := p.isLt
  have hq : q.val < 64 := q.isLt
  -- the skip block's entry is the skip array's entry at the output's place
  have h2 : Gen.iblk3 V c 2 t (ix2 p q) = V c main_arg0 (((cfg3.win 3).blk t).view.emb (ix2 p q)) := by
    show V c main_arg0 (((cfg3.win 2).blk t).view.emb (ix2 p q)) = V c main_arg0 (((cfg3.win 3).blk t).view.emb (ix2 p q))
    refine congrArg _ (funext fun a => Fin.ext ?_)
    match a with
    | ⟨0, _⟩ => show win3_2.index t (0 : Fin 2) * 4096 + 1 * p.val = win3_3.index t (0 : Fin 2) * 4096 + 1 * p.val; omega
    | ⟨1, _⟩ => show win3_2.index t (1 : Fin 2) * 64 + 1 * q.val = win3_3.index t (1 : Fin 2) * 64 + 1 * q.val; omega
  -- row p of the activation block is the output row's row of the activation array
  have h0 : ∀ k : Fin 497, Gen.iblk3 V c 0 t (ix2 p k)
      = V c main_v126 (ix2 ((((cfg3.win 3).blk t).view.emb (ix2 p q)) 0) k) := by
    intro k
    have hk : k.val < 497 := k.isLt
    show V c main_v126 (((cfg3.win 0).blk t).view.emb (ix2 p k)) = V c main_v126 (ix2 ((((cfg3.win 3).blk t).view.emb (ix2 p q)) 0) k)
    refine congrArg _ (funext fun a => Fin.ext ?_)
    match a with
    | ⟨0, _⟩ => show win3_0.index t (0 : Fin 2) * 4096 + 1 * p.val = win3_3.index t (0 : Fin 2) * 4096 + 1 * p.val; omega
    | ⟨1, _⟩ => show win3_0.index t (1 : Fin 2) * 497 + 1 * k.val = k.val; omega
  -- column q of the weights' block is the output column's column of the weights
  have h1 : ∀ k : Fin 497, Gen.iblk3 V c 1 t (ix2 k q)
      = V c main_arg3 (ix2 k ((((cfg3.win 3).blk t).view.emb (ix2 p q)) 1)) := by
    intro k
    have hk : k.val < 497 := k.isLt
    show V c main_arg3 (((cfg3.win 1).blk t).view.emb (ix2 k q)) = V c main_arg3 (ix2 k ((((cfg3.win 3).blk t).view.emb (ix2 p q)) 1))
    refine congrArg _ (funext fun a => Fin.ext ?_)
    match a with
    | ⟨0, _⟩ => show win3_1.index t (0 : Fin 2) * 497 + 1 * k.val = k.val; omega
    | ⟨1, _⟩ => show win3_1.index t (1 : Fin 2) * 64 + 1 * q.val = win3_3.index t (1 : Fin 2) * 64 + 1 * q.val; omega
  rw [h2]
  simp only [h0, h1]
  rfl

/-! ## The output's blocks tile its array -/

/-- An index of the output array is in point t's block iff each coordinate is in the block's range on its axis. -/
theorem proj2_mem_blk (t : Fin cfg3.N) (i : S131072x64.Idx) :
    i ∈ ((cfg3.win 3).blk t).view.set ↔ ∀ a : Fin 2, win3_3.index t a * S4096x64.size a ≤ (i a).val ∧ (i a).val < win3_3.index t a * S4096x64.size a + S4096x64.size a := by
  show i ∈ ((View.whole main_v127).slice (win3_3.rect t)).set ↔ _
  rw [View.set_slice_whole, Rect.mem_set_unit]
  exact Iff.rfl

/-- Every index of the output array lies in the block of the point its row's quotient by 4096 names, and every point
    writes its block back. -/
theorem proj2_cover (i : S131072x64.Idx) :
    ∃ t : Fin cfg3.N, (cfg3.win 3).flush t = true ∧ i ∈ ((cfg3.win 3).blk t).view.set := by
  have hi0 : (i 0).val < 131072 := (i 0).isLt
  have hi1 : (i 1).val < 64 := (i 1).isLt
  have ht : (i 0).val / 4096 < cfg3.N := by
    show (i 0).val / 4096 < 32
    omega
  refine ⟨⟨(i 0).val / 4096, ht⟩, Gen.flush3_3 _, ?_⟩
  rw [proj2_mem_blk]
  obtain ⟨-, -, -, -, -, -, e30, e31⟩ := proj2_idx_facts ⟨(i 0).val / 4096, ht⟩
  intro a
  match a with
  | ⟨0, _⟩ =>
    show win3_3.index ⟨(i 0).val / 4096, ht⟩ (0 : Fin 2) * 4096 ≤ (i 0).val ∧ (i 0).val < win3_3.index ⟨(i 0).val / 4096, ht⟩ (0 : Fin 2) * 4096 + 4096
    rw [e30]
    show (i 0).val / 4096 * 4096 ≤ (i 0).val ∧ (i 0).val < (i 0).val / 4096 * 4096 + 4096
    omega
  | ⟨1, _⟩ =>
    show win3_3.index ⟨(i 0).val / 4096, ht⟩ (1 : Fin 2) * 64 ≤ (i 1).val ∧ (i 1).val < win3_3.index ⟨(i 0).val / 4096, ht⟩ (1 : Fin 2) * 64 + 64
    rw [e31]
    omega

end Region3

/-! ## The array after the run -/

theorem region3_arr (V : (c : Dev nD) → (b : Ref sig .tc) → Buf (Elt Ideal) ((c : Thread nD τ).loc b)) (c : Dev nD) :
    (Gen.dat3 (F := Ideal) V c).arrAt 3 cfg3.N
      = conv2Arr (V c main_v126) (V c main_arg3) (V c main_arg0) := by
  exact (Gen.dat3 (F := Ideal) V c).arrAt_eq_of_cover 3 (conv2Arr (V c main_v126) (V c main_arg3) (V c main_arg0))
    (fun t _ => Region3.proj2_flushed_eq V c t) Region3.proj2_cover

end Cert.GraphBlock

end
-- ==== Proof.HostNorm.lean ====
/-
  The reference's whole-array form of normalise, scale, shift and SiLU, read index by index.

  At row n and channel ch: the gather of one table row per index reads the table at the row's start index, taken as
  a signed word and clamped into 0..7; a batch id below 8 is not negative, so the wrap "add 8 when negative" leaves
  it and the clamp does nothing, and the gathered entry is the table's entry (id, ch).  The one-hot sum over the
  eight candidate rows has exactly one non-zero indicator, the one at k = id, so it is that same entry.  The two
  broadcasts of a channel vector read its entry ch.  The word 0x3F800000 is the real number one, and
  y * (1 / (1 + exp (-y))) is y * logistic y because logistic is that quotient by definition.
-/
import proofs.«428457_j2224793059401_1_alg».proof.Proof.Spec
import proofs.«428457_j2224793059401_1_alg».proof.Proof.HostDefs
import Idealize.ShloMosaic.Lib.ValueIdx
import Idealize.ShloMosaic.Lib.ValueLayout
import Idealize.ShloMosaic.Lib.Pipeline.Value
import Idealize.ShloMosaic.PureOps.Ideal.Laws

noncomputable section

namespace Cert.GraphBlock.Ref

open Idealize.ShloMosaic Idealize.ShloMosaic.ValueIdx Cert.ReferenceIdeal Cert.ReferenceIdeal.Gen

local notation "G" => gather_S8x64_S131072x1_S131072x64_1_0_n_n_0_1_164

/-- The gather of one 64-entry row per index out of the 8-row table, read at (n, ch): the table at the row the start
    index of n names (read signed, clamped into 0..7) and column ch.  On the table's row axis the operand index is the
    clamped start (the axis is collapsed: no offset, no batching); on its column axis it is the offset coordinate ch
    (the axis is not in the start index map: start 0). -/
private theorem gatherRow_apply {α : Type} {w : Nat} (t : S8x64.Idx → α) (idx : IVec S131072x1 w) (n : Fin 131072) (ch : Fin 64) :
    Host.gather G t idx (ix2 n ch)
      = t (ix2 (⟨min (idx (ix2 n (0 : Fin 1))).toInt.toNat 7, by omega⟩ : Fin 8) ch) := by
  unfold Host.gather
  congr 1
  funext a
  refine Fin.ext ?_
  match a with
  | ⟨0, _⟩ =>
    show GatherDims.start G (ix2 n ch) idx 0 + GatherDims.batchCoord G (ix2 n ch) 0 + GatherDims.offCoord G (ix2 n ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap G) from List.mem_singleton.mpr rfl)]
    have hsi : GatherDims.siIdx G (ix2 n ch) ⟨List.idxOf (0 : Fin 2) (GatherDims.startIndexMap G),
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show GatherDims.start G (ix2 n ch) idx 1 + GatherDims.batchCoord G (ix2 n ch) 1 + GatherDims.offCoord G (ix2 n ch) 1 = ch.val
    rw [GatherDims.batchCoord_eq_zero _ _ _ List.not_mem_nil]
    unfold GatherDims.start
    rw [dif_neg (show (1 : Fin 2) ∉ (GatherDims.startIndexMap G) by decide)]
    unfold GatherDims.offCoord
    rw [dif_pos (show (1 : Fin 2) ∈ (GatherDims.sKept G) by decide)]
    simp only [Nat.add_zero, Nat.zero_add]
    rfl

/-- A word below 8 is not negative read signed, so "add 8 when negative" returns it unchanged. -/
private theorem wrap_word (x : BitVec 32) (hx : x.toNat < 8) :
    Scalar.select (IntOp.cmpi .slt x 0#32) (IntOp.addi x 8#32) x = x := by
  have hi : x.toInt = (x.toNat : Int) := BitVec.toInt_eq_toNat_of_lt (by omega)
  have h : ¬ IntOp.cmpi .slt x 0#32 = 1#1 := by
    rw [IntOp.cmpi_slt, hi]
    simp
  rw [eq_zero_of_ne_one h]
  exact select_zero _ _

/-- The index column at row n is the batch id of row n, when that id is below 8. -/
private theorem wrapIdx_apply (bid : IVec S131072 32) (n : Fin 131072) (h : (bid (ix1 n)).toNat < 8) :
    wrapIdx bid (ix2 n (0 : Fin 1)) = bid (ix1 n) := by
  unfold wrapIdx
  refine (broadcastInDim_apply _ bcast_S131072_S131072x1_0 _ (ix2 n (0 : Fin 1)) (ix1 n) (fun a => match a with
    | ⟨0, _⟩ => by show n.val = if (131072 : Nat) = 1 then 0 else n.val; rw [if_neg (by decide)])).trans ?_
  show Scalar.select
      (IntOp.cmpi .slt (bid (ix1 n)) (broadcastInDim S131072 ![] bcast_S_S131072 (constantI S_ 32 0#32) (ix1 n)))
      (IntOp.addi (bid (ix1 n)) (broadcastInDim S131072 ![] bcast_S_S131072 (constantI S_ 32 8#32) (ix1 n)))
      (bid (ix1 n)) = _
  rw [broadcastInDim_apply _ bcast_S_S131072 (constantI S_ 32 0#32) (ix1 n) ix0 (fun a => a.elim0),
    broadcastInDim_apply _ bcast_S_S131072 (constantI S_ 32 8#32) (ix1 n) ix0 (fun a => a.elim0)]
  exact wrap_word _ h

/-- Row n of the gathered rows is the table row numbered by row n's batch id. -/
private theorem rowsOf_apply (t : FVec Ideal S8x64 .f32) (bid : IVec S131072 32) (n : Fin 131072) (ch : Fin 64)
    (h : (bid (ix1 n)).toNat < 8) :
    rowsOf t bid (ix2 n ch) = t (ix2 (⟨(bid (ix1 n)).toNat, h⟩ : Fin 8) ch) := by
  unfold rowsOf
  refine (gatherRow_apply t (wrapIdx bid) n ch).trans ?_
  refine congrArg (fun r : Fin 8 => t (ix2 r ch)) (Fin.ext ?_)
  show min (wrapIdx bid (ix2 n (0 : Fin 1))).toInt.toNat 7 = (bid (ix1 n)).toNat
  rw [wrapIdx_apply bid n h, BitVec.toInt_eq_toNat_of_lt (by omega), Int.toNat_natCast]
  omega

/-- The one-hot sum over the eight candidate rows is the entry of the row the word names, for a word below 8. -/
private theorem pick_eq (bid2 : IVec S131072x1 32) (t : FVec Ideal S8x64 .f32) (n : Fin 131072) (ch : Fin 64)
    (x : BitVec 32) (hx : x.toNat < 8) (hb : bid2 (ix2 n (0 : Fin 1)) = x) :
    Cert.GraphBlock.pick bid2 t n ch = t (ix2 (⟨x.toNat, hx⟩ : Fin 8) ch) := by
  unfold Cert.GraphBlock.pick
  rw [hb, Finset.sum_eq_single (⟨x.toNat, hx⟩ : Fin 8)]
  · rw [if_pos, one_mul]
    apply BitVec.eq_of_toNat_eq
    rw [BitVec.toNat_ofNat]
    exact (Nat.mod_eq_of_lt (by show x.toNat < 2 ^ 32; omega)).symm
  · intro k _ hk
    rw [if_neg, zero_mul]
    intro he
    apply hk
    apply Fin.ext
    have h2 := congrArg BitVec.toNat he
    rw [BitVec.toNat_ofNat, Nat.mod_eq_of_lt (by have := k.isLt; omega)] at h2
    exact h2.symm
  · intro hne
    exact absurd (Finset.mem_univ _) hne

/-- A channel vector repeated along the rows, read at (n, ch), is its entry ch. -/
private theorem alongRows_apply (g : FVec Ideal S64 .f32) (n : Fin 131072) (ch : Fin 64) :
    alongRows g (ix2 n ch) = g (ix1 ch) := by
  unfold alongRows
  refine (broadcastInDim_apply _ bcast_S1x64_S131072x64_0_1 _ (ix2 n ch) (ix2 (0 : Fin 1) ch) (fun a => match a with
    | ⟨0, _⟩ => by show 0 = if (1 : Nat) = 1 then 0 else n.val; rw [if_pos rfl]
    | ⟨1, _⟩ => by show ch.val = if (64 : Nat) = 1 then 0 else ch.val; rw [if_neg (by decide)])).trans ?_
  exact broadcastInDim_apply _ bcast_S64_S1x64_1 g (ix2 (0 : Fin 1) ch) (ix1 ch) (fun a => match a with
    | ⟨0, _⟩ => by show ch.val = if (64 : Nat) = 1 then 0 else ch.val; rw [if_neg (by decide)])

/-- The word 0x3F800000 encodes the real number one. -/
private theorem one_bits : Ideal.ofBits .f32 0x3F800000#32 = 1 := by
  simp [Ideal.ofBits, Ideal.ieee, -EReal.coe_mul]; norm_num

/-- y * (1 / (1 + exp (-y))) at an index is y * logistic y there: logistic is that quotient by definition. -/
private theorem siluH_apply (y : FVec Ideal S131072x64 .f32) (i : S131072x64.Idx) :
    siluH y i = y i * Ideal.logistic (y i) := by
  unfold siluH
  show y i * Ideal.div (broadcastInDim S131072x64 ![] bcast_S_S131072x64 (constant (F := Ideal) S_ .f32 0x3F800000#32) i)
      (broadcastInDim S131072x64 ![] bcast_S_S131072x64 (constant (F := Ideal) S_ .f32 0x3F800000#32) i + Ideal.exp (-(y i))) = _
  rw [broadcastInDim_apply _ bcast_S_S131072x64 (constant (F := Ideal) S_ .f32 0x3F800000#32) i ix0 (fun a => a.elim0)]
  show y i * Ideal.div (Ideal.ofBits .f32 0x3F800000#32) (Ideal.ofBits .f32 0x3F800000#32 + Ideal.exp (-(y i))) = _
  rw [one_bits]
  rfl

/-- The host form equals the index-wise array: at (n, ch) both are y * logistic y with
    y = d(n,ch) * s(id n, ch) * g(ch) + b(ch). -/
theorem normSiluH_eq (d : FVec Ideal S131072x64 .f32) (s : FVec Ideal S8x64 .f32) (g b : FVec Ideal S64 .f32) (bid : IVec S131072 32)
    (g2 b2 : FVec Ideal S1x64 .f32) (bid2 : IVec S131072x1 32)
    (hg : ∀ ch : Fin 64, g2 (ix2 (0 : Fin 1) ch) = g (ix1 ch))
    (hb : ∀ ch : Fin 64, b2 (ix2 (0 : Fin 1) ch) = b (ix1 ch))
    (hbid : ∀ n : Fin 131072, bid2 (ix2 n (0 : Fin 1)) = bid (ix1 n))
    (hr : ∀ n : Fin 131072, (bid (ix1 n)).toNat < 8) :
    normSiluH d s g b bid = Cert.GraphBlock.normSiluArr d s g2 b2 bid2 := by
  funext i
  obtain ⟨n, ch, rfl⟩ : ∃ n ch, i = ix2 n ch := ⟨i 0, i 1, eq_ix2 i⟩
  unfold normSiluH
  rw [siluH_apply]
  have hy : addf (mulf (mulf d (rowsOf s bid)) (alongRows g)) (alongRows b) (ix2 n ch)
      = d (ix2 n ch) * Cert.GraphBlock.pick bid2 s n ch * g2 (ix2 (0 : Fin 1) ch) + b2 (ix2 (0 : Fin 1) ch) := by
    show d (ix2 n ch) * rowsOf s bid (ix2 n ch) * alongRows g (ix2 n ch) + alongRows b (ix2 n ch) = _
    rw [rowsOf_apply s bid n ch (hr n), alongRows_apply, alongRows_apply, hg, hb,
      pick_eq bid2 s n ch (bid (ix1 n)) (hr n) (hbid n)]
  rw [hy]
  rfl

end Cert.GraphBlock.Ref

end
-- ==== Proof.HostConv.lean ====
import proofs.«428457_j2224793059401_1_alg».proof.Proof.Spec
import proofs.«428457_j2224793059401_1_alg».proof.Proof.HostDefs
import Idealize.ShloMosaic.Lib.ValueIdx
import Idealize.ShloMosaic.Lib.ValueLayout
import Idealize.ShloMosaic.Lib.Pipeline.Value
import Idealize.ShloMosaic.PureOps.Ideal.Laws

noncomputable section

namespace Cert.GraphBlock.Ref

open Idealize.ShloMosaic Idealize.ShloMosaic.ValueIdx Cert.ReferenceIdeal Cert.ReferenceIdeal.Gen

/-! ## The projection at an entry

The dot_general contracts axis 1 of the left operand with axis 0 of the right one; its output index (n, ch) reads
the left operand at (n, k) and the right operand at (k, ch), k the one coordinate of the contraction index. -/

/-- The left operand's row coordinate is the output's row. -/
private theorem dotL_0 (i : S131072x64.Idx) (q : dot_S131072x497_S497x64_S131072x64_1_0_0_1_n_n.contr.Idx) :
    (dot_S131072x497_S497x64_S131072x64_1_0_0_1_n_n.lhsIdx i q 0).val = (i 0).val := by
  unfold DotDims.lhsIdx
  rw [dif_neg (show ¬(0 : Fin S131072x497.rank) ∈ dot_S131072x497_S497x64_S131072x64_1_0_0_1_n_n.lhsBatch by decide),
    dif_pos (show (0 : Fin S131072x497.rank) ∈ dot_S131072x497_S497x64_S131072x64_1_0_0_1_n_n.lhsNonContracting by decide)]
  rfl

/-- The left operand's column coordinate is the contraction coordinate. -/
private theorem dotL_1 (i : S131072x64.Idx) (q : dot_S131072x497_S497x64_S131072x64_1_0_0_1_n_n.contr.Idx) :
    (dot_S131072x497_S497x64_S131072x64_1_0_0_1_n_n.lhsIdx i q 1).val = (q ⟨0, by decide⟩).val :=
  dot_S131072x497_S497x64_S131072x64_1_0_0_1_n_n.lhsIdx_val_of_single rfl i q

/-- The right operand's row coordinate is the contraction coordinate. -/
private theorem dotR_0 (i : S131072x64.Idx) (q : dot_S131072x497_S497x64_S131072x64_1_0_0_1_n_n.contr.Idx) :
    (dot_S131072x497_S497x64_S131072x64_1_0_0_1_n_n.rhsIdx i q 0).val = (q ⟨0, by decide⟩).val :=
  dot_S131072x497_S497x64_S131072x64_1_0_0_1_n_n.rhsIdx_val_of_single rfl i q

/-- The right operand's column coordinate is the output's column. -/
private theorem dotR_1 (i : S131072x64.Idx) (q : dot_S131072x497_S497x64_S131072x64_1_0_0_1_n_n.contr.Idx) :
    (dot_S131072x497_S497x64_S131072x64_1_0_0_1_n_n.rhsIdx i q 1).val = (i 1).val := by
  unfold DotDims.rhsIdx
  rw [dif_neg (show ¬(1 : Fin S497x64.rank) ∈ dot_S131072x497_S497x64_S131072x64_1_0_0_1_n_n.rhsBatch by decide),
    dif_pos (show (1 : Fin S497x64.rank) ∈ dot_S131072x497_S497x64_S131072x64_1_0_0_1_n_n.rhsNonContracting by decide)]
  rfl

/-- Entry (n, ch) of the projection is the 497-term inner product of row n of `a` with column ch of `w`. -/
private theorem dotH_apply (a : FVec Ideal S131072x497 .f32) (w : FVec Ideal S497x64 .f32) (n : Fin 131072) (ch : Fin 64) :
    Host.dotGeneral dot_S131072x497_S497x64_S131072x64_1_0_0_1_n_n none a w (ix2 n ch)
      = ∑ k : Fin 497, a (ix2 n k) * w (ix2 k ch) := by
  simp only [Host.dotGeneral]
  rw [Ideal.dotGeneral_apply,
    ← Equiv.sum_comp (contrEquiv1 dot_S131072x497_S497x64_S131072x64_1_0_0_1_n_n 497 rfl rfl).symm]
  refine Finset.sum_congr rfl fun k _ => ?_
  have hk := contrEquiv1_symm_val dot_S131072x497_S497x64_S131072x64_1_0_0_1_n_n 497 rfl rfl k
  have el : dot_S131072x497_S497x64_S131072x64_1_0_0_1_n_n.lhsIdx (ix2 n ch)
      ((contrEquiv1 dot_S131072x497_S497x64_S131072x64_1_0_0_1_n_n 497 rfl rfl).symm k) = ix2 n k :=
    funext fun b => Fin.ext (by
      match b with
      | ⟨0, _⟩ => exact dotL_0 _ _
      | ⟨1, _⟩ => exact (dotL_1 _ _).trans hk)
  have er : dot_S131072x497_S497x64_S131072x64_1_0_0_1_n_n.rhsIdx (ix2 n ch)
      ((contrEquiv1 dot_S131072x497_S497x64_S131072x64_1_0_0_1_n_n 497 rfl rfl).symm k) = ix2 k ch :=
    funext fun b => Fin.ext (by
      match b with
      | ⟨0, _⟩ => exact (dotR_0 _ _).trans hk
      | ⟨1, _⟩ => exact dotR_1 _ _)
  rw [el, er]

/-! ## The gathered table row

A batch id below 8 as an unsigned word is not negative as a signed one, so the wrap leaves it alone and the
gather's clamp of the start index into 0..7 does nothing: row n of the gather is row (id n) of the table. -/

/-- A 32-bit word below 8 read signed is itself. -/
private theorem toInt_of_lt8 (x : BitVec 32) (h : x.toNat < 8) : x.toInt = (x.toNat : Int) := by
  rw [BitVec.toInt_eq_toNat_cond, if_pos (by omega)]

/-- The wrapped index column at row n is the id itself when the id is below 8. -/
private theorem wrapIdx_apply (bid : IVec S131072 32) (n : Fin 131072) (h : (bid (ix1 n)).toNat < 8) :
    wrapIdx bid (ix2 n (0 : Fin 1)) = bid (ix1 n) := by
  unfold wrapIdx
  refine (broadcastInDim_apply _ bcast_S131072_S131072x1_0 _ (ix2 n (0 : Fin 1)) (ix1 n) (fun b => match b with
    | ⟨0, _⟩ => by show n.val = if (131072 : Nat) = 1 then 0 else n.val; rw [if_neg (by decide)])).trans ?_
  show Scalar.select (IntOp.cmpi .slt (bid (ix1 n)) 0#32) (IntOp.addi (bid (ix1 n)) 8#32) (bid (ix1 n)) = bid (ix1 n)
  have hc : IntOp.cmpi .slt (bid (ix1 n)) 0#32 = 0#1 := eq_zero_of_ne_one (fun h1 => by
    have h2 := IntOp.cmpi_slt.mp h1
    rw [toInt_of_lt8 _ h] at h2
    have h3 : (0#32 : BitVec 32).toInt = 0 := by decide
    omega)
  rw [hc, select_zero]

private theorem rowsOf_apply (t : FVec Ideal S8x64 .f32) (bid : IVec S131072 32)
    (hr : ∀ n : Fin 131072, (bid (ix1 n)).toNat < 8) (n : Fin 131072) (ch : Fin 64) :
    rowsOf t bid (ix2 n ch) = t (ix2 (⟨(bid (ix1 n)).toNat, hr n⟩ : Fin 8) ch) := by
  unfold rowsOf Host.gather
  refine congrArg t (funext fun b => Fin.ext ?_)
  match b with
  | ⟨0, _⟩ =>
    show gather_S8x64_S131072x1_S131072x64_1_0_n_n_0_1_164.start (ix2 n ch) (wrapIdx bid) 0
        + gather_S8x64_S131072x1_S131072x64_1_0_n_n_0_1_164.batchCoord (ix2 n ch) 0
        + gather_S8x64_S131072x1_S131072x64_1_0_n_n_0_1_164.offCoord (ix2 n ch) 0 = (bid (ix1 n)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x64.rank) ∈ gather_S8x64_S131072x1_S131072x64_1_0_n_n_0_1_164.startIndexMap from
      List.mem_singleton.mpr rfl)]
    have hsi : gather_S8x64_S131072x1_S131072x64_1_0_n_n_0_1_164.siIdx (ix2 n ch)
        ⟨List.idxOf (0 : Fin S8x64.rank) gather_S8x64_S131072x1_S131072x64_1_0_n_n_0_1_164.startIndexMap,
          List.idxOf_lt_length_iff.2 (List.mem_singleton.mpr rfl)⟩ = ix2 n (0 : Fin 1) := by
      funext c; refine Fin.ext ?_
      match c with
      | ⟨0, _⟩ => rfl
      | ⟨1, _⟩ => rfl
    rw [hsi, wrapIdx_apply bid n (hr n), toInt_of_lt8 _ (hr n), Int.toNat_natCast]
    show min (bid (ix1 n)).toNat (8 - 1) = (bid (ix1 n)).toNat
    have := hr n
    omega
  | ⟨1, _⟩ =>
    show gather_S8x64_S131072x1_S131072x64_1_0_n_n_0_1_164.start (ix2 n ch) (wrapIdx bid) 1
        + gather_S8x64_S131072x1_S131072x64_1_0_n_n_0_1_164.batchCoord (ix2 n ch) 1
        + gather_S8x64_S131072x1_S131072x64_1_0_n_n_0_1_164.offCoord (ix2 n ch) 1 = ch.val
    have hs : gather_S8x64_S131072x1_S131072x64_1_0_n_n_0_1_164.start (ix2 n ch) (wrapIdx bid) 1 = 0 := by
      unfold GatherDims.start
      rw [dif_neg (show ¬(1 : Fin S8x64.rank) ∈ gather_S8x64_S131072x1_S131072x64_1_0_n_n_0_1_164.startIndexMap by decide)]
    rw [hs, GatherDims.batchCoord_eq_zero _ _ _ List.not_mem_nil]
    unfold GatherDims.offCoord
    rw [dif_pos (show (1 : Fin S8x64.rank) ∈ gather_S8x64_S131072x1_S131072x64_1_0_n_n_0_1_164.sKept by decide)]
    simp only [Nat.zero_add]
    rfl

/-! ## The indicator sum

Exactly one of the eight indicators "the word is k" is 1, the one at k = the word's value; the sum over k of
indicator times entry is that row's entry. -/

/-- The indicator sum at a word below 8 is the entry of the row the word names. -/
private theorem pick_of_lt8 (bid2 : IVec S131072x1 32) (t : FVec Ideal S8x64 .f32) (n : Fin 131072) (ch : Fin 64)
    (x : BitVec 32) (hx : bid2 (ix2 n (0 : Fin 1)) = x) (h : x.toNat < 8) :
    Cert.GraphBlock.pick bid2 t n ch = t (ix2 (⟨x.toNat, h⟩ : Fin 8) ch) := by
  unfold Cert.GraphBlock.pick
  rw [Finset.sum_eq_single (⟨x.toNat, h⟩ : Fin 8)]
  · rw [if_pos (by
      rw [hx]
      exact BitVec.eq_of_toNat_eq (by rw [BitVec.toNat_ofNat]; show x.toNat = x.toNat % 2 ^ 32; omega)), one_mul]
  · intro k _ hk
    rw [if_neg (fun heq => hk (Fin.ext (by
      have h1 := congrArg BitVec.toNat (hx.symm.trans heq)
      rw [BitVec.toNat_ofNat] at h1
      have h2 := k.isLt
      show k.val = x.toNat
      omega))), zero_mul]
  · intro hnot
    exact absurd (Finset.mem_univ _) hnot

theorem conv1H_eq (a : FVec Ideal S131072x497 .f32) (w : FVec Ideal S497x64 .f32) (e : FVec Ideal S8x64 .f32) (bid : IVec S131072 32)
    (bid2 : IVec S131072x1 32)
    (hbid : ∀ n : Fin 131072, bid2 (ix2 n (0 : Fin 1)) = bid (ix1 n))
    (hr : ∀ n : Fin 131072, (bid (ix1 n)).toNat < 8) :
    conv1H a w e bid = Cert.GraphBlock.conv1Arr a w bid2 e := by
  funext i
  obtain ⟨n, ch, rfl⟩ : ∃ n ch, i = ix2 n ch := ⟨i 0, i 1, eq_ix2 i⟩
  unfold conv1H Cert.GraphBlock.conv1Arr
  show Host.dotGeneral dot_S131072x497_S497x64_S131072x64_1_0_0_1_n_n none a w (ix2 n ch) + rowsOf e bid (ix2 n ch)
    = (∑ k : Fin 497, a (ix2 n k) * w (ix2 k ch)) + Cert.GraphBlock.pick bid2 e n ch
  rw [dotH_apply, rowsOf_apply e bid hr, pick_of_lt8 bid2 e n ch (bid (ix1 n)) (hbid n) (hr n)]

theorem conv2H_eq (a : FVec Ideal S131072x497 .f32) (w : FVec Ideal S497x64 .f32) (x : FVec Ideal S131072x64 .f32) :
    conv2H a w x = Cert.GraphBlock.conv2Arr a w x := by
  funext i
  obtain ⟨n, ch, rfl⟩ : ∃ n ch, i = ix2 n ch := ⟨i 0, i 1, eq_ix2 i⟩
  unfold conv2H Cert.GraphBlock.conv2Arr
  show x (ix2 n ch) + Host.dotGeneral dot_S131072x497_S497x64_S131072x64_1_0_0_1_n_n none a w (ix2 n ch) = _
  rw [dotH_apply]

end Cert.GraphBlock.Ref

end
-- ==== Proof.Chain.lean ====
/-
  The four pallas_calls chained.  Each call's output array is its block computation of its entry arrays (the region
  modules), the block computations are the reference's host forms once every batch id lies in 0..7 (the host-form
  modules), and the entry arrays are the shared stage functions of the previous boundary (the stretches): so the
  first call leaves the normalised and SiLU-ed input, the second the hidden features, the third their normalised and
  SiLU-ed form, and the fourth the whole block function of the arguments in the result buffer.
-/
import proofs.«428457_j2224793059401_1_alg».proof.Proof.Stretches
import proofs.«428457_j2224793059401_1_alg».proof.Proof.Region0
import proofs.«428457_j2224793059401_1_alg».proof.Proof.Region1
import proofs.«428457_j2224793059401_1_alg».proof.Proof.Region2
import proofs.«428457_j2224793059401_1_alg».proof.Proof.Region3
import proofs.«428457_j2224793059401_1_alg».proof.Proof.HostNorm
import proofs.«428457_j2224793059401_1_alg».proof.Proof.HostConv

set_option maxRecDepth 16384

noncomputable section

namespace Cert.GraphBlock

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The four pallas_calls chained -/

/-- after the first pallas_call: the normalised, scaled, shifted and SiLU-ed input. -/
theorem k2 (hr : ∀ n : Fin 131072, ((m ((c : Thread nD τ).loc main_arg14) : IVec S131072 32) (ix1 n)).toNat < 8) :
    W2 m ρ c (Proc.devRef .tc main_v44)
    = Ref.normSiluH (Ref.diffH (m ((c : Thread nD τ).loc main_arg0)) (m ((c : Thread nD τ).loc main_arg14))) (Ref.invH (m ((c : Thread nD τ).loc main_arg0)) (m ((c : Thread nD τ).loc main_arg14))) (m ((c : Thread nD τ).loc main_arg4)) (m ((c : Thread nD τ).loc main_arg5)) (m ((c : Thread nD τ).loc main_arg14)) := by
  have h1 : W2 m ρ c (Proc.devRef .tc main_v44) = (dat0 (V1 m ρ) c).arrAt 5 cfg0.N := W2_arr m ρ c 5
  rw [h1, region0_arr (V1 m ρ) c, e1_diff m ρ c, e1_inv m ρ c]
  exact (Ref.normSiluH_eq _ _ _ _ _ _ _ _ (e1_g m ρ c) (e1_b m ρ c) (e1_bid m ρ c) hr).symm

/-- after the second pallas_call: the hidden features. -/
theorem k7 (hr : ∀ n : Fin 131072, ((m ((c : Thread nD τ).loc main_arg14) : IVec S131072 32) (ix1 n)).toNat < 8) :
    W7 m ρ c (Proc.devRef .tc main_v66) = (Ref.hiddenH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  have h1 : W7 m ρ c (Proc.devRef .tc main_v66) = (dat1 (V6 m ρ) c).arrAt 4 cfg1.N := W7_arr m ρ c 4
  rw [h1, region1_arr (V6 m ρ) c, e3_agg m ρ c, e3_w m ρ c, e3_emb m ρ c, k2 m ρ c hr]
  exact (Ref.conv1H_eq _ _ _ _ _ (e3_bid m ρ c) hr).symm

/-- after the third pallas_call: the hidden features normalised, scaled, shifted and SiLU-ed. -/
theorem k9 (hr : ∀ n : Fin 131072, ((m ((c : Thread nD τ).loc main_arg14) : IVec S131072 32) (ix1 n)).toNat < 8) :
    W9 m ρ c (Proc.devRef .tc main_v110)
    = Ref.normSiluH (Ref.diffH (Ref.hiddenH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg14))) (Ref.invH (Ref.hiddenH (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg14))) (m ((c : Thread nD τ).loc main_arg6)) (m ((c : Thread nD τ).loc main_arg7)) (m ((c : Thread nD τ).loc main_arg14)) := by
  have h1 : W9 m ρ c (Proc.devRef .tc main_v110) = (dat2 (V8 m ρ) c).arrAt 5 cfg2.N := W9_arr m ρ c 5
  rw [h1, region2_arr (V8 m ρ) c, e5_diff m ρ c, e5_inv m ρ c, k7 m ρ c hr]
  exact (Ref.normSiluH_eq _ _ _ _ _ _ _ _ (e5_g m ρ c) (e5_b m ρ c) (e5_bid m ρ c) hr).symm

/-- after the fourth pallas_call: the result buffer holds the whole block function of the arguments. -/
theorem k12 (hr : ∀ n : Fin 131072, ((m ((c : Thread nD τ).loc main_arg14) : IVec S131072 32) (ix1 n)).toNat < 8) :
    W12 m ρ c (Proc.devRef .tc main_v127)
    = Ref.blockH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h1 : W12 m ρ c (Proc.devRef .tc main_v127) = (dat3 (V11 m ρ) c).arrAt 3 cfg3.N := W12_arr m ρ c 3
  rw [h1, region3_arr (V11 m ρ) c, e7_agg m ρ c, e7_w m ρ c, e7_x m ρ c, k9 m ρ c hr]
  exact (Ref.conv2H_eq _ _ _).symm

end Cert.GraphBlock

end
-- ==== Proof.RefArgs.lean ====
/-
  The reference's fold, cut in nine pieces at its stages, and its arguments: folding the whole list is folding the
  pieces in a row; no operation of the reference writes an argument, so at the boundary after any piece an argument
  holds its launch contents.
-/
import proofs.«428457_j2224793059401_1_alg».proof.Proof.RefRun
import Idealize.ShloMosaic.PureOps.Ideal

set_option maxRecDepth 16384

noncomputable section

namespace Cert.GraphBlock.Ref

open Idealize.ShloMosaic Idealize.ShloMosaic.TcCoe Idealize.SL.Sem Idealize.ShloMosaic.StableHlo
open Cert.ReferenceIdeal Cert.ReferenceIdeal.Gen Cert.ReferenceIdeal.Fold

variable (m : (ℓ : Loc nD τ sig) → Buf (Elt Ideal) ℓ) (d : Dev nD)

/-- folding two lists in a row is folding their concatenation. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- the buffers after each of the nine pieces. -/
def T0a : Valuation τ sig (Elt Ideal) := after (opsA1 (F := Ideal)) (launchContents m d)
def T1 : Valuation τ sig (Elt Ideal) := after (opsA2 (F := Ideal)) (T0a m d)
def T2a : Valuation τ sig (Elt Ideal) := after (opsB1 (F := Ideal)) (T1 m d)
def T2 : Valuation τ sig (Elt Ideal) := after (opsB2 (F := Ideal)) (T2a m d)
def T2b : Valuation τ sig (Elt Ideal) := after (opsC1 (F := Ideal)) (T2 m d)
def T3a : Valuation τ sig (Elt Ideal) := after (opsC2a (F := Ideal)) (T2b m d)
def T3 : Valuation τ sig (Elt Ideal) := after (opsC2b (F := Ideal)) (T3a m d)
def T4a : Valuation τ sig (Elt Ideal) := after (opsD1 (F := Ideal)) (T3 m d)
def T4 : Valuation τ sig (Elt Ideal) := after (opsD2 (F := Ideal)) (T4a m d)

theorem fold_eq : after (ops (F := Ideal)) (launchContents m d) = T4 m d := by
  rw [ops_split, after_append', after_append', after_append', after_append', after_append', after_append', after_append', after_append']; rfl

/-! ## No operation writes an argument -/

theorem mem_A1 (op : HloOp τ sig (Elt Ideal)) (h : op ∈ (opsA1 (F := Ideal))) : op ∈ (ops (F := Ideal)) := by
  rw [ops_split]; exact List.mem_append_left _ (List.mem_append_left _ (List.mem_append_left _ (List.mem_append_left _ (List.mem_append_left _ (List.mem_append_left _ (List.mem_append_left _ (List.mem_append_left _ h)))))))
theorem mem_A2 (op : HloOp τ sig (Elt Ideal)) (h : op ∈ (opsA2 (F := Ideal))) : op ∈ (ops (F := Ideal)) := by
  rw [ops_split]; exact List.mem_append_left _ (List.mem_append_left _ (List.mem_append_left _ (List.mem_append_left _ (List.mem_append_left _ (List.mem_append_left _ (List.mem_append_left _ (List.mem_append_right _ h)))))))
theorem mem_B1 (op : HloOp τ sig (Elt Ideal)) (h : op ∈ (opsB1 (F := Ideal))) : op ∈ (ops (F := Ideal)) := by
  rw [ops_split]; exact List.mem_append_left _ (List.mem_append_left _ (List.mem_append_left _ (List.mem_append_left _ (List.mem_append_left _ (List.mem_append_left _ (List.mem_append_right _ h))))))
theorem mem_B2 (op : HloOp τ sig (Elt Ideal)) (h : op ∈ (opsB2 (F := Ideal))) : op ∈ (ops (F := Ideal)) := by
  rw [ops_split]; exact List.mem_append_left _ (List.mem_append_left _ (List.mem_append_left _ (List.mem_append_left _ (List.mem_append_left _ (List.mem_append_right _ h)))))
theorem mem_C1 (op : HloOp τ sig (Elt Ideal)) (h : op ∈ (opsC1 (F := Ideal))) : op ∈ (ops (F := Ideal)) := by
  rw [ops_split]; exact List.mem_append_left _ (List.mem_append_left _ (List.mem_append_left _ (List.mem_append_left _ (List.mem_append_right _ h))))
theorem mem_C2a (op : HloOp τ sig (Elt Ideal)) (h : op ∈ (opsC2a (F := Ideal))) : op ∈ (ops (F := Ideal)) := by
  rw [ops_split]; exact List.mem_append_left _ (List.mem_append_left _ (List.mem_append_left _ (List.mem_append_right _ h)))
theorem mem_C2b (op : HloOp τ sig (Elt Ideal)) (h : op ∈ (opsC2b (F := Ideal))) : op ∈ (ops (F := Ideal)) := by
  rw [ops_split]; exact List.mem_append_left _ (List.mem_append_left _ (List.mem_append_right _ h))
theorem mem_D1 (op : HloOp τ sig (Elt Ideal)) (h : op ∈ (opsD1 (F := Ideal))) : op ∈ (ops (F := Ideal)) := by
  rw [ops_split]; exact List.mem_append_left _ (List.mem_append_right _ h)
theorem mem_D2 (op : HloOp τ sig (Elt Ideal)) (h : op ∈ (opsD2 (F := Ideal))) : op ∈ (ops (F := Ideal)) := by
  rw [ops_split]; exact List.mem_append_right _ h

theorem nw_arg0 : ∀ op ∈ (ops (F := Ideal)), (Proc.devRef .tc main_arg0 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg1 : ∀ op ∈ (ops (F := Ideal)), (Proc.devRef .tc main_arg1 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg2 : ∀ op ∈ (ops (F := Ideal)), (Proc.devRef .tc main_arg2 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg3 : ∀ op ∈ (ops (F := Ideal)), (Proc.devRef .tc main_arg3 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg4 : ∀ op ∈ (ops (F := Ideal)), (Proc.devRef .tc main_arg4 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg5 : ∀ op ∈ (ops (F := Ideal)), (Proc.devRef .tc main_arg5 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg6 : ∀ op ∈ (ops (F := Ideal)), (Proc.devRef .tc main_arg6 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg7 : ∀ op ∈ (ops (F := Ideal)), (Proc.devRef .tc main_arg7 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg8 : ∀ op ∈ (ops (F := Ideal)), (Proc.devRef .tc main_arg8 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg9 : ∀ op ∈ (ops (F := Ideal)), (Proc.devRef .tc main_arg9 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg10 : ∀ op ∈ (ops (F := Ideal)), (Proc.devRef .tc main_arg10 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg11 : ∀ op ∈ (ops (F := Ideal)), (Proc.devRef .tc main_arg11 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg12 : ∀ op ∈ (ops (F := Ideal)), (Proc.devRef .tc main_arg12 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg13 : ∀ op ∈ (ops (F := Ideal)), (Proc.devRef .tc main_arg13 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))
theorem nw_arg14 : ∀ op ∈ (ops (F := Ideal)), (Proc.devRef .tc main_arg14 : DevRef τ sig) ∉ op.writes :=
  List.forall_iff_forall_mem.mp (by
    simp only [ops, List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide))

theorem kept_arg0 : after (ops (F := Ideal)) (launchContents m d) (Proc.devRef .tc main_arg0) = (m ((d.tc : Thread nD τ).loc main_arg0)) :=
  after_of_forall_not_mem _ _ nw_arg0
theorem kept_arg1 : after (ops (F := Ideal)) (launchContents m d) (Proc.devRef .tc main_arg1) = (m ((d.tc : Thread nD τ).loc main_arg1)) :=
  after_of_forall_not_mem _ _ nw_arg1
theorem kept_arg2 : after (ops (F := Ideal)) (launchContents m d) (Proc.devRef .tc main_arg2) = (m ((d.tc : Thread nD τ).loc main_arg2)) :=
  after_of_forall_not_mem _ _ nw_arg2
theorem kept_arg3 : after (ops (F := Ideal)) (launchContents m d) (Proc.devRef .tc main_arg3) = (m ((d.tc : Thread nD τ).loc main_arg3)) :=
  after_of_forall_not_mem _ _ nw_arg3
theorem kept_arg4 : after (ops (F := Ideal)) (launchContents m d) (Proc.devRef .tc main_arg4) = (m ((d.tc : Thread nD τ).loc main_arg4)) :=
  after_of_forall_not_mem _ _ nw_arg4
theorem kept_arg5 : after (ops (F := Ideal)) (launchContents m d) (Proc.devRef .tc main_arg5) = (m ((d.tc : Thread nD τ).loc main_arg5)) :=
  after_of_forall_not_mem _ _ nw_arg5
theorem kept_arg6 : after (ops (F := Ideal)) (launchContents m d) (Proc.devRef .tc main_arg6) = (m ((d.tc : Thread nD τ).loc main_arg6)) :=
  after_of_forall_not_mem _ _ nw_arg6
theorem kept_arg7 : after (ops (F := Ideal)) (launchContents m d) (Proc.devRef .tc main_arg7) = (m ((d.tc : Thread nD τ).loc main_arg7)) :=
  after_of_forall_not_mem _ _ nw_arg7
theorem kept_arg8 : after (ops (F := Ideal)) (launchContents m d) (Proc.devRef .tc main_arg8) = (m ((d.tc : Thread nD τ).loc main_arg8)) :=
  after_of_forall_not_mem _ _ nw_arg8
theorem kept_arg9 : after (ops (F := Ideal)) (launchContents m d) (Proc.devRef .tc main_arg9) = (m ((d.tc : Thread nD τ).loc main_arg9)) :=
  after_of_forall_not_mem _ _ nw_arg9
theorem kept_arg10 : after (ops (F := Ideal)) (launchContents m d) (Proc.devRef .tc main_arg10) = (m ((d.tc : Thread nD τ).loc main_arg10)) :=
  after_of_forall_not_mem _ _ nw_arg10
theorem kept_arg11 : after (ops (F := Ideal)) (launchContents m d) (Proc.devRef .tc main_arg11) = (m ((d.tc : Thread nD τ).loc main_arg11)) :=
  after_of_forall_not_mem _ _ nw_arg11
theorem kept_arg12 : after (ops (F := Ideal)) (launchContents m d) (Proc.devRef .tc main_arg12) = (m ((d.tc : Thread nD τ).loc main_arg12)) :=
  after_of_forall_not_mem _ _ nw_arg12
theorem kept_arg13 : after (ops (F := Ideal)) (launchContents m d) (Proc.devRef .tc main_arg13) = (m ((d.tc : Thread nD τ).loc main_arg13)) :=
  after_of_forall_not_mem _ _ nw_arg13
theorem kept_arg14 : after (ops (F := Ideal)) (launchContents m d) (Proc.devRef .tc main_arg14) = (m ((d.tc : Thread nD τ).loc main_arg14)) :=
  after_of_forall_not_mem _ _ nw_arg14

theorem T0a_arg0 : T0a m d (Proc.devRef .tc main_arg0) = (m ((d.tc : Thread nD τ).loc main_arg0)) :=
  (after_of_forall_not_mem (opsA1 (F := Ideal)) _ fun op h => nw_arg0 op (mem_A1 op h)).trans rfl
theorem T0a_arg1 : T0a m d (Proc.devRef .tc main_arg1) = (m ((d.tc : Thread nD τ).loc main_arg1)) :=
  (after_of_forall_not_mem (opsA1 (F := Ideal)) _ fun op h => nw_arg1 op (mem_A1 op h)).trans rfl
theorem T0a_arg2 : T0a m d (Proc.devRef .tc main_arg2) = (m ((d.tc : Thread nD τ).loc main_arg2)) :=
  (after_of_forall_not_mem (opsA1 (F := Ideal)) _ fun op h => nw_arg2 op (mem_A1 op h)).trans rfl
theorem T0a_arg3 : T0a m d (Proc.devRef .tc main_arg3) = (m ((d.tc : Thread nD τ).loc main_arg3)) :=
  (after_of_forall_not_mem (opsA1 (F := Ideal)) _ fun op h => nw_arg3 op (mem_A1 op h)).trans rfl
theorem T0a_arg4 : T0a m d (Proc.devRef .tc main_arg4) = (m ((d.tc : Thread nD τ).loc main_arg4)) :=
  (after_of_forall_not_mem (opsA1 (F := Ideal)) _ fun op h => nw_arg4 op (mem_A1 op h)).trans rfl
theorem T0a_arg5 : T0a m d (Proc.devRef .tc main_arg5) = (m ((d.tc : Thread nD τ).loc main_arg5)) :=
  (after_of_forall_not_mem (opsA1 (F := Ideal)) _ fun op h => nw_arg5 op (mem_A1 op h)).trans rfl
theorem T0a_arg6 : T0a m d (Proc.devRef .tc main_arg6) = (m ((d.tc : Thread nD τ).loc main_arg6)) :=
  (after_of_forall_not_mem (opsA1 (F := Ideal)) _ fun op h => nw_arg6 op (mem_A1 op h)).trans rfl
theorem T0a_arg7 : T0a m d (Proc.devRef .tc main_arg7) = (m ((d.tc : Thread nD τ).loc main_arg7)) :=
  (after_of_forall_not_mem (opsA1 (F := Ideal)) _ fun op h => nw_arg7 op (mem_A1 op h)).trans rfl
theorem T0a_arg8 : T0a m d (Proc.devRef .tc main_arg8) = (m ((d.tc : Thread nD τ).loc main_arg8)) :=
  (after_of_forall_not_mem (opsA1 (F := Ideal)) _ fun op h => nw_arg8 op (mem_A1 op h)).trans rfl
theorem T0a_arg9 : T0a m d (Proc.devRef .tc main_arg9) = (m ((d.tc : Thread nD τ).loc main_arg9)) :=
  (after_of_forall_not_mem (opsA1 (F := Ideal)) _ fun op h => nw_arg9 op (mem_A1 op h)).trans rfl
theorem T0a_arg10 : T0a m d (Proc.devRef .tc main_arg10) = (m ((d.tc : Thread nD τ).loc main_arg10)) :=
  (after_of_forall_not_mem (opsA1 (F := Ideal)) _ fun op h => nw_arg10 op (mem_A1 op h)).trans rfl
theorem T0a_arg11 : T0a m d (Proc.devRef .tc main_arg11) = (m ((d.tc : Thread nD τ).loc main_arg11)) :=
  (after_of_forall_not_mem (opsA1 (F := Ideal)) _ fun op h => nw_arg11 op (mem_A1 op h)).trans rfl
theorem T0a_arg12 : T0a m d (Proc.devRef .tc main_arg12) = (m ((d.tc : Thread nD τ).loc main_arg12)) :=
  (after_of_forall_not_mem (opsA1 (F := Ideal)) _ fun op h => nw_arg12 op (mem_A1 op h)).trans rfl
theorem T0a_arg13 : T0a m d (Proc.devRef .tc main_arg13) = (m ((d.tc : Thread nD τ).loc main_arg13)) :=
  (after_of_forall_not_mem (opsA1 (F := Ideal)) _ fun op h => nw_arg13 op (mem_A1 op h)).trans rfl
theorem T0a_arg14 : T0a m d (Proc.devRef .tc main_arg14) = (m ((d.tc : Thread nD τ).loc main_arg14)) :=
  (after_of_forall_not_mem (opsA1 (F := Ideal)) _ fun op h => nw_arg14 op (mem_A1 op h)).trans rfl
theorem T1_arg0 : T1 m d (Proc.devRef .tc main_arg0) = (m ((d.tc : Thread nD τ).loc main_arg0)) :=
  (after_of_forall_not_mem (opsA2 (F := Ideal)) _ fun op h => nw_arg0 op (mem_A2 op h)).trans (T0a_arg0 m d)
theorem T1_arg1 : T1 m d (Proc.devRef .tc main_arg1) = (m ((d.tc : Thread nD τ).loc main_arg1)) :=
  (after_of_forall_not_mem (opsA2 (F := Ideal)) _ fun op h => nw_arg1 op (mem_A2 op h)).trans (T0a_arg1 m d)
theorem T1_arg2 : T1 m d (Proc.devRef .tc main_arg2) = (m ((d.tc : Thread nD τ).loc main_arg2)) :=
  (after_of_forall_not_mem (opsA2 (F := Ideal)) _ fun op h => nw_arg2 op (mem_A2 op h)).trans (T0a_arg2 m d)
theorem T1_arg3 : T1 m d (Proc.devRef .tc main_arg3) = (m ((d.tc : Thread nD τ).loc main_arg3)) :=
  (after_of_forall_not_mem (opsA2 (F := Ideal)) _ fun op h => nw_arg3 op (mem_A2 op h)).trans (T0a_arg3 m d)
theorem T1_arg4 : T1 m d (Proc.devRef .tc main_arg4) = (m ((d.tc : Thread nD τ).loc main_arg4)) :=
  (after_of_forall_not_mem (opsA2 (F := Ideal)) _ fun op h => nw_arg4 op (mem_A2 op h)).trans (T0a_arg4 m d)
theorem T1_arg5 : T1 m d (Proc.devRef .tc main_arg5) = (m ((d.tc : Thread nD τ).loc main_arg5)) :=
  (after_of_forall_not_mem (opsA2 (F := Ideal)) _ fun op h => nw_arg5 op (mem_A2 op h)).trans (T0a_arg5 m d)
theorem T1_arg6 : T1 m d (Proc.devRef .tc main_arg6) = (m ((d.tc : Thread nD τ).loc main_arg6)) :=
  (after_of_forall_not_mem (opsA2 (F := Ideal)) _ fun op h => nw_arg6 op (mem_A2 op h)).trans (T0a_arg6 m d)
theorem T1_arg7 : T1 m d (Proc.devRef .tc main_arg7) = (m ((d.tc : Thread nD τ).loc main_arg7)) :=
  (after_of_forall_not_mem (opsA2 (F := Ideal)) _ fun op h => nw_arg7 op (mem_A2 op h)).trans (T0a_arg7 m d)
theorem T1_arg8 : T1 m d (Proc.devRef .tc main_arg8) = (m ((d.tc : Thread nD τ).loc main_arg8)) :=
  (after_of_forall_not_mem (opsA2 (F := Ideal)) _ fun op h => nw_arg8 op (mem_A2 op h)).trans (T0a_arg8 m d)
theorem T1_arg9 : T1 m d (Proc.devRef .tc main_arg9) = (m ((d.tc : Thread nD τ).loc main_arg9)) :=
  (after_of_forall_not_mem (opsA2 (F := Ideal)) _ fun op h => nw_arg9 op (mem_A2 op h)).trans (T0a_arg9 m d)
theorem T1_arg10 : T1 m d (Proc.devRef .tc main_arg10) = (m ((d.tc : Thread nD τ).loc main_arg10)) :=
  (after_of_forall_not_mem (opsA2 (F := Ideal)) _ fun op h => nw_arg10 op (mem_A2 op h)).trans (T0a_arg10 m d)
theorem T1_arg11 : T1 m d (Proc.devRef .tc main_arg11) = (m ((d.tc : Thread nD τ).loc main_arg11)) :=
  (after_of_forall_not_mem (opsA2 (F := Ideal)) _ fun op h => nw_arg11 op (mem_A2 op h)).trans (T0a_arg11 m d)
theorem T1_arg12 : T1 m d (Proc.devRef .tc main_arg12) = (m ((d.tc : Thread nD τ).loc main_arg12)) :=
  (after_of_forall_not_mem (opsA2 (F := Ideal)) _ fun op h => nw_arg12 op (mem_A2 op h)).trans (T0a_arg12 m d)
theorem T1_arg13 : T1 m d (Proc.devRef .tc main_arg13) = (m ((d.tc : Thread nD τ).loc main_arg13)) :=
  (after_of_forall_not_mem (opsA2 (F := Ideal)) _ fun op h => nw_arg13 op (mem_A2 op h)).trans (T0a_arg13 m d)
theorem T1_arg14 : T1 m d (Proc.devRef .tc main_arg14) = (m ((d.tc : Thread nD τ).loc main_arg14)) :=
  (after_of_forall_not_mem (opsA2 (F := Ideal)) _ fun op h => nw_arg14 op (mem_A2 op h)).trans (T0a_arg14 m d)
theorem T2a_arg0 : T2a m d (Proc.devRef .tc main_arg0) = (m ((d.tc : Thread nD τ).loc main_arg0)) :=
  (after_of_forall_not_mem (opsB1 (F := Ideal)) _ fun op h => nw_arg0 op (mem_B1 op h)).trans (T1_arg0 m d)
theorem T2a_arg1 : T2a m d (Proc.devRef .tc main_arg1) = (m ((d.tc : Thread nD τ).loc main_arg1)) :=
  (after_of_forall_not_mem (opsB1 (F := Ideal)) _ fun op h => nw_arg1 op (mem_B1 op h)).trans (T1_arg1 m d)
theorem T2a_arg2 : T2a m d (Proc.devRef .tc main_arg2) = (m ((d.tc : Thread nD τ).loc main_arg2)) :=
  (after_of_forall_not_mem (opsB1 (F := Ideal)) _ fun op h => nw_arg2 op (mem_B1 op h)).trans (T1_arg2 m d)
theorem T2a_arg3 : T2a m d (Proc.devRef .tc main_arg3) = (m ((d.tc : Thread nD τ).loc main_arg3)) :=
  (after_of_forall_not_mem (opsB1 (F := Ideal)) _ fun op h => nw_arg3 op (mem_B1 op h)).trans (T1_arg3 m d)
theorem T2a_arg4 : T2a m d (Proc.devRef .tc main_arg4) = (m ((d.tc : Thread nD τ).loc main_arg4)) :=
  (after_of_forall_not_mem (opsB1 (F := Ideal)) _ fun op h => nw_arg4 op (mem_B1 op h)).trans (T1_arg4 m d)
theorem T2a_arg5 : T2a m d (Proc.devRef .tc main_arg5) = (m ((d.tc : Thread nD τ).loc main_arg5)) :=
  (after_of_forall_not_mem (opsB1 (F := Ideal)) _ fun op h => nw_arg5 op (mem_B1 op h)).trans (T1_arg5 m d)
theorem T2a_arg6 : T2a m d (Proc.devRef .tc main_arg6) = (m ((d.tc : Thread nD τ).loc main_arg6)) :=
  (after_of_forall_not_mem (opsB1 (F := Ideal)) _ fun op h => nw_arg6 op (mem_B1 op h)).trans (T1_arg6 m d)
theorem T2a_arg7 : T2a m d (Proc.devRef .tc main_arg7) = (m ((d.tc : Thread nD τ).loc main_arg7)) :=
  (after_of_forall_not_mem (opsB1 (F := Ideal)) _ fun op h => nw_arg7 op (mem_B1 op h)).trans (T1_arg7 m d)
theorem T2a_arg8 : T2a m d (Proc.devRef .tc main_arg8) = (m ((d.tc : Thread nD τ).loc main_arg8)) :=
  (after_of_forall_not_mem (opsB1 (F := Ideal)) _ fun op h => nw_arg8 op (mem_B1 op h)).trans (T1_arg8 m d)
theorem T2a_arg9 : T2a m d (Proc.devRef .tc main_arg9) = (m ((d.tc : Thread nD τ).loc main_arg9)) :=
  (after_of_forall_not_mem (opsB1 (F := Ideal)) _ fun op h => nw_arg9 op (mem_B1 op h)).trans (T1_arg9 m d)
theorem T2a_arg10 : T2a m d (Proc.devRef .tc main_arg10) = (m ((d.tc : Thread nD τ).loc main_arg10)) :=
  (after_of_forall_not_mem (opsB1 (F := Ideal)) _ fun op h => nw_arg10 op (mem_B1 op h)).trans (T1_arg10 m d)
theorem T2a_arg11 : T2a m d (Proc.devRef .tc main_arg11) = (m ((d.tc : Thread nD τ).loc main_arg11)) :=
  (after_of_forall_not_mem (opsB1 (F := Ideal)) _ fun op h => nw_arg11 op (mem_B1 op h)).trans (T1_arg11 m d)
theorem T2a_arg12 : T2a m d (Proc.devRef .tc main_arg12) = (m ((d.tc : Thread nD τ).loc main_arg12)) :=
  (after_of_forall_not_mem (opsB1 (F := Ideal)) _ fun op h => nw_arg12 op (mem_B1 op h)).trans (T1_arg12 m d)
theorem T2a_arg13 : T2a m d (Proc.devRef .tc main_arg13) = (m ((d.tc : Thread nD τ).loc main_arg13)) :=
  (after_of_forall_not_mem (opsB1 (F := Ideal)) _ fun op h => nw_arg13 op (mem_B1 op h)).trans (T1_arg13 m d)
theorem T2a_arg14 : T2a m d (Proc.devRef .tc main_arg14) = (m ((d.tc : Thread nD τ).loc main_arg14)) :=
  (after_of_forall_not_mem (opsB1 (F := Ideal)) _ fun op h => nw_arg14 op (mem_B1 op h)).trans (T1_arg14 m d)
theorem T2_arg0 : T2 m d (Proc.devRef .tc main_arg0) = (m ((d.tc : Thread nD τ).loc main_arg0)) :=
  (after_of_forall_not_mem (opsB2 (F := Ideal)) _ fun op h => nw_arg0 op (mem_B2 op h)).trans (T2a_arg0 m d)
theorem T2_arg1 : T2 m d (Proc.devRef .tc main_arg1) = (m ((d.tc : Thread nD τ).loc main_arg1)) :=
  (after_of_forall_not_mem (opsB2 (F := Ideal)) _ fun op h => nw_arg1 op (mem_B2 op h)).trans (T2a_arg1 m d)
theorem T2_arg2 : T2 m d (Proc.devRef .tc main_arg2) = (m ((d.tc : Thread nD τ).loc main_arg2)) :=
  (after_of_forall_not_mem (opsB2 (F := Ideal)) _ fun op h => nw_arg2 op (mem_B2 op h)).trans (T2a_arg2 m d)
theorem T2_arg3 : T2 m d (Proc.devRef .tc main_arg3) = (m ((d.tc : Thread nD τ).loc main_arg3)) :=
  (after_of_forall_not_mem (opsB2 (F := Ideal)) _ fun op h => nw_arg3 op (mem_B2 op h)).trans (T2a_arg3 m d)
theorem T2_arg4 : T2 m d (Proc.devRef .tc main_arg4) = (m ((d.tc : Thread nD τ).loc main_arg4)) :=
  (after_of_forall_not_mem (opsB2 (F := Ideal)) _ fun op h => nw_arg4 op (mem_B2 op h)).trans (T2a_arg4 m d)
theorem T2_arg5 : T2 m d (Proc.devRef .tc main_arg5) = (m ((d.tc : Thread nD τ).loc main_arg5)) :=
  (after_of_forall_not_mem (opsB2 (F := Ideal)) _ fun op h => nw_arg5 op (mem_B2 op h)).trans (T2a_arg5 m d)
theorem T2_arg6 : T2 m d (Proc.devRef .tc main_arg6) = (m ((d.tc : Thread nD τ).loc main_arg6)) :=
  (after_of_forall_not_mem (opsB2 (F := Ideal)) _ fun op h => nw_arg6 op (mem_B2 op h)).trans (T2a_arg6 m d)
theorem T2_arg7 : T2 m d (Proc.devRef .tc main_arg7) = (m ((d.tc : Thread nD τ).loc main_arg7)) :=
  (after_of_forall_not_mem (opsB2 (F := Ideal)) _ fun op h => nw_arg7 op (mem_B2 op h)).trans (T2a_arg7 m d)
theorem T2_arg8 : T2 m d (Proc.devRef .tc main_arg8) = (m ((d.tc : Thread nD τ).loc main_arg8)) :=
  (after_of_forall_not_mem (opsB2 (F := Ideal)) _ fun op h => nw_arg8 op (mem_B2 op h)).trans (T2a_arg8 m d)
theorem T2_arg9 : T2 m d (Proc.devRef .tc main_arg9) = (m ((d.tc : Thread nD τ).loc main_arg9)) :=
  (after_of_forall_not_mem (opsB2 (F := Ideal)) _ fun op h => nw_arg9 op (mem_B2 op h)).trans (T2a_arg9 m d)
theorem T2_arg10 : T2 m d (Proc.devRef .tc main_arg10) = (m ((d.tc : Thread nD τ).loc main_arg10)) :=
  (after_of_forall_not_mem (opsB2 (F := Ideal)) _ fun op h => nw_arg10 op (mem_B2 op h)).trans (T2a_arg10 m d)
theorem T2_arg11 : T2 m d (Proc.devRef .tc main_arg11) = (m ((d.tc : Thread nD τ).loc main_arg11)) :=
  (after_of_forall_not_mem (opsB2 (F := Ideal)) _ fun op h => nw_arg11 op (mem_B2 op h)).trans (T2a_arg11 m d)
theorem T2_arg12 : T2 m d (Proc.devRef .tc main_arg12) = (m ((d.tc : Thread nD τ).loc main_arg12)) :=
  (after_of_forall_not_mem (opsB2 (F := Ideal)) _ fun op h => nw_arg12 op (mem_B2 op h)).trans (T2a_arg12 m d)
theorem T2_arg13 : T2 m d (Proc.devRef .tc main_arg13) = (m ((d.tc : Thread nD τ).loc main_arg13)) :=
  (after_of_forall_not_mem (opsB2 (F := Ideal)) _ fun op h => nw_arg13 op (mem_B2 op h)).trans (T2a_arg13 m d)
theorem T2_arg14 : T2 m d (Proc.devRef .tc main_arg14) = (m ((d.tc : Thread nD τ).loc main_arg14)) :=
  (after_of_forall_not_mem (opsB2 (F := Ideal)) _ fun op h => nw_arg14 op (mem_B2 op h)).trans (T2a_arg14 m d)
theorem T2b_arg0 : T2b m d (Proc.devRef .tc main_arg0) = (m ((d.tc : Thread nD τ).loc main_arg0)) :=
  (after_of_forall_not_mem (opsC1 (F := Ideal)) _ fun op h => nw_arg0 op (mem_C1 op h)).trans (T2_arg0 m d)
theorem T2b_arg1 : T2b m d (Proc.devRef .tc main_arg1) = (m ((d.tc : Thread nD τ).loc main_arg1)) :=
  (after_of_forall_not_mem (opsC1 (F := Ideal)) _ fun op h => nw_arg1 op (mem_C1 op h)).trans (T2_arg1 m d)
theorem T2b_arg2 : T2b m d (Proc.devRef .tc main_arg2) = (m ((d.tc : Thread nD τ).loc main_arg2)) :=
  (after_of_forall_not_mem (opsC1 (F := Ideal)) _ fun op h => nw_arg2 op (mem_C1 op h)).trans (T2_arg2 m d)
theorem T2b_arg3 : T2b m d (Proc.devRef .tc main_arg3) = (m ((d.tc : Thread nD τ).loc main_arg3)) :=
  (after_of_forall_not_mem (opsC1 (F := Ideal)) _ fun op h => nw_arg3 op (mem_C1 op h)).trans (T2_arg3 m d)
theorem T2b_arg4 : T2b m d (Proc.devRef .tc main_arg4) = (m ((d.tc : Thread nD τ).loc main_arg4)) :=
  (after_of_forall_not_mem (opsC1 (F := Ideal)) _ fun op h => nw_arg4 op (mem_C1 op h)).trans (T2_arg4 m d)
theorem T2b_arg5 : T2b m d (Proc.devRef .tc main_arg5) = (m ((d.tc : Thread nD τ).loc main_arg5)) :=
  (after_of_forall_not_mem (opsC1 (F := Ideal)) _ fun op h => nw_arg5 op (mem_C1 op h)).trans (T2_arg5 m d)
theorem T2b_arg6 : T2b m d (Proc.devRef .tc main_arg6) = (m ((d.tc : Thread nD τ).loc main_arg6)) :=
  (after_of_forall_not_mem (opsC1 (F := Ideal)) _ fun op h => nw_arg6 op (mem_C1 op h)).trans (T2_arg6 m d)
theorem T2b_arg7 : T2b m d (Proc.devRef .tc main_arg7) = (m ((d.tc : Thread nD τ).loc main_arg7)) :=
  (after_of_forall_not_mem (opsC1 (F := Ideal)) _ fun op h => nw_arg7 op (mem_C1 op h)).trans (T2_arg7 m d)
theorem T2b_arg8 : T2b m d (Proc.devRef .tc main_arg8) = (m ((d.tc : Thread nD τ).loc main_arg8)) :=
  (after_of_forall_not_mem (opsC1 (F := Ideal)) _ fun op h => nw_arg8 op (mem_C1 op h)).trans (T2_arg8 m d)
theorem T2b_arg9 : T2b m d (Proc.devRef .tc main_arg9) = (m ((d.tc : Thread nD τ).loc main_arg9)) :=
  (after_of_forall_not_mem (opsC1 (F := Ideal)) _ fun op h => nw_arg9 op (mem_C1 op h)).trans (T2_arg9 m d)
theorem T2b_arg10 : T2b m d (Proc.devRef .tc main_arg10) = (m ((d.tc : Thread nD τ).loc main_arg10)) :=
  (after_of_forall_not_mem (opsC1 (F := Ideal)) _ fun op h => nw_arg10 op (mem_C1 op h)).trans (T2_arg10 m d)
theorem T2b_arg11 : T2b m d (Proc.devRef .tc main_arg11) = (m ((d.tc : Thread nD τ).loc main_arg11)) :=
  (after_of_forall_not_mem (opsC1 (F := Ideal)) _ fun op h => nw_arg11 op (mem_C1 op h)).trans (T2_arg11 m d)
theorem T2b_arg12 : T2b m d (Proc.devRef .tc main_arg12) = (m ((d.tc : Thread nD τ).loc main_arg12)) :=
  (after_of_forall_not_mem (opsC1 (F := Ideal)) _ fun op h => nw_arg12 op (mem_C1 op h)).trans (T2_arg12 m d)
theorem T2b_arg13 : T2b m d (Proc.devRef .tc main_arg13) = (m ((d.tc : Thread nD τ).loc main_arg13)) :=
  (after_of_forall_not_mem (opsC1 (F := Ideal)) _ fun op h => nw_arg13 op (mem_C1 op h)).trans (T2_arg13 m d)
theorem T2b_arg14 : T2b m d (Proc.devRef .tc main_arg14) = (m ((d.tc : Thread nD τ).loc main_arg14)) :=
  (after_of_forall_not_mem (opsC1 (F := Ideal)) _ fun op h => nw_arg14 op (mem_C1 op h)).trans (T2_arg14 m d)
theorem T3a_arg0 : T3a m d (Proc.devRef .tc main_arg0) = (m ((d.tc : Thread nD τ).loc main_arg0)) :=
  (after_of_forall_not_mem (opsC2a (F := Ideal)) _ fun op h => nw_arg0 op (mem_C2a op h)).trans (T2b_arg0 m d)
theorem T3a_arg1 : T3a m d (Proc.devRef .tc main_arg1) = (m ((d.tc : Thread nD τ).loc main_arg1)) :=
  (after_of_forall_not_mem (opsC2a (F := Ideal)) _ fun op h => nw_arg1 op (mem_C2a op h)).trans (T2b_arg1 m d)
theorem T3a_arg2 : T3a m d (Proc.devRef .tc main_arg2) = (m ((d.tc : Thread nD τ).loc main_arg2)) :=
  (after_of_forall_not_mem (opsC2a (F := Ideal)) _ fun op h => nw_arg2 op (mem_C2a op h)).trans (T2b_arg2 m d)
theorem T3a_arg3 : T3a m d (Proc.devRef .tc main_arg3) = (m ((d.tc : Thread nD τ).loc main_arg3)) :=
  (after_of_forall_not_mem (opsC2a (F := Ideal)) _ fun op h => nw_arg3 op (mem_C2a op h)).trans (T2b_arg3 m d)
theorem T3a_arg4 : T3a m d (Proc.devRef .tc main_arg4) = (m ((d.tc : Thread nD τ).loc main_arg4)) :=
  (after_of_forall_not_mem (opsC2a (F := Ideal)) _ fun op h => nw_arg4 op (mem_C2a op h)).trans (T2b_arg4 m d)
theorem T3a_arg5 : T3a m d (Proc.devRef .tc main_arg5) = (m ((d.tc : Thread nD τ).loc main_arg5)) :=
  (after_of_forall_not_mem (opsC2a (F := Ideal)) _ fun op h => nw_arg5 op (mem_C2a op h)).trans (T2b_arg5 m d)
theorem T3a_arg6 : T3a m d (Proc.devRef .tc main_arg6) = (m ((d.tc : Thread nD τ).loc main_arg6)) :=
  (after_of_forall_not_mem (opsC2a (F := Ideal)) _ fun op h => nw_arg6 op (mem_C2a op h)).trans (T2b_arg6 m d)
theorem T3a_arg7 : T3a m d (Proc.devRef .tc main_arg7) = (m ((d.tc : Thread nD τ).loc main_arg7)) :=
  (after_of_forall_not_mem (opsC2a (F := Ideal)) _ fun op h => nw_arg7 op (mem_C2a op h)).trans (T2b_arg7 m d)
theorem T3a_arg8 : T3a m d (Proc.devRef .tc main_arg8) = (m ((d.tc : Thread nD τ).loc main_arg8)) :=
  (after_of_forall_not_mem (opsC2a (F := Ideal)) _ fun op h => nw_arg8 op (mem_C2a op h)).trans (T2b_arg8 m d)
theorem T3a_arg9 : T3a m d (Proc.devRef .tc main_arg9) = (m ((d.tc : Thread nD τ).loc main_arg9)) :=
  (after_of_forall_not_mem (opsC2a (F := Ideal)) _ fun op h => nw_arg9 op (mem_C2a op h)).trans (T2b_arg9 m d)
theorem T3a_arg10 : T3a m d (Proc.devRef .tc main_arg10) = (m ((d.tc : Thread nD τ).loc main_arg10)) :=
  (after_of_forall_not_mem (opsC2a (F := Ideal)) _ fun op h => nw_arg10 op (mem_C2a op h)).trans (T2b_arg10 m d)
theorem T3a_arg11 : T3a m d (Proc.devRef .tc main_arg11) = (m ((d.tc : Thread nD τ).loc main_arg11)) :=
  (after_of_forall_not_mem (opsC2a (F := Ideal)) _ fun op h => nw_arg11 op (mem_C2a op h)).trans (T2b_arg11 m d)
theorem T3a_arg12 : T3a m d (Proc.devRef .tc main_arg12) = (m ((d.tc : Thread nD τ).loc main_arg12)) :=
  (after_of_forall_not_mem (opsC2a (F := Ideal)) _ fun op h => nw_arg12 op (mem_C2a op h)).trans (T2b_arg12 m d)
theorem T3a_arg13 : T3a m d (Proc.devRef .tc main_arg13) = (m ((d.tc : Thread nD τ).loc main_arg13)) :=
  (after_of_forall_not_mem (opsC2a (F := Ideal)) _ fun op h => nw_arg13 op (mem_C2a op h)).trans (T2b_arg13 m d)
theorem T3a_arg14 : T3a m d (Proc.devRef .tc main_arg14) = (m ((d.tc : Thread nD τ).loc main_arg14)) :=
  (after_of_forall_not_mem (opsC2a (F := Ideal)) _ fun op h => nw_arg14 op (mem_C2a op h)).trans (T2b_arg14 m d)
theorem T3_arg0 : T3 m d (Proc.devRef .tc main_arg0) = (m ((d.tc : Thread nD τ).loc main_arg0)) :=
  (after_of_forall_not_mem (opsC2b (F := Ideal)) _ fun op h => nw_arg0 op (mem_C2b op h)).trans (T3a_arg0 m d)
theorem T3_arg1 : T3 m d (Proc.devRef .tc main_arg1) = (m ((d.tc : Thread nD τ).loc main_arg1)) :=
  (after_of_forall_not_mem (opsC2b (F := Ideal)) _ fun op h => nw_arg1 op (mem_C2b op h)).trans (T3a_arg1 m d)
theorem T3_arg2 : T3 m d (Proc.devRef .tc main_arg2) = (m ((d.tc : Thread nD τ).loc main_arg2)) :=
  (after_of_forall_not_mem (opsC2b (F := Ideal)) _ fun op h => nw_arg2 op (mem_C2b op h)).trans (T3a_arg2 m d)
theorem T3_arg3 : T3 m d (Proc.devRef .tc main_arg3) = (m ((d.tc : Thread nD τ).loc main_arg3)) :=
  (after_of_forall_not_mem (opsC2b (F := Ideal)) _ fun op h => nw_arg3 op (mem_C2b op h)).trans (T3a_arg3 m d)
theorem T3_arg4 : T3 m d (Proc.devRef .tc main_arg4) = (m ((d.tc : Thread nD τ).loc main_arg4)) :=
  (after_of_forall_not_mem (opsC2b (F := Ideal)) _ fun op h => nw_arg4 op (mem_C2b op h)).trans (T3a_arg4 m d)
theorem T3_arg5 : T3 m d (Proc.devRef .tc main_arg5) = (m ((d.tc : Thread nD τ).loc main_arg5)) :=
  (after_of_forall_not_mem (opsC2b (F := Ideal)) _ fun op h => nw_arg5 op (mem_C2b op h)).trans (T3a_arg5 m d)
theorem T3_arg6 : T3 m d (Proc.devRef .tc main_arg6) = (m ((d.tc : Thread nD τ).loc main_arg6)) :=
  (after_of_forall_not_mem (opsC2b (F := Ideal)) _ fun op h => nw_arg6 op (mem_C2b op h)).trans (T3a_arg6 m d)
theorem T3_arg7 : T3 m d (Proc.devRef .tc main_arg7) = (m ((d.tc : Thread nD τ).loc main_arg7)) :=
  (after_of_forall_not_mem (opsC2b (F := Ideal)) _ fun op h => nw_arg7 op (mem_C2b op h)).trans (T3a_arg7 m d)
theorem T3_arg8 : T3 m d (Proc.devRef .tc main_arg8) = (m ((d.tc : Thread nD τ).loc main_arg8)) :=
  (after_of_forall_not_mem (opsC2b (F := Ideal)) _ fun op h => nw_arg8 op (mem_C2b op h)).trans (T3a_arg8 m d)
theorem T3_arg9 : T3 m d (Proc.devRef .tc main_arg9) = (m ((d.tc : Thread nD τ).loc main_arg9)) :=
  (after_of_forall_not_mem (opsC2b (F := Ideal)) _ fun op h => nw_arg9 op (mem_C2b op h)).trans (T3a_arg9 m d)
theorem T3_arg10 : T3 m d (Proc.devRef .tc main_arg10) = (m ((d.tc : Thread nD τ).loc main_arg10)) :=
  (after_of_forall_not_mem (opsC2b (F := Ideal)) _ fun op h => nw_arg10 op (mem_C2b op h)).trans (T3a_arg10 m d)
theorem T3_arg11 : T3 m d (Proc.devRef .tc main_arg11) = (m ((d.tc : Thread nD τ).loc main_arg11)) :=
  (after_of_forall_not_mem (opsC2b (F := Ideal)) _ fun op h => nw_arg11 op (mem_C2b op h)).trans (T3a_arg11 m d)
theorem T3_arg12 : T3 m d (Proc.devRef .tc main_arg12) = (m ((d.tc : Thread nD τ).loc main_arg12)) :=
  (after_of_forall_not_mem (opsC2b (F := Ideal)) _ fun op h => nw_arg12 op (mem_C2b op h)).trans (T3a_arg12 m d)
theorem T3_arg13 : T3 m d (Proc.devRef .tc main_arg13) = (m ((d.tc : Thread nD τ).loc main_arg13)) :=
  (after_of_forall_not_mem (opsC2b (F := Ideal)) _ fun op h => nw_arg13 op (mem_C2b op h)).trans (T3a_arg13 m d)
theorem T3_arg14 : T3 m d (Proc.devRef .tc main_arg14) = (m ((d.tc : Thread nD τ).loc main_arg14)) :=
  (after_of_forall_not_mem (opsC2b (F := Ideal)) _ fun op h => nw_arg14 op (mem_C2b op h)).trans (T3a_arg14 m d)
theorem T4a_arg0 : T4a m d (Proc.devRef .tc main_arg0) = (m ((d.tc : Thread nD τ).loc main_arg0)) :=
  (after_of_forall_not_mem (opsD1 (F := Ideal)) _ fun op h => nw_arg0 op (mem_D1 op h)).trans (T3_arg0 m d)
theorem T4a_arg1 : T4a m d (Proc.devRef .tc main_arg1) = (m ((d.tc : Thread nD τ).loc main_arg1)) :=
  (after_of_forall_not_mem (opsD1 (F := Ideal)) _ fun op h => nw_arg1 op (mem_D1 op h)).trans (T3_arg1 m d)
theorem T4a_arg2 : T4a m d (Proc.devRef .tc main_arg2) = (m ((d.tc : Thread nD τ).loc main_arg2)) :=
  (after_of_forall_not_mem (opsD1 (F := Ideal)) _ fun op h => nw_arg2 op (mem_D1 op h)).trans (T3_arg2 m d)
theorem T4a_arg3 : T4a m d (Proc.devRef .tc main_arg3) = (m ((d.tc : Thread nD τ).loc main_arg3)) :=
  (after_of_forall_not_mem (opsD1 (F := Ideal)) _ fun op h => nw_arg3 op (mem_D1 op h)).trans (T3_arg3 m d)
theorem T4a_arg4 : T4a m d (Proc.devRef .tc main_arg4) = (m ((d.tc : Thread nD τ).loc main_arg4)) :=
  (after_of_forall_not_mem (opsD1 (F := Ideal)) _ fun op h => nw_arg4 op (mem_D1 op h)).trans (T3_arg4 m d)
theorem T4a_arg5 : T4a m d (Proc.devRef .tc main_arg5) = (m ((d.tc : Thread nD τ).loc main_arg5)) :=
  (after_of_forall_not_mem (opsD1 (F := Ideal)) _ fun op h => nw_arg5 op (mem_D1 op h)).trans (T3_arg5 m d)
theorem T4a_arg6 : T4a m d (Proc.devRef .tc main_arg6) = (m ((d.tc : Thread nD τ).loc main_arg6)) :=
  (after_of_forall_not_mem (opsD1 (F := Ideal)) _ fun op h => nw_arg6 op (mem_D1 op h)).trans (T3_arg6 m d)
theorem T4a_arg7 : T4a m d (Proc.devRef .tc main_arg7) = (m ((d.tc : Thread nD τ).loc main_arg7)) :=
  (after_of_forall_not_mem (opsD1 (F := Ideal)) _ fun op h => nw_arg7 op (mem_D1 op h)).trans (T3_arg7 m d)
theorem T4a_arg8 : T4a m d (Proc.devRef .tc main_arg8) = (m ((d.tc : Thread nD τ).loc main_arg8)) :=
  (after_of_forall_not_mem (opsD1 (F := Ideal)) _ fun op h => nw_arg8 op (mem_D1 op h)).trans (T3_arg8 m d)
theorem T4a_arg9 : T4a m d (Proc.devRef .tc main_arg9) = (m ((d.tc : Thread nD τ).loc main_arg9)) :=
  (after_of_forall_not_mem (opsD1 (F := Ideal)) _ fun op h => nw_arg9 op (mem_D1 op h)).trans (T3_arg9 m d)
theorem T4a_arg10 : T4a m d (Proc.devRef .tc main_arg10) = (m ((d.tc : Thread nD τ).loc main_arg10)) :=
  (after_of_forall_not_mem (opsD1 (F := Ideal)) _ fun op h => nw_arg10 op (mem_D1 op h)).trans (T3_arg10 m d)
theorem T4a_arg11 : T4a m d (Proc.devRef .tc main_arg11) = (m ((d.tc : Thread nD τ).loc main_arg11)) :=
  (after_of_forall_not_mem (opsD1 (F := Ideal)) _ fun op h => nw_arg11 op (mem_D1 op h)).trans (T3_arg11 m d)
theorem T4a_arg12 : T4a m d (Proc.devRef .tc main_arg12) = (m ((d.tc : Thread nD τ).loc main_arg12)) :=
  (after_of_forall_not_mem (opsD1 (F := Ideal)) _ fun op h => nw_arg12 op (mem_D1 op h)).trans (T3_arg12 m d)
theorem T4a_arg13 : T4a m d (Proc.devRef .tc main_arg13) = (m ((d.tc : Thread nD τ).loc main_arg13)) :=
  (after_of_forall_not_mem (opsD1 (F := Ideal)) _ fun op h => nw_arg13 op (mem_D1 op h)).trans (T3_arg13 m d)
theorem T4a_arg14 : T4a m d (Proc.devRef .tc main_arg14) = (m ((d.tc : Thread nD τ).loc main_arg14)) :=
  (after_of_forall_not_mem (opsD1 (F := Ideal)) _ fun op h => nw_arg14 op (mem_D1 op h)).trans (T3_arg14 m d)

/-! ## The boundary valuations' defining equations -/

theorem T0a_def : T0a m d = after (opsA1 (F := Ideal)) (launchContents m d) := rfl
theorem T1_def : T1 m d = after (opsA2 (F := Ideal)) (T0a m d) := rfl
theorem T2a_def : T2a m d = after (opsB1 (F := Ideal)) (T1 m d) := rfl
theorem T2_def : T2 m d = after (opsB2 (F := Ideal)) (T2a m d) := rfl
theorem T2b_def : T2b m d = after (opsC1 (F := Ideal)) (T2 m d) := rfl
theorem T3a_def : T3a m d = after (opsC2a (F := Ideal)) (T2b m d) := rfl
theorem T3_def : T3 m d = after (opsC2b (F := Ideal)) (T3a m d) := rfl
theorem T4a_def : T4a m d = after (opsD1 (F := Ideal)) (T3 m d) := rfl
theorem T4_def : T4 m d = after (opsD2 (F := Ideal)) (T4a m d) := rfl

end Cert.GraphBlock.Ref

end
-- ==== Proof.RefFold.lean ====
/-
  The reference's fold read piece by piece.  After the first piece the centred input and its inverse-deviation table
  are the shared stage functions of the arguments; the second piece scales, shifts and applies SiLU; the third
  aggregates along the edges; the fourth projects and adds the embedding rows: the hidden features.  The next four
  pieces do the same to the hidden features and close with the skip connection.  Chained, the result buffer holds the
  whole block function of the arguments, and with the arguments never written this is the reference's run.
-/
import proofs.«428457_j2224793059401_1_alg».proof.Proof.RefArgs
import proofs.«428457_j2224793059401_1_alg».proof.Proof.HostStages

set_option maxRecDepth 16384

noncomputable section

namespace Cert.GraphBlock.Ref

open Idealize.ShloMosaic Idealize.ShloMosaic.TcCoe Idealize.SL.Sem Idealize.ShloMosaic.StableHlo
open Cert.ReferenceIdeal Cert.ReferenceIdeal.Gen Cert.ReferenceIdeal.Fold

/-- the rewrite loop that reads an operation's result at its own buffer and passes over every other buffer. -/
macro "results_rw" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

variable (m : (ℓ : Loc nD τ sig) → Buf (Elt Ideal) ℓ) (d : Dev nD)

-- a boundary's valuation is read only through its defining equation and the argument facts
attribute [local irreducible] T0a T1 T2a T2 T2b T3a T3 T4a T4

/-- a value stored at a typed reference and read back is itself. -/
theorem ofBuf_toBuf' {T : BufTy} (x : TRef sig T) (v : T.Contents (Elt Ideal)) : x.ofBuf (x.toBuf v) = v := by
  simp only [TRef.ofBuf, TRef.toBuf, cast_cast, cast_eq]

/-! ## The first round -/

set_option maxHeartbeats 2000000 in
theorem ta_diff : T0a m d (Proc.devRef .tc main_v25) = diffH (m ((d.tc : Thread nD τ).loc main_arg0)) (m ((d.tc : Thread nD τ).loc main_arg14)) := by
  rw [T0a_def m d]
  simp only [opsA1]
  after_results_simp
  rfl

set_option maxHeartbeats 2000000 in
theorem ta_inv : T0a m d (Proc.devRef .tc main_v40) = invH (m ((d.tc : Thread nD τ).loc main_arg0)) (m ((d.tc : Thread nD τ).loc main_arg14)) := by
  rw [T0a_def m d]
  simp only [opsA1]
  after_results_simp
  rfl

set_option maxHeartbeats 2000000 in
theorem t1 : T1 m d (Proc.devRef .tc main_v55) = normSiluH (T0a m d (Proc.devRef .tc main_v25)) (T0a m d (Proc.devRef .tc main_v40)) (m ((d.tc : Thread nD τ).loc main_arg4)) (m ((d.tc : Thread nD τ).loc main_arg5)) (m ((d.tc : Thread nD τ).loc main_arg14)) := by
  rw [T1_def m d]
  simp only [opsA2]
  after_results_simp
  try simp only [StableHlo.TRef.ofBuf, StableHlo.TRef.toBuf, cast_eq]
  rw [T0a_arg4 m d, T0a_arg5 m d, T0a_arg14 m d]
  rfl

set_option maxHeartbeats 2000000 in
theorem t2a : T2a m d (Proc.devRef .tc main_v71) = aggH (T1 m d (Proc.devRef .tc main_v55)) (m ((d.tc : Thread nD τ).loc main_arg10)) (m ((d.tc : Thread nD τ).loc main_arg11)) (m ((d.tc : Thread nD τ).loc main_arg12)) (m ((d.tc : Thread nD τ).loc main_arg13)) := by
  rw [T2a_def m d]
  simp only [opsB1]
  dsimp only [StableHlo.TRef.unary, StableHlo.TRef.binary, StableHlo.TRef.nullary, StableHlo.TRef.of, StableHlo.TRef.toBuf, StableHlo.TRef.ofBuf]
  after_results_simp
  results_rw
  rw [T1_arg10 m d, T1_arg11 m d, T1_arg12 m d, T1_arg13 m d]
  rfl

set_option maxHeartbeats 2000000 in
theorem t2 : T2 m d (Proc.devRef .tc main_v85) = conv1H (T2a m d (Proc.devRef .tc main_v71)) (m ((d.tc : Thread nD τ).loc main_arg2)) (embH (m ((d.tc : Thread nD τ).loc main_arg1)) (m ((d.tc : Thread nD τ).loc main_arg8)) (m ((d.tc : Thread nD τ).loc main_arg9))) (m ((d.tc : Thread nD τ).loc main_arg14)) := by
  rw [T2_def m d]
  simp only [opsB2]
  after_results_simp
  try simp only [StableHlo.TRef.ofBuf, StableHlo.TRef.toBuf, cast_eq]
  rw [T2a_arg2 m d, T2a_arg1 m d, T2a_arg8 m d, T2a_arg9 m d, T2a_arg14 m d]
  rfl

/-- the hidden features. -/
theorem hidden_eq : T2 m d (Proc.devRef .tc main_v85) = (hiddenH (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))) := by
  rw [t2 m d, t2a m d, t1 m d, ta_diff m d, ta_inv m d]; rfl

/-! ## The second round -/

set_option maxHeartbeats 2000000 in
theorem tc_diff : T2b m d (Proc.devRef .tc main_v111) = diffH (T2 m d (Proc.devRef .tc main_v85)) (m ((d.tc : Thread nD τ).loc main_arg14)) := by
  rw [T2b_def m d]
  simp only [opsC1]
  after_results_simp
  rw [T2_arg14 m d]
  rfl

set_option maxHeartbeats 2000000 in
theorem tc_inv : T2b m d (Proc.devRef .tc main_v126) = invH (T2 m d (Proc.devRef .tc main_v85)) (m ((d.tc : Thread nD τ).loc main_arg14)) := by
  rw [T2b_def m d]
  simp only [opsC1]
  after_results_simp
  rw [T2_arg14 m d]
  rfl

set_option maxHeartbeats 2000000 in
theorem t3a : T3a m d (Proc.devRef .tc main_v140)
    = addf (mulf (mulf (T2b m d (Proc.devRef .tc main_v111)) (rowsOf (T2b m d (Proc.devRef .tc main_v126)) (m ((d.tc : Thread nD τ).loc main_arg14)))) (alongRows (m ((d.tc : Thread nD τ).loc main_arg6)))) (alongRows (m ((d.tc : Thread nD τ).loc main_arg7))) := by
  rw [T3a_def m d]
  simp only [opsC2a]
  after_results_simp
  rw [T2b_arg6 m d, T2b_arg7 m d, T2b_arg14 m d]
  rfl

set_option maxHeartbeats 2000000 in
theorem t3 : T3 m d (Proc.devRef .tc main_v141) = siluH (T3a m d (Proc.devRef .tc main_v140)) := by
  rw [T3_def m d]
  simp only [opsC2b]
  after_results_simp
  simp only [ofBuf_toBuf']
  rfl

/-- the second activation: the hidden features normalised, scaled, shifted and SiLU-ed. -/
theorem act2_eq : T3 m d (Proc.devRef .tc main_v141) = normSiluH (diffH (hiddenH (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))) (m ((d.tc : Thread nD τ).loc main_arg14))) (invH (hiddenH (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))) (m ((d.tc : Thread nD τ).loc main_arg14))) (m ((d.tc : Thread nD τ).loc main_arg6)) (m ((d.tc : Thread nD τ).loc main_arg7)) (m ((d.tc : Thread nD τ).loc main_arg14)) := by
  rw [t3 m d, t3a m d, tc_diff m d, tc_inv m d, hidden_eq m d]; rfl

set_option maxHeartbeats 2000000 in
theorem t4a : T4a m d (Proc.devRef .tc main_v157) = aggH (T3 m d (Proc.devRef .tc main_v141)) (m ((d.tc : Thread nD τ).loc main_arg10)) (m ((d.tc : Thread nD τ).loc main_arg11)) (m ((d.tc : Thread nD τ).loc main_arg12)) (m ((d.tc : Thread nD τ).loc main_arg13)) := by
  rw [T4a_def m d]
  simp only [opsD1]
  dsimp only [StableHlo.TRef.unary, StableHlo.TRef.binary, StableHlo.TRef.nullary, StableHlo.TRef.of, StableHlo.TRef.toBuf, StableHlo.TRef.ofBuf]
  after_results_simp
  results_rw
  rw [T3_arg10 m d, T3_arg11 m d, T3_arg12 m d, T3_arg13 m d]
  rfl

theorem t4 : T4 m d (Proc.devRef .tc main_v159) = conv2H (T4a m d (Proc.devRef .tc main_v157)) (m ((d.tc : Thread nD τ).loc main_arg3)) (m ((d.tc : Thread nD τ).loc main_arg0)) := by
  rw [T4_def m d]
  simp only [opsD2]
  after_results_simp
  try simp only [StableHlo.TRef.ofBuf, StableHlo.TRef.toBuf, cast_eq]
  rw [T4a_arg3 m d, T4a_arg0 m d]
  rfl

/-- the reference's result buffer holds the whole block function of the arguments. -/
theorem result_eq : after (ops (F := Ideal)) (launchContents m d) (Proc.devRef .tc main_v159)
    = blockH (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) := by
  rw [fold_eq m d, t4 m d, t4a m d, act2_eq m d]; rfl

/-! ## The reference's run -/

/-- every weakly fair execution of the reference terminates with its result at the whole block function of the
    arguments and the arguments as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ d : Dev nD,
      r.2.mem ((d.tc : Thread nD τ).loc main_v159) = blockH (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13)
      ∧ r.2.mem ((d.tc : Thread nD τ).loc main_arg14) = m ((d.tc : Thread nD τ).loc main_arg14) :=
  (θ_run defs _ _).mono (fun _ h d => ⟨(h d main_v159).trans (result_eq m d),
      (h d main_arg0).trans (kept_arg0 m d),
      (h d main_arg1).trans (kept_arg1 m d),
      (h d main_arg2).trans (kept_arg2 m d),
      (h d main_arg3).trans (kept_arg3 m d),
      (h d main_arg4).trans (kept_arg4 m d),
      (h d main_arg5).trans (kept_arg5 m d),
      (h d main_arg6).trans (kept_arg6 m d),
      (h d main_arg7).trans (kept_arg7 m d),
      (h d main_arg8).trans (kept_arg8 m d),
      (h d main_arg9).trans (kept_arg9 m d),
      (h d main_arg10).trans (kept_arg10 m d),
      (h d main_arg11).trans (kept_arg11 m d),
      (h d main_arg12).trans (kept_arg12 m d),
      (h d main_arg13).trans (kept_arg13 m d),
      (h d main_arg14).trans (kept_arg14 m d)⟩) (run_fold m ρ)

end Cert.GraphBlock.Ref

end
-- ==== Proof.BatchRange.lean ====
/-
  The added precondition conjunct, read back: when the printed precondition evaluates to true, every batch id,
  as a 32-bit word, is one of 0..7.
-/
import proofs.«428457_j2224793059401_1_alg».proof.Defs
import proofs.«428457_j2224793059401_1_alg».proof.Proof.Gen.Pre_finite_inputs
import Idealize.ShloMosaic.Lib.ReduceAll
import Idealize.ShloMosaic.Lib.StableHlo.Predicate
import Idealize.ShloMosaic.Lib.ValueIdx

noncomputable section

namespace Cert.GraphBlock

open Idealize.ShloMosaic Idealize.ShloMosaic.ValueIdx Idealize.SL.Sem

/-- A 32-bit word that tests nonnegative and below eight, both signed, is below eight read unsigned:
    a nonnegative signed reading has its top bit clear, so the signed and the unsigned readings agree. -/
theorem toNat_lt_eight_of_signed (x : BitVec 32)
    (h0 : IntOp.cmpi .sge x 0#32 = 1#1) (h8 : IntOp.cmpi .slt x 8#32 = 1#1) : x.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hc := BitVec.toInt_eq_toNat_cond x
  split at hc <;> omega

/-- Under the precondition every entry of the batch-id argument, read as an unsigned word, is below 8. -/
theorem bid_lt_eight
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (n : Fin 131072) :
    ((m ((c.tc : Thread Cert.KernelIdeal.nD Cert.KernelIdeal.τ).loc Cert.KernelIdeal.main_arg14) : IVec Cert.KernelIdeal.S131072 32) (ix1 n)).toNat < 8 := by
  -- the precondition's value at the scalar's one index is 1
  have h := congrFun (hpre c) ValueIdx.ix0
  dsimp only [Cert.Pre_finite_inputs.fn, Cert.Pre_finite_inputs.fn_part1, Cert.Pre_finite_inputs.fn_part2,
    Cert.Pre_finite_inputs.fn_part3] at h
  -- the outermost conjunction: keep its last conjunct, the conjunction over all entries of the range test
  have h2 := (IntOp.andi_eq_one.1 h).2
  -- the scalar shape has one index, so a conjunction over all entries that is 1 is 1 at entry n
  haveI : Subsingleton Cert.Pre_finite_inputs.S_.Idx := ⟨fun a b => funext fun d => d.elim0⟩
  have h3 := Host.reduce_andi_all _ _ _ _ _ h2 (ix1 n)
  -- the range test at entry n is the conjunction of two signed comparisons
  obtain ⟨h0, h8⟩ := IntOp.andi_eq_one.1 h3
  -- at entry n the two comparisons read the word against the broadcast scalars 0 and 8
  exact toNat_lt_eight_of_signed _ h0 h8

end Cert.GraphBlock

end
-- ==== Proof.lean ====
/-
  The graph-convolution U-Net block: group normalisation + SiLU, edge aggregation and projection plus the per-batch
  embedding, a second normalisation + SiLU, aggregation and projection, and the skip connection.  The kernel computes
  the two normalise-SiLU passes and the two projections in four pallas_calls and everything else with the reference's
  own host operations; it takes a batch's table row by a one-hot product where the reference gathers it, and at the
  ideal instance those agree exactly when every batch id lies in 0..7 — the added precondition conjunct, the domain on
  which the reference's own indexing of its 8-row tables is in range.  SiLU needs no finiteness: the kernel's logistic
  and the reference's 1 / (1 + exp (-y)) are one function on the extended reals, and the bf16 rounding of the
  projections' operands is the identity there, so both projections are the same 497-term sums.
  The kernels' frames are the generated ones; the reference's is its run with the result dropped;
  `preserves` has no conjunct; `algebraic` puts the kernel's run, read call by call (Chain), beside the reference's
  run, its fold read piece by piece (RefFold): both results are `blockH` of the arguments.
-/
import proofs.«428457_j2224793059401_1_alg».proof.Defs
import proofs.«428457_j2224793059401_1_alg».proof.Proof.Gen.Kernel
import proofs.«428457_j2224793059401_1_alg».proof.Proof.Gen.Kernel.Frame
import proofs.«428457_j2224793059401_1_alg».proof.Proof.Gen.KernelIdeal
import proofs.«428457_j2224793059401_1_alg».proof.Proof.Gen.KernelIdeal.Frame
import proofs.«428457_j2224793059401_1_alg».proof.Proof.Gen.ReferenceIdeal
import proofs.«428457_j2224793059401_1_alg».proof.Proof.Gen.Pre_finite_inputs
import proofs.«428457_j2224793059401_1_alg».proof.Proof.KernelRun
import proofs.«428457_j2224793059401_1_alg».proof.Proof.Chain
import proofs.«428457_j2224793059401_1_alg».proof.Proof.RefFold
import proofs.«428457_j2224793059401_1_alg».proof.Proof.BatchRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- the reference's run with its result dropped. -/
theorem frame_ri : Cert.frame_ReferenceIdeal := fun m ρ _ =>
  (θ_run Cert.ReferenceIdeal.defs _ _).mono (fun _ h c => (h c).2) (Cert.GraphBlock.Ref.ref_run m ρ)

/-- Both programs end with the result buffer at the whole block function of the (agreeing) arguments: the kernel
    by its four pallas_calls chained over the host stretches, under the batch-id range the precondition gives; the
    reference by its fold read piece by piece. -/
theorem algebraic : Cert.algebraic_KernelIdeal_ReferenceIdeal := by
  intro m ρ m' ρ' hpre hagree
  refine ⟨fun c => Cert.GraphBlock.Ref.blockH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.GraphBlock.k12 m ρ c (Cert.GraphBlock.bid_lt_eight m hpre c)), (h c).2⟩)
      (Cert.KernelIdeal.Named.run_named m ρ)
  · refine (θ_run Cert.ReferenceIdeal.defs _ _).mono (fun r h c => ⟨?_, (h c).2⟩)
      (Cert.GraphBlock.Ref.ref_run m' ρ')
    obtain ⟨h0, h1, h2, h3, h4, h5, h6, h7, h8, h9, h10, h11, h12, h13, h14⟩ := hagree c
    rw [(h c).1, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
